-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x1x4096 : Shape := ⟨3, ![16, 1, 4096]⟩
abbrev S16x4096 : Shape := ⟨2, ![16, 4096]⟩
abbrev S1x1024x3 : Shape := ⟨3, ![1, 1024, 3]⟩
abbrev S1x1x1024 : Shape := ⟨3, ![1, 1, 1024]⟩
abbrev S1x1024 : Shape := ⟨2, ![1, 1024]⟩
abbrev S1x1024x1024 : Shape := ⟨3, ![1, 1024, 1024]⟩
abbrev S1x1024x1 : Shape := ⟨3, ![1, 1024, 1]⟩
abbrev S_ : Shape := ⟨0, ![]⟩
abbrev S16 : Shape := ⟨1, ![16]⟩

abbrev nBuf : Space → Nat
  | .hbm => 21
  | .vmem => 14
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x1x4096, .f32⟩
  | .hbm, ⟨3, _⟩ => ⟨S16x4096, .f32⟩
  | .hbm, ⟨4, _⟩ => ⟨S16x1x4096, .f32⟩
  | .hbm, ⟨5, _⟩ => ⟨S16x4096, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x3, .f32⟩
  | .local _ .vmem, ⟨8, _⟩ => ⟨S1x1024x3, .f32⟩
  | .local _ .vmem, ⟨9, _⟩ => ⟨S1x1024x3, .f32⟩
  | .local _ .vmem, ⟨10, _⟩ => ⟨S1x1024x3, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev main_call1_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_17 : BitVec 32 := 0#32
  let v31 : BitVec 1 := Scalar.cmpi .ne v30 c0_i32_17
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 4, 4], ![false, false, false]⟩

def k1_cond2 (i : grid1.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_17 : BitVec 32 := 0#32
  let v31 : BitVec 1 := Scalar.cmpi .ne v30 c0_i32_17
  v31

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S16x1x4096_S16x4096 : S16x1x4096.ShapeCasts S16x4096
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  inb_S1x1024x3_S1x1024x3_0_0_0 : ∀ a, (![0, 0, 0] : Fin 3 → Nat) a + S1x1024x3.size a ≤ S1x1024x3.size a
  h_S1x1024x3 : 0 < S1x1024x3.numel
  reduces_S1x1024x3_S1x1024 : S1x1024x3.Reduces [2] S1x1024
  bitsLt_bf16_f32 : FTy.bits .bf16 < FTy.bits .f32
  shapeCasts_S1x1024_S1x1024x1 : S1x1024.ShapeCasts S1x1024x1
  shapeCasts_S1x1024_S1x1x1024 : S1x1024.ShapeCasts S1x1x1024
  broadcasts_S1x1024x1_S1x1024x1024 : S1x1024x1.Broadcasts S1x1024x1024
  broadcasts_S1x1x1024_S1x1024x1024 : S1x1x1024.Broadcasts S1x1024x1024
  reduces_S1x1024x1024_S1x1024 : S1x1024x1024.Reduces [2] S1x1024
  reducesTo_S16x4096_S16_d1 : S16x4096.ReducesTo [1] S16
  h_S_ : 0 < S_.numel
  bcast_S_S16 : S_.BroadcastsInDim S16 (![] : Fin 0 → Fin S16.rank)
  reducesTo_S16_S_d0 : S16.ReducesTo [0] S_
  dot_S1x1024x3_S1x1024x3_S1x1024x1024_2_2_1_1_0_0_wf : DotDims.WF S1x1024x3 S1x1024x3 S1x1024x1024 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S16x4096x3.size a
  hwx0_0 : ∀ i : grid0.Coords, EltTy.bits .f32 = 32 ∨ (Rect.block (s := S16x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S16x4096x3.size a
  hwx0_1 : ∀ i : grid0.Coords, EltTy.bits .f32 = 32 ∨ (Rect.block (s := S16x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x4096.size a
  hwx0_2 : ∀ i : grid0.Coords, EltTy.bits .f32 = 32 ∨ (Rect.block (s := S16x1x4096) S1x1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x3.size a ≤ S16x4096x3.size a
  hwx1_0 : ∀ i : grid1.Coords, EltTy.bits .f32 = 32 ∨ (Rect.block (s := S16x4096x3) S1x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x3.size a ≤ S16x4096x3.size a
  hwx1_1 : ∀ i : grid1.Coords, EltTy.bits .f32 = 32 ∨ (Rect.block (s := S16x4096x3) S1x1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S16x1x4096.size a
  hwx1_2 : ∀ i : grid1.Coords, EltTy.bits .f32 = 32 ∨ (Rect.block (s := S16x1x4096) S1x1x1024.size (cc1_transform_2 i) (hinb1_2 i)).WholeWords (EltTy.packing .f32)

variable [Facts₀]

def dot_S1x1024x3_S1x1024x3_S1x1024x1024_2_2_1_1_0_0 : DotDims S1x1024x3 S1x1024x3 S1x1024x1024 where
  lhsContracting := [2]
  rhsContracting := [2]
  lhsNonContracting := [1]
  rhsNonContracting := [1]
  lhsBatch := [0]
  rhsBatch := [0]
  wf := dot_S1x1024x3_S1x1024x3_S1x1024x1024_2_2_1_1_0_0_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call1_v0) S1x1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 40
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096x4096, .f32⟩
  | .hbm, ⟨20, _⟩ => ⟨S16x4096x4096, .f32⟩
  | .hbm, ⟨21, _⟩ => ⟨S_, .f32⟩
  | .hbm, ⟨22, _⟩ => ⟨S16x4096, .f32⟩
  | .hbm, ⟨23, _⟩ => ⟨S_, .f32⟩
  | .hbm, ⟨24, _⟩ => ⟨S16x4096, .f32⟩
  | .hbm, ⟨25, _⟩ => ⟨S_, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S16_d1 : S16x4096.ReducesTo [1] S16
  bcast_S_S16 : S_.BroadcastsInDim S16 (![] : Fin 0 → Fin S16.rank)
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.KB.Conds.lean ====
/-
  The grid of each of the two launches is 16 x 4 x 4 (batch, row tile, column tile), walked in row-major order, so
  the column-tile coordinate of point t is t mod 4. The body resets its running minimum where that coordinate is 0
  and copies it to the output block where it is 3; elsewhere the output window is idle. These facts are decided
  once over the 256 points.
-/
import proofs.«103797_j83425444758259_1_alg».proof.Proof.Gen.Kernel.Launch
import proofs.«103797_j83425444758259_1_alg».proof.Proof.Gen.Kernel.Skeleton
import proofs.«103797_j83425444758259_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: where the running minimum is reset and where it is written out -/

/-- The first conditional of the body (reset the running minimum): taken when the column-tile coordinate is 0. -/
abbrev cond0_0 (i : grid0.Coords) : Prop := (Scalar.cmpi .ne (Scalar.extui (Scalar.cmpi .eq (BitVec.ofNat 32 (i 2).val) 0#32)) 0#32) = 1#1
/-- Over the grid in row-major order the column-tile coordinate is the point's number modulo 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (copy the running minimum to the output block): taken at the last column tile. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last column tile the output window is idle (nothing is stored into it) and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last column tile the output window is live. -/
theorem liveAt0_2 : ∀ t : Fin cfg0.N, cond0_1 (grid0.coords t) → cfg0.idle 2 (grid0.coords t) = false := by decide +kernel

/-- Each window's current staging memref at point `t`, as the pipeline passes it to the body, and its wholeness. -/
abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
/-- The scratch buffer that carries the running minimum from one column tile to the next. -/
abbrev scM0 : Memref sig .tc .vmem S1x1x1024 .f32 := Memref.whole cc0_scratch0
/-- The views through which the scratch's and the output block's contents are stated. -/
abbrev VS0 : View sig .tc .vmem S1x1x1024 .f32 := (scM0).view
abbrev VO0 : View sig .tc .vmem S1x1x1024 .f32 := (Memref.whole cc0_stg2_0 : Memref sig .tc .vmem S1x1x1024 .f32).view

/-! ## Region 1: where the running minimum is reset and where it is written out -/

/-- The first conditional of the body (reset the running minimum): taken when the column-tile coordinate is 0. -/
abbrev cond1_0 (i : grid1.Coords) : Prop := (Scalar.cmpi .ne (Scalar.extui (Scalar.cmpi .eq (BitVec.ofNat 32 (i 2).val) 0#32)) 0#32) = 1#1
/-- Over the grid in row-major order the column-tile coordinate is the point's number modulo 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (copy the running minimum to the output block): taken at the last column tile. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last column tile the output window is idle (nothing is stored into it) and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last column tile the output window is live. -/
theorem liveAt1_2 : ∀ t : Fin cfg1.N, cond1_1 (grid1.coords t) → cfg1.idle 2 (grid1.coords t) = false := by decide +kernel

/-- Each window's current staging memref at point `t`, as the pipeline passes it to the body, and its wholeness. -/
abbrev ms1_0 (t : Fin cfg1.N) : Memref sig .tc .vmem S1x1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1024 .f32 := win1_2.stage (cfg1.slots t 2)
abbrev hs1_2 (t : Fin cfg1.N) : (ms1_2 t).IsWhole := hstage1_2 ((cfg1.slots t 2).cast nbuf1_2)
/-- The scratch buffer that carries the running minimum from one column tile to the next. -/
abbrev scM1 : Memref sig .tc .vmem S1x1x1024 .f32 := Memref.whole cc1_scratch0
/-- The views through which the scratch's and the output block's contents are stated. -/
abbrev VS1 : View sig .tc .vmem S1x1x1024 .f32 := (scM1).view
abbrev VO1 : View sig .tc .vmem S1x1x1024 .f32 := (Memref.whole cc1_stg2_0 : Memref sig .tc .vmem S1x1x1024 .f32).view

end Cert.Kernel.Fr

end
-- ==== Proof.KB.Region0.lean ====
/-
  The first launch's region: for every batch and row tile the body walks the four column tiles, keeping in a scratch
  buffer the running minimum of the squared distances seen so far. The running minimum is reset at the first column
  tile, updated at every one, and copied to the output block at the last; at the other column tiles the output block
  is idle. This module runs the body in its three cases on arbitrary staging memrefs, states what the running minimum
  and the output block hold after every point (an accumulation along the points), and assembles the region's proof
  data with the running minimum carried by the invariant from one point to the next — all of it at a parameter: the
  contents of the core's buffers when the region is entered.
-/
import proofs.«103797_j83425444758259_1_alg».proof.Proof.KB.Conds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of the kernel, case by case

The body distinguishes three kinds of grid point by the column-tile coordinate: the first column tile, where the
running minimum is reset before it is updated; the middle ones, where it is only updated; the last, where after the
update it is copied to the output block. In each case the body is run once and for all on arbitrary whole staging
memrefs: the witness of the run is the list of pieces (last write first) that each buffer written ends with. -/

set_option maxHeartbeats 1000000 in
/-- FIRST COLUMN TILE (the reset is taken, the copy-out is not). The two input blocks are held at `xa`, `xb`; the
    output block is not touched and comes back at the contents `xo` it came with; the running minimum may hold
    anything on entry (it is overwritten with +infinity before it is read for the update) and leaves with the pieces
    `LS` written. -/
noncomputable def kernelRun0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond0_0 i) (hcb : ¬cond0_1 i)
    (xa : Vec F S1x1024x3 .f32) (xb : Vec F S1x1024x3 .f32) :
    Σ' (LO : List (View.Piece (Elt F) S1x1x1024 .f32)), { LS : List (View.Piece (Elt F) S1x1x1024 .f32) //
      ∀ (xo : Vec F S1x1x1024 .f32) (E : Set ℕ) (K : PUnit → sProp 𝕄),
        iprop(owns (c : Thread nD τ) arg3 fullShare xa ∗ owns (c : Thread nD τ) arg4 fullShare xb ∗ owns (c : Thread nD τ) arg5 fullShare xo ∗ (∃ d, owns (c : Thread nD τ) arg6 fullShare d)
            ∗ (iprop(owns (c : Thread nD τ) arg3 fullShare xa ∗ owns (c : Thread nD τ) arg4 fullShare xb ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__min_dist_kernel i arg3 harg3 arg4 harg4 arg5 harg5 arg6 harg6) K } := by
  refine ⟨[], ?_, fun xo E K => ?run⟩
  case run =>
    simp only [cc0__min_dist_kernel_eq_skeleton]; unfold cc0__min_dist_kernel_skel
    simp only [k0_part1_eq_skeleton]
    unfold owns
    iintro ⟨⟨%fa, %hfa, Ha⟩, ⟨%fb, %hfb, Hb⟩, ⟨%fo, %hfo, Ho⟩, ⟨%ds, %fs, -, HS⟩, Hk⟩
    obtain rfl := harg3.eq_unread hfa; obtain rfl := harg4.eq_unread hfb; obtain rfl := harg5.eq_unread hfo
    sl_exec (disch := first | exact hca | exact hcb)
    sl_step
    iapply Hk
    isplitl [Ha]
    · iexists _; isplitr; · ipureintro; exact harg3.read_unread _
      iexact Ha
    isplitl [Hb]
    · iexists _; isplitr; · ipureintro; exact harg4.read_unread _
      iexact Hb
    isplitl [Ho]
    · iexists _; isplitr; · ipureintro; exact harg5.read_unread _
      iexact Ho
    iexists _; iexact HS

set_option maxHeartbeats 1000000 in
/-- MIDDLE COLUMN TILES (neither conditional is taken). As before, but the running minimum comes in at the contents
    `xs` the point before left, which the update reads. -/
noncomputable def kernelRun0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : ¬cond0_1 i)
    (xa : Vec F S1x1024x3 .f32) (xb : Vec F S1x1024x3 .f32) (xs : Vec F S1x1x1024 .f32) :
    Σ' (LO : List (View.Piece (Elt F) S1x1x1024 .f32)), { LS : List (View.Piece (Elt F) S1x1x1024 .f32) //
      ∀ (xo : Vec F S1x1x1024 .f32) (E : Set ℕ) (K : PUnit → sProp 𝕄),
        iprop(owns (c : Thread nD τ) arg3 fullShare xa ∗ owns (c : Thread nD τ) arg4 fullShare xb ∗ owns (c : Thread nD τ) arg5 fullShare xo ∗ owns (c : Thread nD τ) arg6 fullShare xs
            ∗ (iprop(owns (c : Thread nD τ) arg3 fullShare xa ∗ owns (c : Thread nD τ) arg4 fullShare xb ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__min_dist_kernel i arg3 harg3 arg4 harg4 arg5 harg5 arg6 harg6) K } := by
  refine ⟨[], ?_, fun xo E K => ?run⟩
  case run =>
    simp only [cc0__min_dist_kernel_eq_skeleton]; unfold cc0__min_dist_kernel_skel
    simp only [k0_part1_eq_skeleton]
    unfold owns
    iintro ⟨⟨%fa, %hfa, Ha⟩, ⟨%fb, %hfb, Hb⟩, ⟨%fo, %hfo, Ho⟩, ⟨%fs, %hfs, HS⟩, Hk⟩
    obtain rfl := harg3.eq_unread hfa; obtain rfl := harg4.eq_unread hfb; obtain rfl := harg5.eq_unread hfo; obtain rfl := harg6.eq_unread hfs
    sl_exec (disch := first | exact hca | exact hcb)
    sl_step
    iapply Hk
    isplitl [Ha]
    · iexists _; isplitr; · ipureintro; exact harg3.read_unread _
      iexact Ha
    isplitl [Hb]
    · iexists _; isplitr; · ipureintro; exact harg4.read_unread _
      iexact Hb
    isplitl [Ho]
    · iexists _; isplitr; · ipureintro; exact harg5.read_unread _
      iexact Ho
    iexists _; iexact HS

set_option maxHeartbeats 1000000 in
/-- LAST COLUMN TILE (the reset is not taken, the copy-out is). The running minimum comes in at `xs` and is updated;
    then the output block, whatever it held, is overwritten whole with the updated minimum: it leaves with the
    pieces `LO` written. -/
noncomputable def kernelRun0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : cond0_1 i)
    (xa : Vec F S1x1024x3 .f32) (xb : Vec F S1x1024x3 .f32) (xs : Vec F S1x1x1024 .f32) :
    Σ' (LO : List (View.Piece (Elt F) S1x1x1024 .f32)), { LS : List (View.Piece (Elt F) S1x1x1024 .f32) //
      ∀ (E : Set ℕ) (K : PUnit → sProp 𝕄),
        iprop(owns (c : Thread nD τ) arg3 fullShare xa ∗ owns (c : Thread nD τ) arg4 fullShare xb ∗ (∃ d, owns (c : Thread nD τ) arg5 fullShare d) ∗ owns (c : Thread nD τ) arg6 fullShare xs
            ∗ (iprop(owns (c : Thread nD τ) arg3 fullShare xa ∗ owns (c : Thread nD τ) arg4 fullShare xb ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__min_dist_kernel i arg3 harg3 arg4 harg4 arg5 harg5 arg6 harg6) K } := by
  refine ⟨?_, ?_, fun E K => ?run⟩
  case run =>
    simp only [cc0__min_dist_kernel_eq_skeleton]; unfold cc0__min_dist_kernel_skel
    simp only [k0_part1_eq_skeleton]
    unfold owns
    iintro ⟨⟨%fa, %hfa, Ha⟩, ⟨%fb, %hfb, Hb⟩, ⟨%dO, %fo, -, Ho⟩, ⟨%fs, %hfs, HS⟩, Hk⟩
    obtain rfl := harg3.eq_unread hfa; obtain rfl := harg4.eq_unread hfb; obtain rfl := harg6.eq_unread hfs
    sl_exec (disch := first | exact hca | exact hcb)
    sl_step
    iapply Hk
    isplitl [Ha]
    · iexists _; isplitr; · ipureintro; exact harg3.read_unread _
      iexact Ha
    isplitl [Hb]
    · iexists _; isplitr; · ipureintro; exact harg4.read_unread _
      iexact Hb
    isplitl [Ho]; · iexists _; iexact Ho
    iexists _; iexact HS

/-! ## What each case leaves in the running minimum and in the output block -/

/-- The first column tile stores nothing into the output block (no pieces): a placeholder that nothing consults, the block being neither written back nor read on at such a point. -/
def out0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond0_0 i) (hcb : ¬cond0_1 i)
    (xa : Vec F S1x1024x3 .f32) (xb : Vec F S1x1024x3 .f32) : Vec F S1x1x1024 .f32 :=
  VO0.read (Elt F) (VO0.writes (Elt F) VO0.junk (kernelRun0_A c i arg3 harg3 arg4 harg4 arg5 harg5 arg6 harg6 hca hcb xa xb).1)

/-- The pieces the first column tile writes into the running minimum tile it, so they cover it. -/
theorem scover0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond0_0 i) (hcb : ¬cond0_1 i)
    (xa : Vec F S1x1024x3 .f32) (xb : Vec F S1x1024x3 .f32) (y : S1x1x1024.Idx) :
    ∃ pc ∈ (kernelRun0_A c i arg3 harg3 arg4 harg4 arg5 harg5 arg6 harg6 hca hcb xa xb).2.1, y ∈ pc.1.set :=
  View.cover_of_tiledL (kernelRun0_A c i arg3 harg3 arg4 harg4 arg5 harg5 arg6 harg6 hca hcb xa xb).2.1 S1x1x1024.size (by sl_kernel_rfl) y

/-- What the first column tile leaves in the running minimum: its pieces read back. -/
def sout0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond0_0 i) (hcb : ¬cond0_1 i)
    (xa : Vec F S1x1024x3 .f32) (xb : Vec F S1x1024x3 .f32) : Vec F S1x1x1024 .f32 :=
  VS0.read (Elt F) (VS0.writes (Elt F) VS0.junk (kernelRun0_A c i arg3 harg3 arg4 harg4 arg5 harg5 arg6 harg6 hca hcb xa xb).2.1)

/-- A middle column tile stores nothing into the output block either: the same placeholder. -/
def out0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : ¬cond0_1 i)
    (xa : Vec F S1x1024x3 .f32) (xb : Vec F S1x1024x3 .f32) (xs : Vec F S1x1x1024 .f32) : Vec F S1x1x1024 .f32 :=
  VO0.read (Elt F) (VO0.writes (Elt F) VO0.junk (kernelRun0_B c i arg3 harg3 arg4 harg4 arg5 harg5 arg6 harg6 hca hcb xa xb xs).1)

/-- The pieces a middle column tile writes into the running minimum cover it. -/
theorem scover0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : ¬cond0_1 i)
    (xa : Vec F S1x1024x3 .f32) (xb : Vec F S1x1024x3 .f32) (xs : Vec F S1x1x1024 .f32) (y : S1x1x1024.Idx) :
    ∃ pc ∈ (kernelRun0_B c i arg3 harg3 arg4 harg4 arg5 harg5 arg6 harg6 hca hcb xa xb xs).2.1, y ∈ pc.1.set :=
  View.cover_of_tiledL (kernelRun0_B c i arg3 harg3 arg4 harg4 arg5 harg5 arg6 harg6 hca hcb xa xb xs).2.1 S1x1x1024.size (by sl_kernel_rfl) y

/-- What a middle column tile leaves in the running minimum. -/
def sout0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : ¬cond0_1 i)
    (xa : Vec F S1x1024x3 .f32) (xb : Vec F S1x1024x3 .f32) (xs : Vec F S1x1x1024 .f32) : Vec F S1x1x1024 .f32 :=
  VS0.read (Elt F) (VS0.writes (Elt F) VS0.junk (kernelRun0_B c i arg3 harg3 arg4 harg4 arg5 harg5 arg6 harg6 hca hcb xa xb xs).2.1)

/-- The last column tile's single store into the output block covers it. -/
theorem cover0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : cond0_1 i)
    (xa : Vec F S1x1024x3 .f32) (xb : Vec F S1x1024x3 .f32) (xs : Vec F S1x1x1024 .f32) (y : S1x1x1024.Idx) :
    ∃ pc ∈ (kernelRun0_C c i arg3 harg3 arg4 harg4 arg5 harg5 arg6 harg6 hca hcb xa xb xs).1, y ∈ pc.1.set :=
  View.cover_of_tiledL (kernelRun0_C c i arg3 harg3 arg4 harg4 arg5 harg5 arg6 harg6 hca hcb xa xb xs).1 S1x1x1024.size (by sl_kernel_rfl) y

/-- What the last column tile leaves in the output block: its pieces read back. -/
def out0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : cond0_1 i)
    (xa : Vec F S1x1024x3 .f32) (xb : Vec F S1x1024x3 .f32) (xs : Vec F S1x1x1024 .f32) : Vec F S1x1x1024 .f32 :=
  VO0.read (Elt F) (VO0.writes (Elt F) VO0.junk (kernelRun0_C c i arg3 harg3 arg4 harg4 arg5 harg5 arg6 harg6 hca hcb xa xb xs).1)

/-- The pieces the last column tile writes into the running minimum cover it. -/
theorem scover0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : cond0_1 i)
    (xa : Vec F S1x1024x3 .f32) (xb : Vec F S1x1024x3 .f32) (xs : Vec F S1x1x1024 .f32) (y : S1x1x1024.Idx) :
    ∃ pc ∈ (kernelRun0_C c i arg3 harg3 arg4 harg4 arg5 harg5 arg6 harg6 hca hcb xa xb xs).2.1, y ∈ pc.1.set :=
  View.cover_of_tiledL (kernelRun0_C c i arg3 harg3 arg4 harg4 arg5 harg5 arg6 harg6 hca hcb xa xb xs).2.1 S1x1x1024.size (by sl_kernel_rfl) y

/-- What the last column tile leaves in the running minimum. -/
def sout0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : cond0_1 i)
    (xa : Vec F S1x1024x3 .f32) (xb : Vec F S1x1024x3 .f32) (xs : Vec F S1x1x1024 .f32) : Vec F S1x1x1024 .f32 :=
  VS0.read (Elt F) (VS0.writes (Elt F) VS0.junk (kernelRun0_C c i arg3 harg3 arg4 harg4 arg5 harg5 arg6 harg6 hca hcb xa xb xs).2.1)

section Region
-- the contents of the TensorCore's buffers when the region is entered: everything below is stated at them
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's current staging buffer holds its block at every point, although the block is fetched only at
    the first column tile: where it is not fetched, its block index has not moved since the point before, and the
    body leaves the block in place. For any proof data whose array is the entry contents and whose body leaves the
    block as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's block is fetched at every point; the same statement. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the output block and the running minimum hold after each point -/

/-- THE ACCUMULATION. After the body at position `n`: the pair (output block's staging contents, running minimum).
    The column-tile coordinate of position `n` is `n % 4`; it selects the case, which is run at the point's
    memrefs and input blocks, the running minimum of the middle and last column tiles being what position `n - 1`
    left. No position is both a first and a last column tile. -/
def outsAt0 (c : Dev nD) : (n : ℕ) → n < cfg0.N → Vec F S1x1x1024 .f32 × Vec F S1x1x1024 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if hA : (n + 1) % 4 = 0 then
      if hC : (n + 1) % 4 = 3 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr hA) (fun h => hC ((hcond0_1 ⟨n + 1, hn⟩).mp h)) (iblk0 V c 0 ⟨n + 1, hn⟩) (iblk0 V c 1 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr hA) (fun h => hC ((hcond0_1 ⟨n + 1, hn⟩).mp h)) (iblk0 V c 0 ⟨n + 1, hn⟩) (iblk0 V c 1 ⟨n + 1, hn⟩))
    else
      if hC : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => hA ((hcond0_0 ⟨n + 1, hn⟩).mp h)) ((hcond0_1 ⟨n + 1, hn⟩).mpr hC) (iblk0 V c 0 ⟨n + 1, hn⟩) (iblk0 V c 1 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => hA ((hcond0_0 ⟨n + 1, hn⟩).mp h)) ((hcond0_1 ⟨n + 1, hn⟩).mpr hC) (iblk0 V c 0 ⟨n + 1, hn⟩) (iblk0 V c 1 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => hA ((hcond0_0 ⟨n + 1, hn⟩).mp h)) (fun h => hC ((hcond0_1 ⟨n + 1, hn⟩).mp h)) (iblk0 V c 0 ⟨n + 1, hn⟩) (iblk0 V c 1 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => hA ((hcond0_0 ⟨n + 1, hn⟩).mp h)) (fun h => hC ((hcond0_1 ⟨n + 1, hn⟩).mp h)) (iblk0 V c 0 ⟨n + 1, hn⟩) (iblk0 V c 1 ⟨n + 1, hn⟩) (outsAt0 c n (Nat.lt_of_succ_lt hn)).2)

/-- At a first column tile: that case's contents. -/
theorem outsAt0_A (c : Dev nD) (t : Fin cfg0.N) (hA : t.val % 4 = 0) (hC : ¬t.val % 4 = 3) :
    outsAt0 V c t.val t.isLt = (out0_A c (grid0.coords t) (ms0_0 t) (hs0_0 t) (ms0_1 t) (hs0_1 t) (ms0_2 t) (hs0_2 t) scM0 (Memref.isWhole_whole _) ((hcond0_0 t).mpr hA) (fun h => hC ((hcond0_1 t).mp h)) (iblk0 V c 0 t) (iblk0 V c 1 t), sout0_A c (grid0.coords t) (ms0_0 t) (hs0_0 t) (ms0_1 t) (hs0_1 t) (ms0_2 t) (hs0_2 t) scM0 (Memref.isWhole_whole _) ((hcond0_0 t).mpr hA) (fun h => hC ((hcond0_1 t).mp h)) (iblk0 V c 0 t) (iblk0 V c 1 t)) := by
  obtain ⟨n, hn⟩ := t
  cases n with
  | zero => exact rfl
  | succ n => exact (dif_pos hA).trans ((dif_neg hC).trans rfl)

/-- At a middle column tile: that case's contents, over the running minimum the point before left. -/
theorem outsAt0_B (c : Dev nD) (t : Fin cfg0.N) (hA : ¬t.val % 4 = 0) (hC : ¬t.val % 4 = 3) :
    outsAt0 V c t.val t.isLt = (out0_B c (grid0.coords t) (ms0_0 t) (hs0_0 t) (ms0_1 t) (hs0_1 t) (ms0_2 t) (hs0_2 t) scM0 (Memref.isWhole_whole _) (fun h => hA ((hcond0_0 t).mp h)) (fun h => hC ((hcond0_1 t).mp h)) (iblk0 V c 0 t) (iblk0 V c 1 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) scM0 (Memref.isWhole_whole _) (fun h => hA ((hcond0_0 t).mp h)) (fun h => hC ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at hA); exact absurd (Nat.zero_mod _) hA)
  | succ n => exact (dif_neg hA).trans ((dif_neg hC).trans rfl)

/-- At a last column tile: that case's contents, over the running minimum the point before left. -/
theorem outsAt0_C (c : Dev nD) (t : Fin cfg0.N) (hA : ¬t.val % 4 = 0) (hC : t.val % 4 = 3) :
    outsAt0 V c t.val t.isLt = (out0_C c (grid0.coords t) (ms0_0 t) (hs0_0 t) (ms0_1 t) (hs0_1 t) (ms0_2 t) (hs0_2 t) scM0 (Memref.isWhole_whole _) (fun h => hA ((hcond0_0 t).mp h)) ((hcond0_1 t).mpr hC) (iblk0 V c 0 t) (iblk0 V c 1 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) scM0 (Memref.isWhole_whole _) (fun h => hA ((hcond0_0 t).mp h)) ((hcond0_1 t).mpr hC) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at hA); exact absurd (Nat.zero_mod _) hA)
  | succ n => exact (dif_neg hA).trans ((dif_pos hC).trans rfl)

/-! ## The region invariant -/

/-- The core's scoped buffers that are no staging buffer of this launch, split at the running minimum's buffer: that
    one whole at some contents, the others (the second launch's buffers) carried unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- What the launch hands the region: the running minimum's buffer owned at some contents, the other scoped buffers
    unopened, the generator register at some state. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- The invariant before position `n`: before the first point what the launch hands over; afterwards the same with
    the running minimum at what position `n - 1` left in it. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The region's proof data on core `c`: the arrays as the region finds them; after the body at point `t` each
    input's buffer at its block and the output's at the accumulation's first component; the invariant above; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

/-- The proof data bounds the recorded waits by nothing (the body takes on no new units). -/
theorem recorded_eq0 (c : Dev nD) (t : Fin (cfg0.N + 1)) : (dat0 V c).recorded t = Set.univ := by
  dsimp only [dat0]

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the point's number modulo 4 says which case it is
    in. The invariant hands the body the running minimum at what the point before left (at anything at the very
    first point; at a later first column tile the named contents are forgotten, the case overwriting them) and takes
    it back at this point's contents, the pieces written covering the buffer. Away from the last column tile the
    output block is idle: its buffer goes back as it came. At the last column tile it is live and goes back at the
    pieces written, which cover it. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  by_cases hA : t.val % 4 = 0
  · by_cases hC : t.val % 4 = 3
    · exfalso; omega
    · rw [Dat.leavesExact_idle (dat0 V c) 2 t (idleAt0_2 t (fun h => hC ((hcond0_1 t).mp h))) (noFlush0_2 t (fun h => hC ((hcond0_1 t).mp h)))]
      rw [outsAt0_A V c t hA hC]
      unfold sout0_A; (try dsimp only)
      by_cases hz : t.val = 0
      · rw [PhiS0_castSucc V c t, PhiS0_zero V c _ _ hz, PhiA0_eq]
        iintro ⟨⟨⟨HS, HR⟩, Hg⟩, Ho, ⟨%da, Ha⟩, ⟨%db, Hb⟩, ⟨%dc, Hc⟩⟩
        iapply ((kernelRun0_A c (grid0.coords t) _ _ _ _ _ _ _ _ ((hcond0_0 t).mpr hA) (fun h => hC ((hcond0_1 t).mp h)) (iblk0 V c 0 t) (iblk0 V c 1 t)).2.2 _ Set.univ _)
        isplitl [Ha]; · iexact Ha
        isplitl [Hb]; · iexact Hb
        isplitl [Hc]; · iexact Hc
        isplitl [HS]; · iexact HS
        iintro ⟨Ha, Hb, Hc, ⟨%es, HS⟩⟩
        isplitl [HS HR Hg]
        · isplitl [HS HR]
          · isplitl [HS]
            · unfold owns; iexists _; isplitr
              swap; · iexact HS
              ipureintro; exact View.read_writes_of_cover _ _ _ _ _ (scover0_A c _ _ _ _ _ _ _ _ _ _ _ _ _)
            iexact HR
          iexact Hg
        isplitl [Ho]; · iexact Ho
        isplitl [Ha]; · iexact Ha
        isplitl [Hb]; · iexact Hb
        iexists _; iexact Hc
      · rw [PhiS0_castSucc V c t, PhiS0_pos V c _ _ hz]
        iintro ⟨⟨⟨HS, HR⟩, Hg⟩, Ho, ⟨%da, Ha⟩, ⟨%db, Hb⟩, ⟨%dc, Hc⟩⟩
        iapply ((kernelRun0_A c (grid0.coords t) _ _ _ _ _ _ _ _ ((hcond0_0 t).mpr hA) (fun h => hC ((hcond0_1 t).mp h)) (iblk0 V c 0 t) (iblk0 V c 1 t)).2.2 _ Set.univ _)
        isplitl [Ha]; · iexact Ha
        isplitl [Hb]; · iexact Hb
        isplitl [Hc]; · iexact Hc
        isplitl [HS]; · iexists _; iexact HS
        iintro ⟨Ha, Hb, Hc, ⟨%es, HS⟩⟩
        isplitl [HS HR Hg]
        · isplitl [HS HR]
          · isplitl [HS]
            · unfold owns; iexists _; isplitr
              swap; · iexact HS
              ipureintro; exact View.read_writes_of_cover _ _ _ _ _ (scover0_A c _ _ _ _ _ _ _ _ _ _ _ _ _)
            iexact HR
          iexact Hg
        isplitl [Ho]; · iexact Ho
        isplitl [Ha]; · iexact Ha
        isplitl [Hb]; · iexact Hb
        iexists _; iexact Hc
  · have hz : t.val ≠ 0 := fun h => hA (by rw [h])
    rw [PhiS0_castSucc V c t, PhiS0_pos V c _ _ hz]
    by_cases hC : t.val % 4 = 3
    · rw [show (dat0 V c).leavesExact 2 t = owns (c : Thread nD τ) (ms0_2 t) fullShare ((dat0 V c).after 2 t) from by
        unfold Dat.leavesExact; rw [liveAt0_2 t ((hcond0_1 t).mpr hC)], after0_2]
      rw [outsAt0_C V c t hA hC]
      unfold out0_C sout0_C; (try dsimp only)
      iintro ⟨⟨⟨HS, HR⟩, Hg⟩, Ho, ⟨%da, Ha⟩, ⟨%db, Hb⟩, ⟨%dc, Hc⟩⟩
      iapply ((kernelRun0_C c (grid0.coords t) _ _ _ _ _ _ _ _ (fun h => hA ((hcond0_0 t).mp h)) ((hcond0_1 t).mpr hC) (iblk0 V c 0 t) (iblk0 V c 1 t) _).2.2 Set.univ _)
      isplitl [Ha]; · iexact Ha
      isplitl [Hb]; · iexact Hb
      isplitl [Hc]; · iexists _; iexact Hc
      isplitl [HS]; · iexact HS
      iintro ⟨Ha, Hb, ⟨%ec, Hc⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c _ _ _ _ _ _ _ _ _ _ _ _ _ _)
          iexact HR
        iexact Hg
      isplitl [Ho]; · iexact Ho
      isplitl [Ha]; · iexact Ha
      isplitl [Hb]; · iexact Hb
      unfold owns; iexists _; isplitr
      swap; · iexact Hc
      ipureintro; exact View.read_writes_of_cover _ _ _ _ _ (cover0_C c _ _ _ _ _ _ _ _ _ _ _ _ _ _)
    · rw [Dat.leavesExact_idle (dat0 V c) 2 t (idleAt0_2 t (fun h => hC ((hcond0_1 t).mp h))) (noFlush0_2 t (fun h => hC ((hcond0_1 t).mp h)))]
      rw [outsAt0_B V c t hA hC]
      unfold sout0_B; (try dsimp only)
      iintro ⟨⟨⟨HS, HR⟩, Hg⟩, Ho, ⟨%da, Ha⟩, ⟨%db, Hb⟩, ⟨%dc, Hc⟩⟩
      iapply ((kernelRun0_B c (grid0.coords t) _ _ _ _ _ _ _ _ (fun h => hA ((hcond0_0 t).mp h)) (fun h => hC ((hcond0_1 t).mp h)) (iblk0 V c 0 t) (iblk0 V c 1 t) _).2.2 _ Set.univ _)
      isplitl [Ha]; · iexact Ha
      isplitl [Hb]; · iexact Hb
      isplitl [Hc]; · iexact Hc
      isplitl [HS]; · iexact HS
      iintro ⟨Ha, Hb, Hc, ⟨%es, HS⟩⟩
      isplitl [HS HR Hg]
      · isplitl [HS HR]
        · isplitl [HS]
          · unfold owns; iexists _; isplitr
            swap; · iexact HS
            ipureintro; exact View.read_writes_of_cover _ _ _ _ _ (scover0_B c _ _ _ _ _ _ _ _ _ _ _ _ _ _)
          iexact HR
        iexact Hg
      isplitl [Ho]; · iexact Ho
      isplitl [Ha]; · iexact Ha
      isplitl [Hb]; · iexact Hb
      iexists _; iexact Hc

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the running minimum's named contents are
    forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 256 := N_0; omega)

end Region

end Cert.Kernel.Fr

end
-- ==== Proof.KB.Region1.lean ====
/-
  The first launch's region: for every batch and row tile the body walks the four column tiles, keeping in a scratch
  buffer the running minimum of the squared distances seen so far. The running minimum is reset at the first column
  tile, updated at every one, and copied to the output block at the last; at the other column tiles the output block
  is idle. This module runs the body in its three cases on arbitrary staging memrefs, states what the running minimum
  and the output block hold after every point (an accumulation along the points), and assembles the region's proof
  data with the running minimum carried by the invariant from one point to the next — all of it at a parameter: the
  contents of the core's buffers when the region is entered.
-/
import proofs.«103797_j83425444758259_1_alg».proof.Proof.KB.Conds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of the kernel, case by case

The body distinguishes three kinds of grid point by the column-tile coordinate: the first column tile, where the
running minimum is reset before it is updated; the middle ones, where it is only updated; the last, where after the
update it is copied to the output block. In each case the body is run once and for all on arbitrary whole staging
memrefs: the witness of the run is the list of pieces (last write first) that each buffer written ends with. -/

set_option maxHeartbeats 1000000 in
/-- FIRST COLUMN TILE (the reset is taken, the copy-out is not). The two input blocks are held at `xa`, `xb`; the
    output block is not touched and comes back at the contents `xo` it came with; the running minimum may hold
    anything on entry (it is overwritten with +infinity before it is read for the update) and leaves with the pieces
    `LS` written. -/
noncomputable def kernelRun1_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond1_0 i) (hcb : ¬cond1_1 i)
    (xa : Vec F S1x1024x3 .f32) (xb : Vec F S1x1024x3 .f32) :
    Σ' (LO : List (View.Piece (Elt F) S1x1x1024 .f32)), { LS : List (View.Piece (Elt F) S1x1x1024 .f32) //
      ∀ (xo : Vec F S1x1x1024 .f32) (E : Set ℕ) (K : PUnit → sProp 𝕄),
        iprop(owns (c : Thread nD τ) arg3 fullShare xa ∗ owns (c : Thread nD τ) arg4 fullShare xb ∗ owns (c : Thread nD τ) arg5 fullShare xo ∗ (∃ d, owns (c : Thread nD τ) arg6 fullShare d)
            ∗ (iprop(owns (c : Thread nD τ) arg3 fullShare xa ∗ owns (c : Thread nD τ) arg4 fullShare xb ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__min_dist_kernel i arg3 harg3 arg4 harg4 arg5 harg5 arg6 harg6) K } := by
  refine ⟨[], ?_, fun xo E K => ?run⟩
  case run =>
    simp only [cc1__min_dist_kernel_eq_skeleton]; unfold cc1__min_dist_kernel_skel
    simp only [k1_part1_eq_skeleton]
    unfold owns
    iintro ⟨⟨%fa, %hfa, Ha⟩, ⟨%fb, %hfb, Hb⟩, ⟨%fo, %hfo, Ho⟩, ⟨%ds, %fs, -, HS⟩, Hk⟩
    obtain rfl := harg3.eq_unread hfa; obtain rfl := harg4.eq_unread hfb; obtain rfl := harg5.eq_unread hfo
    sl_exec (disch := first | exact hca | exact hcb)
    sl_step
    iapply Hk
    isplitl [Ha]
    · iexists _; isplitr; · ipureintro; exact harg3.read_unread _
      iexact Ha
    isplitl [Hb]
    · iexists _; isplitr; · ipureintro; exact harg4.read_unread _
      iexact Hb
    isplitl [Ho]
    · iexists _; isplitr; · ipureintro; exact harg5.read_unread _
      iexact Ho
    iexists _; iexact HS

set_option maxHeartbeats 1000000 in
/-- MIDDLE COLUMN TILES (neither conditional is taken). As before, but the running minimum comes in at the contents
    `xs` the point before left, which the update reads. -/
noncomputable def kernelRun1_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : ¬cond1_1 i)
    (xa : Vec F S1x1024x3 .f32) (xb : Vec F S1x1024x3 .f32) (xs : Vec F S1x1x1024 .f32) :
    Σ' (LO : List (View.Piece (Elt F) S1x1x1024 .f32)), { LS : List (View.Piece (Elt F) S1x1x1024 .f32) //
      ∀ (xo : Vec F S1x1x1024 .f32) (E : Set ℕ) (K : PUnit → sProp 𝕄),
        iprop(owns (c : Thread nD τ) arg3 fullShare xa ∗ owns (c : Thread nD τ) arg4 fullShare xb ∗ owns (c : Thread nD τ) arg5 fullShare xo ∗ owns (c : Thread nD τ) arg6 fullShare xs
            ∗ (iprop(owns (c : Thread nD τ) arg3 fullShare xa ∗ owns (c : Thread nD τ) arg4 fullShare xb ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__min_dist_kernel i arg3 harg3 arg4 harg4 arg5 harg5 arg6 harg6) K } := by
  refine ⟨[], ?_, fun xo E K => ?run⟩
  case run =>
    simp only [cc1__min_dist_kernel_eq_skeleton]; unfold cc1__min_dist_kernel_skel
    simp only [k1_part1_eq_skeleton]
    unfold owns
    iintro ⟨⟨%fa, %hfa, Ha⟩, ⟨%fb, %hfb, Hb⟩, ⟨%fo, %hfo, Ho⟩, ⟨%fs, %hfs, HS⟩, Hk⟩
    obtain rfl := harg3.eq_unread hfa; obtain rfl := harg4.eq_unread hfb; obtain rfl := harg5.eq_unread hfo; obtain rfl := harg6.eq_unread hfs
    sl_exec (disch := first | exact hca | exact hcb)
    sl_step
    iapply Hk
    isplitl [Ha]
    · iexists _; isplitr; · ipureintro; exact harg3.read_unread _
      iexact Ha
    isplitl [Hb]
    · iexists _; isplitr; · ipureintro; exact harg4.read_unread _
      iexact Hb
    isplitl [Ho]
    · iexists _; isplitr; · ipureintro; exact harg5.read_unread _
      iexact Ho
    iexists _; iexact HS

set_option maxHeartbeats 1000000 in
/-- LAST COLUMN TILE (the reset is not taken, the copy-out is). The running minimum comes in at `xs` and is updated;
    then the output block, whatever it held, is overwritten whole with the updated minimum: it leaves with the
    pieces `LO` written. -/
noncomputable def kernelRun1_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : cond1_1 i)
    (xa : Vec F S1x1024x3 .f32) (xb : Vec F S1x1024x3 .f32) (xs : Vec F S1x1x1024 .f32) :
    Σ' (LO : List (View.Piece (Elt F) S1x1x1024 .f32)), { LS : List (View.Piece (Elt F) S1x1x1024 .f32) //
      ∀ (E : Set ℕ) (K : PUnit → sProp 𝕄),
        iprop(owns (c : Thread nD τ) arg3 fullShare xa ∗ owns (c : Thread nD τ) arg4 fullShare xb ∗ (∃ d, owns (c : Thread nD τ) arg5 fullShare d) ∗ owns (c : Thread nD τ) arg6 fullShare xs
            ∗ (iprop(owns (c : Thread nD τ) arg3 fullShare xa ∗ owns (c : Thread nD τ) arg4 fullShare xb ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__min_dist_kernel i arg3 harg3 arg4 harg4 arg5 harg5 arg6 harg6) K } := by
  refine ⟨?_, ?_, fun E K => ?run⟩
  case run =>
    simp only [cc1__min_dist_kernel_eq_skeleton]; unfold cc1__min_dist_kernel_skel
    simp only [k1_part1_eq_skeleton]
    unfold owns
    iintro ⟨⟨%fa, %hfa, Ha⟩, ⟨%fb, %hfb, Hb⟩, ⟨%dO, %fo, -, Ho⟩, ⟨%fs, %hfs, HS⟩, Hk⟩
    obtain rfl := harg3.eq_unread hfa; obtain rfl := harg4.eq_unread hfb; obtain rfl := harg6.eq_unread hfs
    sl_exec (disch := first | exact hca | exact hcb)
    sl_step
    iapply Hk
    isplitl [Ha]
    · iexists _; isplitr; · ipureintro; exact harg3.read_unread _
      iexact Ha
    isplitl [Hb]
    · iexists _; isplitr; · ipureintro; exact harg4.read_unread _
      iexact Hb
    isplitl [Ho]; · iexists _; iexact Ho
    iexists _; iexact HS

/-! ## What each case leaves in the running minimum and in the output block -/

/-- The first column tile stores nothing into the output block (no pieces): a placeholder that nothing consults, the block being neither written back nor read on at such a point. -/
def out1_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond1_0 i) (hcb : ¬cond1_1 i)
    (xa : Vec F S1x1024x3 .f32) (xb : Vec F S1x1024x3 .f32) : Vec F S1x1x1024 .f32 :=
  VO1.read (Elt F) (VO1.writes (Elt F) VO1.junk (kernelRun1_A c i arg3 harg3 arg4 harg4 arg5 harg5 arg6 harg6 hca hcb xa xb).1)

/-- The pieces the first column tile writes into the running minimum tile it, so they cover it. -/
theorem scover1_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond1_0 i) (hcb : ¬cond1_1 i)
    (xa : Vec F S1x1024x3 .f32) (xb : Vec F S1x1024x3 .f32) (y : S1x1x1024.Idx) :
    ∃ pc ∈ (kernelRun1_A c i arg3 harg3 arg4 harg4 arg5 harg5 arg6 harg6 hca hcb xa xb).2.1, y ∈ pc.1.set :=
  View.cover_of_tiledL (kernelRun1_A c i arg3 harg3 arg4 harg4 arg5 harg5 arg6 harg6 hca hcb xa xb).2.1 S1x1x1024.size (by sl_kernel_rfl) y

/-- What the first column tile leaves in the running minimum: its pieces read back. -/
def sout1_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond1_0 i) (hcb : ¬cond1_1 i)
    (xa : Vec F S1x1024x3 .f32) (xb : Vec F S1x1024x3 .f32) : Vec F S1x1x1024 .f32 :=
  VS1.read (Elt F) (VS1.writes (Elt F) VS1.junk (kernelRun1_A c i arg3 harg3 arg4 harg4 arg5 harg5 arg6 harg6 hca hcb xa xb).2.1)

/-- A middle column tile stores nothing into the output block either: the same placeholder. -/
def out1_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : ¬cond1_1 i)
    (xa : Vec F S1x1024x3 .f32) (xb : Vec F S1x1024x3 .f32) (xs : Vec F S1x1x1024 .f32) : Vec F S1x1x1024 .f32 :=
  VO1.read (Elt F) (VO1.writes (Elt F) VO1.junk (kernelRun1_B c i arg3 harg3 arg4 harg4 arg5 harg5 arg6 harg6 hca hcb xa xb xs).1)

/-- The pieces a middle column tile writes into the running minimum cover it. -/
theorem scover1_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : ¬cond1_1 i)
    (xa : Vec F S1x1024x3 .f32) (xb : Vec F S1x1024x3 .f32) (xs : Vec F S1x1x1024 .f32) (y : S1x1x1024.Idx) :
    ∃ pc ∈ (kernelRun1_B c i arg3 harg3 arg4 harg4 arg5 harg5 arg6 harg6 hca hcb xa xb xs).2.1, y ∈ pc.1.set :=
  View.cover_of_tiledL (kernelRun1_B c i arg3 harg3 arg4 harg4 arg5 harg5 arg6 harg6 hca hcb xa xb xs).2.1 S1x1x1024.size (by sl_kernel_rfl) y

/-- What a middle column tile leaves in the running minimum. -/
def sout1_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : ¬cond1_1 i)
    (xa : Vec F S1x1024x3 .f32) (xb : Vec F S1x1024x3 .f32) (xs : Vec F S1x1x1024 .f32) : Vec F S1x1x1024 .f32 :=
  VS1.read (Elt F) (VS1.writes (Elt F) VS1.junk (kernelRun1_B c i arg3 harg3 arg4 harg4 arg5 harg5 arg6 harg6 hca hcb xa xb xs).2.1)

/-- The last column tile's single store into the output block covers it. -/
theorem cover1_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : cond1_1 i)
    (xa : Vec F S1x1024x3 .f32) (xb : Vec F S1x1024x3 .f32) (xs : Vec F S1x1x1024 .f32) (y : S1x1x1024.Idx) :
    ∃ pc ∈ (kernelRun1_C c i arg3 harg3 arg4 harg4 arg5 harg5 arg6 harg6 hca hcb xa xb xs).1, y ∈ pc.1.set :=
  View.cover_of_tiledL (kernelRun1_C c i arg3 harg3 arg4 harg4 arg5 harg5 arg6 harg6 hca hcb xa xb xs).1 S1x1x1024.size (by sl_kernel_rfl) y

/-- What the last column tile leaves in the output block: its pieces read back. -/
def out1_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : cond1_1 i)
    (xa : Vec F S1x1024x3 .f32) (xb : Vec F S1x1024x3 .f32) (xs : Vec F S1x1x1024 .f32) : Vec F S1x1x1024 .f32 :=
  VO1.read (Elt F) (VO1.writes (Elt F) VO1.junk (kernelRun1_C c i arg3 harg3 arg4 harg4 arg5 harg5 arg6 harg6 hca hcb xa xb xs).1)

/-- The pieces the last column tile writes into the running minimum cover it. -/
theorem scover1_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : cond1_1 i)
    (xa : Vec F S1x1024x3 .f32) (xb : Vec F S1x1024x3 .f32) (xs : Vec F S1x1x1024 .f32) (y : S1x1x1024.Idx) :
    ∃ pc ∈ (kernelRun1_C c i arg3 harg3 arg4 harg4 arg5 harg5 arg6 harg6 hca hcb xa xb xs).2.1, y ∈ pc.1.set :=
  View.cover_of_tiledL (kernelRun1_C c i arg3 harg3 arg4 harg4 arg5 harg5 arg6 harg6 hca hcb xa xb xs).2.1 S1x1x1024.size (by sl_kernel_rfl) y

/-- What the last column tile leaves in the running minimum. -/
def sout1_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : cond1_1 i)
    (xa : Vec F S1x1024x3 .f32) (xb : Vec F S1x1024x3 .f32) (xs : Vec F S1x1x1024 .f32) : Vec F S1x1x1024 .f32 :=
  VS1.read (Elt F) (VS1.writes (Elt F) VS1.junk (kernelRun1_C c i arg3 harg3 arg4 harg4 arg5 harg5 arg6 harg6 hca hcb xa xb xs).2.1)

section Region
-- the contents of the TensorCore's buffers when the region is entered: everything below is stated at them
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's current staging buffer holds its block at every point, although the block is fetched only at
    the first column tile: where it is not fetched, its block index has not moved since the point before, and the
    body leaves the block in place. For any proof data whose array is the entry contents and whose body leaves the
    block as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input's block is fetched at every point; the same statement. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the output block and the running minimum hold after each point -/

/-- THE ACCUMULATION. After the body at position `n`: the pair (output block's staging contents, running minimum).
    The column-tile coordinate of position `n` is `n % 4`; it selects the case, which is run at the point's
    memrefs and input blocks, the running minimum of the middle and last column tiles being what position `n - 1`
    left. No position is both a first and a last column tile. -/
def outsAt1 (c : Dev nD) : (n : ℕ) → n < cfg1.N → Vec F S1x1x1024 .f32 × Vec F S1x1x1024 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if hA : (n + 1) % 4 = 0 then
      if hC : (n + 1) % 4 = 3 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr hA) (fun h => hC ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr hA) (fun h => hC ((hcond1_1 ⟨n + 1, hn⟩).mp h)) (iblk1 V c 0 ⟨n + 1, hn⟩) (iblk1 V c 1 ⟨n + 1, hn⟩))
    else
      if hC : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => hA ((hcond1_0 ⟨n + 1, hn⟩).mp h)) ((hcond1_1 ⟨n + 1, hn⟩).mpr hC) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => hA ((hcond1_0 ⟨n + 1, hn⟩).mp h)) ((hcond1_1 ⟨n + 1, hn⟩).mpr hC) (iblk1 V c 0 ⟨n + 1, hn⟩) (iblk1 V c 1 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => hA ((hcond1_0 ⟨n + 1, hn⟩).mp h)) (fun h => hC ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => hA ((hcond1_0 ⟨n + 1, hn⟩).mp h)) (fun h => hC ((hcond1_1 ⟨n + 1, hn⟩).mp h)) (iblk1 V c 0 ⟨n + 1, hn⟩) (iblk1 V c 1 ⟨n + 1, hn⟩) (outsAt1 c n (Nat.lt_of_succ_lt hn)).2)

/-- At a first column tile: that case's contents. -/
theorem outsAt1_A (c : Dev nD) (t : Fin cfg1.N) (hA : t.val % 4 = 0) (hC : ¬t.val % 4 = 3) :
    outsAt1 V c t.val t.isLt = (out1_A c (grid1.coords t) (ms1_0 t) (hs1_0 t) (ms1_1 t) (hs1_1 t) (ms1_2 t) (hs1_2 t) scM1 (Memref.isWhole_whole _) ((hcond1_0 t).mpr hA) (fun h => hC ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr hA) (fun h => hC ((hcond1_1 t).mp h)) (iblk1 V c 0 t) (iblk1 V c 1 t)) := by
  obtain ⟨n, hn⟩ := t
  cases n with
  | zero => exact rfl
  | succ n => exact (dif_pos hA).trans ((dif_neg hC).trans rfl)

/-- At a middle column tile: that case's contents, over the running minimum the point before left. -/
theorem outsAt1_B (c : Dev nD) (t : Fin cfg1.N) (hA : ¬t.val % 4 = 0) (hC : ¬t.val % 4 = 3) :
    outsAt1 V c t.val t.isLt = (out1_B c (grid1.coords t) (ms1_0 t) (hs1_0 t) (ms1_1 t) (hs1_1 t) (ms1_2 t) (hs1_2 t) scM1 (Memref.isWhole_whole _) (fun h => hA ((hcond1_0 t).mp h)) (fun h => hC ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => hA ((hcond1_0 t).mp h)) (fun h => hC ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at hA); exact absurd (Nat.zero_mod _) hA)
  | succ n => exact (dif_neg hA).trans ((dif_neg hC).trans rfl)

/-- At a last column tile: that case's contents, over the running minimum the point before left. -/
theorem outsAt1_C (c : Dev nD) (t : Fin cfg1.N) (hA : ¬t.val % 4 = 0) (hC : t.val % 4 = 3) :
    outsAt1 V c t.val t.isLt = (out1_C c (grid1.coords t) (ms1_0 t) (hs1_0 t) (ms1_1 t) (hs1_1 t) (ms1_2 t) (hs1_2 t) scM1 (Memref.isWhole_whole _) (fun h => hA ((hcond1_0 t).mp h)) ((hcond1_1 t).mpr hC) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => hA ((hcond1_0 t).mp h)) ((hcond1_1 t).mpr hC) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at hA); exact absurd (Nat.zero_mod _) hA)
  | succ n => exact (dif_neg hA).trans ((dif_pos hC).trans rfl)

/-! ## The region invariant -/

/-- The core's scoped buffers that are no staging buffer of this launch, split at the running minimum's buffer: that
    one whole at some contents, the others (the second launch's buffers) carried unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- What the launch hands the region: the running minimum's buffer owned at some contents, the other scoped buffers
    unopened, the generator register at some state. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- The invariant before position `n`: before the first point what the launch hands over; afterwards the same with
    the running minimum at what position `n - 1` left in it. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The region's proof data on core `c`: the arrays as the region finds them; after the body at point `t` each
    input's buffer at its block and the output's at the accumulation's first component; the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

/-- The proof data bounds the recorded waits by nothing (the body takes on no new units). -/
theorem recorded_eq1 (c : Dev nD) (t : Fin (cfg1.N + 1)) : (dat1 V c).recorded t = Set.univ := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the point's number modulo 4 says which case it is
    in. The invariant hands the body the running minimum at what the point before left (at anything at the very
    first point; at a later first column tile the named contents are forgotten, the case overwriting them) and takes
    it back at this point's contents, the pieces written covering the buffer. Away from the last column tile the
    output block is idle: its buffer goes back as it came. At the last column tile it is live and goes back at the
    pieces written, which cover it. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  by_cases hA : t.val % 4 = 0
  · by_cases hC : t.val % 4 = 3
    · exfalso; omega
    · rw [Dat.leavesExact_idle (dat1 V c) 2 t (idleAt1_2 t (fun h => hC ((hcond1_1 t).mp h))) (noFlush1_2 t (fun h => hC ((hcond1_1 t).mp h)))]
      rw [outsAt1_A V c t hA hC]
      unfold sout1_A; (try dsimp only)
      by_cases hz : t.val = 0
      · rw [PhiS1_castSucc V c t, PhiS1_zero V c _ _ hz, PhiA1_eq]
        iintro ⟨⟨⟨HS, HR⟩, Hg⟩, Ho, ⟨%da, Ha⟩, ⟨%db, Hb⟩, ⟨%dc, Hc⟩⟩
        iapply ((kernelRun1_A c (grid1.coords t) _ _ _ _ _ _ _ _ ((hcond1_0 t).mpr hA) (fun h => hC ((hcond1_1 t).mp h)) (iblk1 V c 0 t) (iblk1 V c 1 t)).2.2 _ Set.univ _)
        isplitl [Ha]; · iexact Ha
        isplitl [Hb]; · iexact Hb
        isplitl [Hc]; · iexact Hc
        isplitl [HS]; · iexact HS
        iintro ⟨Ha, Hb, Hc, ⟨%es, HS⟩⟩
        isplitl [HS HR Hg]
        · isplitl [HS HR]
          · isplitl [HS]
            · unfold owns; iexists _; isplitr
              swap; · iexact HS
              ipureintro; exact View.read_writes_of_cover _ _ _ _ _ (scover1_A c _ _ _ _ _ _ _ _ _ _ _ _ _)
            iexact HR
          iexact Hg
        isplitl [Ho]; · iexact Ho
        isplitl [Ha]; · iexact Ha
        isplitl [Hb]; · iexact Hb
        iexists _; iexact Hc
      · rw [PhiS1_castSucc V c t, PhiS1_pos V c _ _ hz]
        iintro ⟨⟨⟨HS, HR⟩, Hg⟩, Ho, ⟨%da, Ha⟩, ⟨%db, Hb⟩, ⟨%dc, Hc⟩⟩
        iapply ((kernelRun1_A c (grid1.coords t) _ _ _ _ _ _ _ _ ((hcond1_0 t).mpr hA) (fun h => hC ((hcond1_1 t).mp h)) (iblk1 V c 0 t) (iblk1 V c 1 t)).2.2 _ Set.univ _)
        isplitl [Ha]; · iexact Ha
        isplitl [Hb]; · iexact Hb
        isplitl [Hc]; · iexact Hc
        isplitl [HS]; · iexists _; iexact HS
        iintro ⟨Ha, Hb, Hc, ⟨%es, HS⟩⟩
        isplitl [HS HR Hg]
        · isplitl [HS HR]
          · isplitl [HS]
            · unfold owns; iexists _; isplitr
              swap; · iexact HS
              ipureintro; exact View.read_writes_of_cover _ _ _ _ _ (scover1_A c _ _ _ _ _ _ _ _ _ _ _ _ _)
            iexact HR
          iexact Hg
        isplitl [Ho]; · iexact Ho
        isplitl [Ha]; · iexact Ha
        isplitl [Hb]; · iexact Hb
        iexists _; iexact Hc
  · have hz : t.val ≠ 0 := fun h => hA (by rw [h])
    rw [PhiS1_castSucc V c t, PhiS1_pos V c _ _ hz]
    by_cases hC : t.val % 4 = 3
    · rw [show (dat1 V c).leavesExact 2 t = owns (c : Thread nD τ) (ms1_2 t) fullShare ((dat1 V c).after 2 t) from by
        unfold Dat.leavesExact; rw [liveAt1_2 t ((hcond1_1 t).mpr hC)], after1_2]
      rw [outsAt1_C V c t hA hC]
      unfold out1_C sout1_C; (try dsimp only)
      iintro ⟨⟨⟨HS, HR⟩, Hg⟩, Ho, ⟨%da, Ha⟩, ⟨%db, Hb⟩, ⟨%dc, Hc⟩⟩
      iapply ((kernelRun1_C c (grid1.coords t) _ _ _ _ _ _ _ _ (fun h => hA ((hcond1_0 t).mp h)) ((hcond1_1 t).mpr hC) (iblk1 V c 0 t) (iblk1 V c 1 t) _).2.2 Set.univ _)
      isplitl [Ha]; · iexact Ha
      isplitl [Hb]; · iexact Hb
      isplitl [Hc]; · iexists _; iexact Hc
      isplitl [HS]; · iexact HS
      iintro ⟨Ha, Hb, ⟨%ec, Hc⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _)
          iexact HR
        iexact Hg
      isplitl [Ho]; · iexact Ho
      isplitl [Ha]; · iexact Ha
      isplitl [Hb]; · iexact Hb
      unfold owns; iexists _; isplitr
      swap; · iexact Hc
      ipureintro; exact View.read_writes_of_cover _ _ _ _ _ (cover1_C c _ _ _ _ _ _ _ _ _ _ _ _ _ _)
    · rw [Dat.leavesExact_idle (dat1 V c) 2 t (idleAt1_2 t (fun h => hC ((hcond1_1 t).mp h))) (noFlush1_2 t (fun h => hC ((hcond1_1 t).mp h)))]
      rw [outsAt1_B V c t hA hC]
      unfold sout1_B; (try dsimp only)
      iintro ⟨⟨⟨HS, HR⟩, Hg⟩, Ho, ⟨%da, Ha⟩, ⟨%db, Hb⟩, ⟨%dc, Hc⟩⟩
      iapply ((kernelRun1_B c (grid1.coords t) _ _ _ _ _ _ _ _ (fun h => hA ((hcond1_0 t).mp h)) (fun h => hC ((hcond1_1 t).mp h)) (iblk1 V c 0 t) (iblk1 V c 1 t) _).2.2 _ Set.univ _)
      isplitl [Ha]; · iexact Ha
      isplitl [Hb]; · iexact Hb
      isplitl [Hc]; · iexact Hc
      isplitl [HS]; · iexact HS
      iintro ⟨Ha, Hb, Hc, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _)
          iexact HR
        iexact Hg
      isplitl [Ho]; · iexact Ho
      isplitl [Ha]; · iexact Ha
      isplitl [Hb]; · iexact Hb
      iexists _; iexact Hc

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the running minimum's named contents are
    forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 256 := N_1; omega)

end Region

end Cert.Kernel.Fr

end
-- ==== Proof.KB.Frame.lean ====
/-
  THE LAUNCH. @main is five items in order: the first kernel region, the reshape of its result, the second kernel
  region, the reshape of its result, and the closing stretch of host operations that averages the two results and adds
  them. The contents of every unscoped buffer at each boundary between items are written as a fold from the launch
  memory: a host stretch rewrites the buffers its operations write, a region leaves its arrays at what its write-backs
  fold to and every other buffer as entered. Neither region's output array is an argument, and each argument is an
  input window of both regions, so the fold read at an argument walks back to the launch memory. Each region is a
  segment over the thread state "every unscoped buffer at the boundary's contents, the generator register at some
  state, nothing owed", entered through and left from its own invariant by way of the class invariant.
-/
import proofs.«103797_j83425444758259_1_alg».proof.Proof.KB.Region0
import proofs.«103797_j83425444758259_1_alg».proof.Proof.KB.Region1
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items: a fold through @main -/

/-- Core `c`'s buffers at launch (the first region's entry: no host operation comes before it). -/
abbrev W0 : Dev nD → Valuation τ sig (Elt F) := fun c b => m ((c : Dev nD), b)
/-- The same read at the TensorCore's references (what the first region's proof data take). -/
abbrev V0 : (c : Dev nD) → (b : Ref sig .tc) → Buf (Elt F) ((c : Thread nD τ).loc b) := fun c b => W0 m c b
/-- At the first region's exit: its arrays at what the pipeline leaves (the inputs as entered, the output's
    write-backs folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (the first region's exit contents). -/
abbrev V1 : (c : Dev nD) → (b : Ref sig .tc) → Buf (Elt F) ((c : Thread nD τ).loc b) := fun c b => W1 m c b
/-- At the first region's exit each of its arrays holds what the pipeline leaves, and every other buffer what it
    held at entry. -/
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- The first region's output array ends holding the fold of its write-backs. -/
theorem W1_out (c : Dev nD) : W1 m c (Proc.devRef .tc main_call0_v0) = (dat0 (V0 m) c).arrAt 2 cfg0.N :=
  W1_arr m c 2

/-- After the reshape of the first region's result (the second region's entry). -/
abbrev W2 : Dev nD → Valuation τ sig (Elt F) := fun c => StableHlo.after hostOps1 (W1 m c)
/-- The same read at the TensorCore's references (what the second region's proof data take). -/
abbrev V2 : (c : Dev nD) → (b : Ref sig .tc) → Buf (Elt F) ((c : Thread nD τ).loc b) := fun c b => W2 m c b
/-- At the second region's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references (the second region's exit contents). -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- The second region's output array ends holding the fold of its write-backs. -/
theorem W3_out (c : Dev nD) : W3 m c (Proc.devRef .tc main_call1_v0) = (dat1 (V2 m) c).arrAt 2 cfg1.N :=
  W3_arr m c 2

/-- After the reshape of the second region's result. -/
abbrev W4 : Dev nD → Valuation τ sig (Elt F) := fun c => StableHlo.after hostOps2 (W3 m c)
/-- After the closing stretch: the contents @main returns at. -/
abbrev W5 : Dev nD → Valuation τ sig (Elt F) := fun c => StableHlo.after hostOps2_1 (W4 m c)

/-! ### The arguments end as launched: no host operation writes one (each written set is a single other buffer), and
    each region reads it through an input window, whose array the pipeline leaves at its entry contents -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := (W3_arr m c 1).trans (((dat1 (V2 m) c).arrAt_in 1 rfl _).trans (A_eq1 (V2 m) c 1))
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := (W3_arr m c 0).trans (((dat1 (V2 m) c).arrAt_in 0 rfl _).trans (A_eq1 (V2 m) c 0))
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 1).trans (((dat0 (V0 m) c).arrAt_in 1 rfl _).trans (A_eq0 (V0 m) c 1))
    _ = m ((c : Thread nD τ).loc main_arg1) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents; a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- What rides along still holds the core's dues at nothing (the register is let go). -/
theorem R_owes (c : Dev nD) : (R (F := F) c) ⊢ iprop(∃ W, owes (c : Thread nD τ) (0 : CellTallies nD τ sig Unit) W) := by
  iintro ⟨-, HO⟩; iexact HO
/-- A host stretch as a segment over the unscoped references from the contents `W`, `R` riding along; it ends at
    those references at the stretch's result from `W c`: the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of a host stretch allocates a buffer. -/
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may
-- unfold plain definitions in a metavariable's type
set_option backward.isDefEq.respectTransparency.types false in
/-- REGION 0 over the thread state: entered from every unscoped buffer at `W0`, left at `W1`. Its arrays are
    split out of the unscoped buffers at entry and put back at the exit contents; the generator register and the
    scoped buffers no window stages make the class invariant, which the region's own invariant is entered from and
    gives back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun c t => owed_eq0 (V0 m) c t
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (V0 m) c w) (V0 m c) fun w => A_eq0 (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · -- nothing is owed at the first point, and the recorded pairs are not bounded
      have h0 : (pdats m 0 c).owed 0 = 0 := owed_eq0 (V0 m) c 0
      have hr : (pdats m 0 c).recorded 0 = Set.univ := recorded_eq0 (V0 m) c 0
      unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    -- the class invariant from the register and the scoped rest, then the region's own entry step
    refine .trans ?_ (hin0 (V0 m) c)
    unfold Pipeline.ΦA
    iintro ⟨Hp, -, Hr⟩
    isplitl [Hr]; · iexact Hr
    iexact Hp
  hout c := by
    -- the region's own exit step back to the class invariant, then the register and the scoped rest out of it
    rw [Pipeline.ownSems0_none]
    refine .trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (V0 m) c w)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    -- nothing is owed after the last point
    have hl0 : (pdats m 0 c).owed (Fin.last _) = 0 := owed_eq0 (V0 m) c (Fin.last _)
    unfold Pipeline.Dat.owesAt Pipeline.owesWithin
    rw [hl0]
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at `W2`, left at `W3`. Its arrays are
    split out of the unscoped buffers at entry and put back at the exit contents; the generator register and the
    scoped buffers no window stages make the class invariant, which the region's own invariant is entered from and
    gives back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun c t => owed_eq1 (V2 m) c t
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (V2 m) c w) (V2 m c) fun w => A_eq1 (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · -- nothing is owed at the first point, and the recorded pairs are not bounded
      have h0 : (pdats m 1 c).owed 0 = 0 := owed_eq1 (V2 m) c 0
      have hr : (pdats m 1 c).recorded 0 = Set.univ := recorded_eq1 (V2 m) c 0
      unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    -- the class invariant from the register and the scoped rest, then the region's own entry step
    refine .trans ?_ (hin1 (V2 m) c)
    unfold Pipeline.ΦA
    iintro ⟨Hp, -, Hr⟩
    isplitl [Hr]; · iexact Hr
    iexact Hp
  hout c := by
    -- the region's own exit step back to the class invariant, then the register and the scoped rest out of it
    rw [Pipeline.ownSems0_none]
    refine .trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (V2 m) c w)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    -- nothing is owed after the last point
    have hl1 : (pdats m 1 c).owed (Fin.last _) = 0 := owed_eq1 (V2 m) c (Fin.last _)
    unfold Pipeline.Dat.owesAt Pipeline.owesWithin
    rw [hl1]
    icases HO with ⟨%W, -, HO⟩; iexists W; iexact HO

/-! ## @main as segments, and the launch -/

/-- @main's five segments in order: a region per kernel launch, a host segment per stretch from its boundary's contents. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .host (hseg hostOps2_1 hostOps2_1_sub hostOps2_1_fresh (W4 m)) ]

-- the launch theorem's implicit arguments are found by unifying its conclusion with this one, which takes unfolding
-- plain definitions in a metavariable's type
set_option backward.isDefEq.respectTransparency.types false in
/-- THE RUN: from any memory with zero counters, every weakly fair execution of @main on the TensorCores terminates,
    and every final memory holds each unscoped buffer at the last boundary's contents: @main is the chain of the
    segments' fragments, the thread states chain by name, the launch deals the first, and the last is read against
    the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          Prog.lift (.customCall (Pipeline.entry 1) ()),
          StableHlo.seq hostOps2,
          StableHlo.seq hostOps2_1 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W5 m c))
    (hch := ⟨fun _ => .rfl, fun _ => .rfl, fun _ => .rfl, fun _ => .rfl, fun _ => .rfl, fun c => sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: every final memory holds each argument array as launched: the run's reading at an argument's buffer,
    walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m c),
     (h c _ (mem_uc main_arg1 (by decide))).trans (W5_main_arg1 m c)⟩) (run_all m ρ)

end Cert.Kernel.Fr

end
-- ==== Proof.KI.Conds.lean ====
/-
  The grid of each of the two launches is 16 x 4 x 4 (batch, row tile, column tile), walked in row-major order, so
  the column-tile coordinate of point t is t mod 4. The body resets its running minimum where that coordinate is 0
  and copies it to the output block where it is 3; elsewhere the output window is idle. These facts are decided
  once over the 256 points.
-/
import proofs.«103797_j83425444758259_1_alg».proof.Proof.Gen.KernelIdeal.Launch
import proofs.«103797_j83425444758259_1_alg».proof.Proof.Gen.KernelIdeal.Skeleton
import proofs.«103797_j83425444758259_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: where the running minimum is reset and where it is written out -/

/-- The first conditional of the body (reset the running minimum): taken when the column-tile coordinate is 0. -/
abbrev cond0_0 (i : grid0.Coords) : Prop := (Scalar.cmpi .ne (Scalar.extui (Scalar.cmpi .eq (BitVec.ofNat 32 (i 2).val) 0#32)) 0#32) = 1#1
/-- Over the grid in row-major order the column-tile coordinate is the point's number modulo 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (copy the running minimum to the output block): taken at the last column tile. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last column tile the output window is idle (nothing is stored into it) and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last column tile the output window is live. -/
theorem liveAt0_2 : ∀ t : Fin cfg0.N, cond0_1 (grid0.coords t) → cfg0.idle 2 (grid0.coords t) = false := by decide +kernel

/-- Each window's current staging memref at point `t`, as the pipeline passes it to the body, and its wholeness. -/
abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
/-- The scratch buffer that carries the running minimum from one column tile to the next. -/
abbrev scM0 : Memref sig .tc .vmem S1x1x1024 .f32 := Memref.whole cc0_scratch0
/-- The views through which the scratch's and the output block's contents are stated. -/
abbrev VS0 : View sig .tc .vmem S1x1x1024 .f32 := (scM0).view
abbrev VO0 : View sig .tc .vmem S1x1x1024 .f32 := (Memref.whole cc0_stg2_0 : Memref sig .tc .vmem S1x1x1024 .f32).view

/-! ## Region 1: where the running minimum is reset and where it is written out -/

/-- The first conditional of the body (reset the running minimum): taken when the column-tile coordinate is 0. -/
abbrev cond1_0 (i : grid1.Coords) : Prop := (Scalar.cmpi .ne (Scalar.extui (Scalar.cmpi .eq (BitVec.ofNat 32 (i 2).val) 0#32)) 0#32) = 1#1
/-- Over the grid in row-major order the column-tile coordinate is the point's number modulo 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (copy the running minimum to the output block): taken at the last column tile. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last column tile the output window is idle (nothing is stored into it) and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last column tile the output window is live. -/
theorem liveAt1_2 : ∀ t : Fin cfg1.N, cond1_1 (grid1.coords t) → cfg1.idle 2 (grid1.coords t) = false := by decide +kernel

/-- Each window's current staging memref at point `t`, as the pipeline passes it to the body, and its wholeness. -/
abbrev ms1_0 (t : Fin cfg1.N) : Memref sig .tc .vmem S1x1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1024 .f32 := win1_2.stage (cfg1.slots t 2)
abbrev hs1_2 (t : Fin cfg1.N) : (ms1_2 t).IsWhole := hstage1_2 ((cfg1.slots t 2).cast nbuf1_2)
/-- The scratch buffer that carries the running minimum from one column tile to the next. -/
abbrev scM1 : Memref sig .tc .vmem S1x1x1024 .f32 := Memref.whole cc1_scratch0
/-- The views through which the scratch's and the output block's contents are stated. -/
abbrev VS1 : View sig .tc .vmem S1x1x1024 .f32 := (scM1).view
abbrev VO1 : View sig .tc .vmem S1x1x1024 .f32 := (Memref.whole cc1_stg2_0 : Memref sig .tc .vmem S1x1x1024 .f32).view

end Cert.KernelIdeal.Fr

end
-- ==== Proof.KI.Region0.lean ====
/-
  The first launch's region: for every batch and row tile the body walks the four column tiles, keeping in a scratch
  buffer the running minimum of the squared distances seen so far. The running minimum is reset at the first column
  tile, updated at every one, and copied to the output block at the last; at the other column tiles the output block
  is idle. This module runs the body in its three cases on arbitrary staging memrefs, states what the running minimum
  and the output block hold after every point (an accumulation along the points), and assembles the region's proof
  data with the running minimum carried by the invariant from one point to the next — all of it at a parameter: the
  contents of the core's buffers when the region is entered.
-/
import proofs.«103797_j83425444758259_1_alg».proof.Proof.KI.Conds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of the kernel, case by case

The body distinguishes three kinds of grid point by the column-tile coordinate: the first column tile, where the
running minimum is reset before it is updated; the middle ones, where it is only updated; the last, where after the
update it is copied to the output block. In each case the body is run once and for all on arbitrary whole staging
memrefs: the witness of the run is the list of pieces (last write first) that each buffer written ends with. -/

set_option maxHeartbeats 1000000 in
/-- FIRST COLUMN TILE (the reset is taken, the copy-out is not). The two input blocks are held at `xa`, `xb`; the
    output block is not touched and comes back at the contents `xo` it came with; the running minimum may hold
    anything on entry (it is overwritten with +infinity before it is read for the update) and leaves with the pieces
    `LS` written. -/
noncomputable def kernelRun0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond0_0 i) (hcb : ¬cond0_1 i)
    (xa : Vec F S1x1024x3 .f32) (xb : Vec F S1x1024x3 .f32) :
    Σ' (LO : List (View.Piece (Elt F) S1x1x1024 .f32)), { LS : List (View.Piece (Elt F) S1x1x1024 .f32) //
      ∀ (xo : Vec F S1x1x1024 .f32) (E : Set ℕ) (K : PUnit → sProp 𝕄),
        iprop(owns (c : Thread nD τ) arg3 fullShare xa ∗ owns (c : Thread nD τ) arg4 fullShare xb ∗ owns (c : Thread nD τ) arg5 fullShare xo ∗ (∃ d, owns (c : Thread nD τ) arg6 fullShare d)
            ∗ (iprop(owns (c : Thread nD τ) arg3 fullShare xa ∗ owns (c : Thread nD τ) arg4 fullShare xb ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__min_dist_kernel i arg3 harg3 arg4 harg4 arg5 harg5 arg6 harg6) K } := by
  refine ⟨[], ?_, fun xo E K => ?run⟩
  case run =>
    simp only [cc0__min_dist_kernel_eq_skeleton]; unfold cc0__min_dist_kernel_skel
    simp only [k0_part1_eq_skeleton]
    unfold owns
    iintro ⟨⟨%fa, %hfa, Ha⟩, ⟨%fb, %hfb, Hb⟩, ⟨%fo, %hfo, Ho⟩, ⟨%ds, %fs, -, HS⟩, Hk⟩
    obtain rfl := harg3.eq_unread hfa; obtain rfl := harg4.eq_unread hfb; obtain rfl := harg5.eq_unread hfo
    sl_exec (disch := first | exact hca | exact hcb)
    sl_step
    iapply Hk
    isplitl [Ha]
    · iexists _; isplitr; · ipureintro; exact harg3.read_unread _
      iexact Ha
    isplitl [Hb]
    · iexists _; isplitr; · ipureintro; exact harg4.read_unread _
      iexact Hb
    isplitl [Ho]
    · iexists _; isplitr; · ipureintro; exact harg5.read_unread _
      iexact Ho
    iexists _; iexact HS

set_option maxHeartbeats 1000000 in
/-- MIDDLE COLUMN TILES (neither conditional is taken). As before, but the running minimum comes in at the contents
    `xs` the point before left, which the update reads. -/
noncomputable def kernelRun0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : ¬cond0_1 i)
    (xa : Vec F S1x1024x3 .f32) (xb : Vec F S1x1024x3 .f32) (xs : Vec F S1x1x1024 .f32) :
    Σ' (LO : List (View.Piece (Elt F) S1x1x1024 .f32)), { LS : List (View.Piece (Elt F) S1x1x1024 .f32) //
      ∀ (xo : Vec F S1x1x1024 .f32) (E : Set ℕ) (K : PUnit → sProp 𝕄),
        iprop(owns (c : Thread nD τ) arg3 fullShare xa ∗ owns (c : Thread nD τ) arg4 fullShare xb ∗ owns (c : Thread nD τ) arg5 fullShare xo ∗ owns (c : Thread nD τ) arg6 fullShare xs
            ∗ (iprop(owns (c : Thread nD τ) arg3 fullShare xa ∗ owns (c : Thread nD τ) arg4 fullShare xb ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__min_dist_kernel i arg3 harg3 arg4 harg4 arg5 harg5 arg6 harg6) K } := by
  refine ⟨[], ?_, fun xo E K => ?run⟩
  case run =>
    simp only [cc0__min_dist_kernel_eq_skeleton]; unfold cc0__min_dist_kernel_skel
    simp only [k0_part1_eq_skeleton]
    unfold owns
    iintro ⟨⟨%fa, %hfa, Ha⟩, ⟨%fb, %hfb, Hb⟩, ⟨%fo, %hfo, Ho⟩, ⟨%fs, %hfs, HS⟩, Hk⟩
    obtain rfl := harg3.eq_unread hfa; obtain rfl := harg4.eq_unread hfb; obtain rfl := harg5.eq_unread hfo; obtain rfl := harg6.eq_unread hfs
    sl_exec (disch := first | exact hca | exact hcb)
    sl_step
    iapply Hk
    isplitl [Ha]
    · iexists _; isplitr; · ipureintro; exact harg3.read_unread _
      iexact Ha
    isplitl [Hb]
    · iexists _; isplitr; · ipureintro; exact harg4.read_unread _
      iexact Hb
    isplitl [Ho]
    · iexists _; isplitr; · ipureintro; exact harg5.read_unread _
      iexact Ho
    iexists _; iexact HS

set_option maxHeartbeats 1000000 in
/-- LAST COLUMN TILE (the reset is not taken, the copy-out is). The running minimum comes in at `xs` and is updated;
    then the output block, whatever it held, is overwritten whole with the updated minimum: it leaves with the
    pieces `LO` written. -/
noncomputable def kernelRun0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : cond0_1 i)
    (xa : Vec F S1x1024x3 .f32) (xb : Vec F S1x1024x3 .f32) (xs : Vec F S1x1x1024 .f32) :
    Σ' (LO : List (View.Piece (Elt F) S1x1x1024 .f32)), { LS : List (View.Piece (Elt F) S1x1x1024 .f32) //
      ∀ (E : Set ℕ) (K : PUnit → sProp 𝕄),
        iprop(owns (c : Thread nD τ) arg3 fullShare xa ∗ owns (c : Thread nD τ) arg4 fullShare xb ∗ (∃ d, owns (c : Thread nD τ) arg5 fullShare d) ∗ owns (c : Thread nD τ) arg6 fullShare xs
            ∗ (iprop(owns (c : Thread nD τ) arg3 fullShare xa ∗ owns (c : Thread nD τ) arg4 fullShare xb ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__min_dist_kernel i arg3 harg3 arg4 harg4 arg5 harg5 arg6 harg6) K } := by
  refine ⟨?_, ?_, fun E K => ?run⟩
  case run =>
    simp only [cc0__min_dist_kernel_eq_skeleton]; unfold cc0__min_dist_kernel_skel
    simp only [k0_part1_eq_skeleton]
    unfold owns
    iintro ⟨⟨%fa, %hfa, Ha⟩, ⟨%fb, %hfb, Hb⟩, ⟨%dO, %fo, -, Ho⟩, ⟨%fs, %hfs, HS⟩, Hk⟩
    obtain rfl := harg3.eq_unread hfa; obtain rfl := harg4.eq_unread hfb; obtain rfl := harg6.eq_unread hfs
    sl_exec (disch := first | exact hca | exact hcb)
    sl_step
    iapply Hk
    isplitl [Ha]
    · iexists _; isplitr; · ipureintro; exact harg3.read_unread _
      iexact Ha
    isplitl [Hb]
    · iexists _; isplitr; · ipureintro; exact harg4.read_unread _
      iexact Hb
    isplitl [Ho]; · iexists _; iexact Ho
    iexists _; iexact HS

/-! ## What each case leaves in the running minimum and in the output block -/

/-- The first column tile stores nothing into the output block (no pieces): a placeholder that nothing consults, the block being neither written back nor read on at such a point. -/
def out0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond0_0 i) (hcb : ¬cond0_1 i)
    (xa : Vec F S1x1024x3 .f32) (xb : Vec F S1x1024x3 .f32) : Vec F S1x1x1024 .f32 :=
  VO0.read (Elt F) (VO0.writes (Elt F) VO0.junk (kernelRun0_A c i arg3 harg3 arg4 harg4 arg5 harg5 arg6 harg6 hca hcb xa xb).1)

/-- The pieces the first column tile writes into the running minimum tile it, so they cover it. -/
theorem scover0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond0_0 i) (hcb : ¬cond0_1 i)
    (xa : Vec F S1x1024x3 .f32) (xb : Vec F S1x1024x3 .f32) (y : S1x1x1024.Idx) :
    ∃ pc ∈ (kernelRun0_A c i arg3 harg3 arg4 harg4 arg5 harg5 arg6 harg6 hca hcb xa xb).2.1, y ∈ pc.1.set :=
  View.cover_of_tiledL (kernelRun0_A c i arg3 harg3 arg4 harg4 arg5 harg5 arg6 harg6 hca hcb xa xb).2.1 S1x1x1024.size (by sl_kernel_rfl) y

/-- What the first column tile leaves in the running minimum: its pieces read back. -/
def sout0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond0_0 i) (hcb : ¬cond0_1 i)
    (xa : Vec F S1x1024x3 .f32) (xb : Vec F S1x1024x3 .f32) : Vec F S1x1x1024 .f32 :=
  VS0.read (Elt F) (VS0.writes (Elt F) VS0.junk (kernelRun0_A c i arg3 harg3 arg4 harg4 arg5 harg5 arg6 harg6 hca hcb xa xb).2.1)

/-- A middle column tile stores nothing into the output block either: the same placeholder. -/
def out0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : ¬cond0_1 i)
    (xa : Vec F S1x1024x3 .f32) (xb : Vec F S1x1024x3 .f32) (xs : Vec F S1x1x1024 .f32) : Vec F S1x1x1024 .f32 :=
  VO0.read (Elt F) (VO0.writes (Elt F) VO0.junk (kernelRun0_B c i arg3 harg3 arg4 harg4 arg5 harg5 arg6 harg6 hca hcb xa xb xs).1)

/-- The pieces a middle column tile writes into the running minimum cover it. -/
theorem scover0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : ¬cond0_1 i)
    (xa : Vec F S1x1024x3 .f32) (xb : Vec F S1x1024x3 .f32) (xs : Vec F S1x1x1024 .f32) (y : S1x1x1024.Idx) :
    ∃ pc ∈ (kernelRun0_B c i arg3 harg3 arg4 harg4 arg5 harg5 arg6 harg6 hca hcb xa xb xs).2.1, y ∈ pc.1.set :=
  View.cover_of_tiledL (kernelRun0_B c i arg3 harg3 arg4 harg4 arg5 harg5 arg6 harg6 hca hcb xa xb xs).2.1 S1x1x1024.size (by sl_kernel_rfl) y

/-- What a middle column tile leaves in the running minimum. -/
def sout0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : ¬cond0_1 i)
    (xa : Vec F S1x1024x3 .f32) (xb : Vec F S1x1024x3 .f32) (xs : Vec F S1x1x1024 .f32) : Vec F S1x1x1024 .f32 :=
  VS0.read (Elt F) (VS0.writes (Elt F) VS0.junk (kernelRun0_B c i arg3 harg3 arg4 harg4 arg5 harg5 arg6 harg6 hca hcb xa xb xs).2.1)

/-- The last column tile's single store into the output block covers it. -/
theorem cover0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : cond0_1 i)
    (xa : Vec F S1x1024x3 .f32) (xb : Vec F S1x1024x3 .f32) (xs : Vec F S1x1x1024 .f32) (y : S1x1x1024.Idx) :
    ∃ pc ∈ (kernelRun0_C c i arg3 harg3 arg4 harg4 arg5 harg5 arg6 harg6 hca hcb xa xb xs).1, y ∈ pc.1.set :=
  View.cover_of_tiledL (kernelRun0_C c i arg3 harg3 arg4 harg4 arg5 harg5 arg6 harg6 hca hcb xa xb xs).1 S1x1x1024.size (by sl_kernel_rfl) y

/-- What the last column tile leaves in the output block: its pieces read back. -/
def out0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : cond0_1 i)
    (xa : Vec F S1x1024x3 .f32) (xb : Vec F S1x1024x3 .f32) (xs : Vec F S1x1x1024 .f32) : Vec F S1x1x1024 .f32 :=
  VO0.read (Elt F) (VO0.writes (Elt F) VO0.junk (kernelRun0_C c i arg3 harg3 arg4 harg4 arg5 harg5 arg6 harg6 hca hcb xa xb xs).1)

/-- The pieces the last column tile writes into the running minimum cover it. -/
theorem scover0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : cond0_1 i)
    (xa : Vec F S1x1024x3 .f32) (xb : Vec F S1x1024x3 .f32) (xs : Vec F S1x1x1024 .f32) (y : S1x1x1024.Idx) :
    ∃ pc ∈ (kernelRun0_C c i arg3 harg3 arg4 harg4 arg5 harg5 arg6 harg6 hca hcb xa xb xs).2.1, y ∈ pc.1.set :=
  View.cover_of_tiledL (kernelRun0_C c i arg3 harg3 arg4 harg4 arg5 harg5 arg6 harg6 hca hcb xa xb xs).2.1 S1x1x1024.size (by sl_kernel_rfl) y

/-- What the last column tile leaves in the running minimum. -/
def sout0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : cond0_1 i)
    (xa : Vec F S1x1024x3 .f32) (xb : Vec F S1x1024x3 .f32) (xs : Vec F S1x1x1024 .f32) : Vec F S1x1x1024 .f32 :=
  VS0.read (Elt F) (VS0.writes (Elt F) VS0.junk (kernelRun0_C c i arg3 harg3 arg4 harg4 arg5 harg5 arg6 harg6 hca hcb xa xb xs).2.1)

section Region
-- the contents of the TensorCore's buffers when the region is entered: everything below is stated at them
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's current staging buffer holds its block at every point, although the block is fetched only at
    the first column tile: where it is not fetched, its block index has not moved since the point before, and the
    body leaves the block in place. For any proof data whose array is the entry contents and whose body leaves the
    block as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's block is fetched at every point; the same statement. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the output block and the running minimum hold after each point -/

/-- THE ACCUMULATION. After the body at position `n`: the pair (output block's staging contents, running minimum).
    The column-tile coordinate of position `n` is `n % 4`; it selects the case, which is run at the point's
    memrefs and input blocks, the running minimum of the middle and last column tiles being what position `n - 1`
    left. No position is both a first and a last column tile. -/
def outsAt0 (c : Dev nD) : (n : ℕ) → n < cfg0.N → Vec F S1x1x1024 .f32 × Vec F S1x1x1024 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if hA : (n + 1) % 4 = 0 then
      if hC : (n + 1) % 4 = 3 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr hA) (fun h => hC ((hcond0_1 ⟨n + 1, hn⟩).mp h)) (iblk0 V c 0 ⟨n + 1, hn⟩) (iblk0 V c 1 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr hA) (fun h => hC ((hcond0_1 ⟨n + 1, hn⟩).mp h)) (iblk0 V c 0 ⟨n + 1, hn⟩) (iblk0 V c 1 ⟨n + 1, hn⟩))
    else
      if hC : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => hA ((hcond0_0 ⟨n + 1, hn⟩).mp h)) ((hcond0_1 ⟨n + 1, hn⟩).mpr hC) (iblk0 V c 0 ⟨n + 1, hn⟩) (iblk0 V c 1 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => hA ((hcond0_0 ⟨n + 1, hn⟩).mp h)) ((hcond0_1 ⟨n + 1, hn⟩).mpr hC) (iblk0 V c 0 ⟨n + 1, hn⟩) (iblk0 V c 1 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => hA ((hcond0_0 ⟨n + 1, hn⟩).mp h)) (fun h => hC ((hcond0_1 ⟨n + 1, hn⟩).mp h)) (iblk0 V c 0 ⟨n + 1, hn⟩) (iblk0 V c 1 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => hA ((hcond0_0 ⟨n + 1, hn⟩).mp h)) (fun h => hC ((hcond0_1 ⟨n + 1, hn⟩).mp h)) (iblk0 V c 0 ⟨n + 1, hn⟩) (iblk0 V c 1 ⟨n + 1, hn⟩) (outsAt0 c n (Nat.lt_of_succ_lt hn)).2)

/-- At a first column tile: that case's contents. -/
theorem outsAt0_A (c : Dev nD) (t : Fin cfg0.N) (hA : t.val % 4 = 0) (hC : ¬t.val % 4 = 3) :
    outsAt0 V c t.val t.isLt = (out0_A c (grid0.coords t) (ms0_0 t) (hs0_0 t) (ms0_1 t) (hs0_1 t) (ms0_2 t) (hs0_2 t) scM0 (Memref.isWhole_whole _) ((hcond0_0 t).mpr hA) (fun h => hC ((hcond0_1 t).mp h)) (iblk0 V c 0 t) (iblk0 V c 1 t), sout0_A c (grid0.coords t) (ms0_0 t) (hs0_0 t) (ms0_1 t) (hs0_1 t) (ms0_2 t) (hs0_2 t) scM0 (Memref.isWhole_whole _) ((hcond0_0 t).mpr hA) (fun h => hC ((hcond0_1 t).mp h)) (iblk0 V c 0 t) (iblk0 V c 1 t)) := by
  obtain ⟨n, hn⟩ := t
  cases n with
  | zero => exact rfl
  | succ n => exact (dif_pos hA).trans ((dif_neg hC).trans rfl)

/-- At a middle column tile: that case's contents, over the running minimum the point before left. -/
theorem outsAt0_B (c : Dev nD) (t : Fin cfg0.N) (hA : ¬t.val % 4 = 0) (hC : ¬t.val % 4 = 3) :
    outsAt0 V c t.val t.isLt = (out0_B c (grid0.coords t) (ms0_0 t) (hs0_0 t) (ms0_1 t) (hs0_1 t) (ms0_2 t) (hs0_2 t) scM0 (Memref.isWhole_whole _) (fun h => hA ((hcond0_0 t).mp h)) (fun h => hC ((hcond0_1 t).mp h)) (iblk0 V c 0 t) (iblk0 V c 1 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) scM0 (Memref.isWhole_whole _) (fun h => hA ((hcond0_0 t).mp h)) (fun h => hC ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at hA); exact absurd (Nat.zero_mod _) hA)
  | succ n => exact (dif_neg hA).trans ((dif_neg hC).trans rfl)

/-- At a last column tile: that case's contents, over the running minimum the point before left. -/
theorem outsAt0_C (c : Dev nD) (t : Fin cfg0.N) (hA : ¬t.val % 4 = 0) (hC : t.val % 4 = 3) :
    outsAt0 V c t.val t.isLt = (out0_C c (grid0.coords t) (ms0_0 t) (hs0_0 t) (ms0_1 t) (hs0_1 t) (ms0_2 t) (hs0_2 t) scM0 (Memref.isWhole_whole _) (fun h => hA ((hcond0_0 t).mp h)) ((hcond0_1 t).mpr hC) (iblk0 V c 0 t) (iblk0 V c 1 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) scM0 (Memref.isWhole_whole _) (fun h => hA ((hcond0_0 t).mp h)) ((hcond0_1 t).mpr hC) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at hA); exact absurd (Nat.zero_mod _) hA)
  | succ n => exact (dif_neg hA).trans ((dif_pos hC).trans rfl)

/-! ## The region invariant -/

/-- The core's scoped buffers that are no staging buffer of this launch, split at the running minimum's buffer: that
    one whole at some contents, the others (the second launch's buffers) carried unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- What the launch hands the region: the running minimum's buffer owned at some contents, the other scoped buffers
    unopened, the generator register at some state. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- The invariant before position `n`: before the first point what the launch hands over; afterwards the same with
    the running minimum at what position `n - 1` left in it. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The region's proof data on core `c`: the arrays as the region finds them; after the body at point `t` each
    input's buffer at its block and the output's at the accumulation's first component; the invariant above; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

/-- The proof data bounds the recorded waits by nothing (the body takes on no new units). -/
theorem recorded_eq0 (c : Dev nD) (t : Fin (cfg0.N + 1)) : (dat0 V c).recorded t = Set.univ := by
  dsimp only [dat0]

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the point's number modulo 4 says which case it is
    in. The invariant hands the body the running minimum at what the point before left (at anything at the very
    first point; at a later first column tile the named contents are forgotten, the case overwriting them) and takes
    it back at this point's contents, the pieces written covering the buffer. Away from the last column tile the
    output block is idle: its buffer goes back as it came. At the last column tile it is live and goes back at the
    pieces written, which cover it. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  by_cases hA : t.val % 4 = 0
  · by_cases hC : t.val % 4 = 3
    · exfalso; omega
    · rw [Dat.leavesExact_idle (dat0 V c) 2 t (idleAt0_2 t (fun h => hC ((hcond0_1 t).mp h))) (noFlush0_2 t (fun h => hC ((hcond0_1 t).mp h)))]
      rw [outsAt0_A V c t hA hC]
      unfold sout0_A; (try dsimp only)
      by_cases hz : t.val = 0
      · rw [PhiS0_castSucc V c t, PhiS0_zero V c _ _ hz, PhiA0_eq]
        iintro ⟨⟨⟨HS, HR⟩, Hg⟩, Ho, ⟨%da, Ha⟩, ⟨%db, Hb⟩, ⟨%dc, Hc⟩⟩
        iapply ((kernelRun0_A c (grid0.coords t) _ _ _ _ _ _ _ _ ((hcond0_0 t).mpr hA) (fun h => hC ((hcond0_1 t).mp h)) (iblk0 V c 0 t) (iblk0 V c 1 t)).2.2 _ Set.univ _)
        isplitl [Ha]; · iexact Ha
        isplitl [Hb]; · iexact Hb
        isplitl [Hc]; · iexact Hc
        isplitl [HS]; · iexact HS
        iintro ⟨Ha, Hb, Hc, ⟨%es, HS⟩⟩
        isplitl [HS HR Hg]
        · isplitl [HS HR]
          · isplitl [HS]
            · unfold owns; iexists _; isplitr
              swap; · iexact HS
              ipureintro; exact View.read_writes_of_cover _ _ _ _ _ (scover0_A c _ _ _ _ _ _ _ _ _ _ _ _ _)
            iexact HR
          iexact Hg
        isplitl [Ho]; · iexact Ho
        isplitl [Ha]; · iexact Ha
        isplitl [Hb]; · iexact Hb
        iexists _; iexact Hc
      · rw [PhiS0_castSucc V c t, PhiS0_pos V c _ _ hz]
        iintro ⟨⟨⟨HS, HR⟩, Hg⟩, Ho, ⟨%da, Ha⟩, ⟨%db, Hb⟩, ⟨%dc, Hc⟩⟩
        iapply ((kernelRun0_A c (grid0.coords t) _ _ _ _ _ _ _ _ ((hcond0_0 t).mpr hA) (fun h => hC ((hcond0_1 t).mp h)) (iblk0 V c 0 t) (iblk0 V c 1 t)).2.2 _ Set.univ _)
        isplitl [Ha]; · iexact Ha
        isplitl [Hb]; · iexact Hb
        isplitl [Hc]; · iexact Hc
        isplitl [HS]; · iexists _; iexact HS
        iintro ⟨Ha, Hb, Hc, ⟨%es, HS⟩⟩
        isplitl [HS HR Hg]
        · isplitl [HS HR]
          · isplitl [HS]
            · unfold owns; iexists _; isplitr
              swap; · iexact HS
              ipureintro; exact View.read_writes_of_cover _ _ _ _ _ (scover0_A c _ _ _ _ _ _ _ _ _ _ _ _ _)
            iexact HR
          iexact Hg
        isplitl [Ho]; · iexact Ho
        isplitl [Ha]; · iexact Ha
        isplitl [Hb]; · iexact Hb
        iexists _; iexact Hc
  · have hz : t.val ≠ 0 := fun h => hA (by rw [h])
    rw [PhiS0_castSucc V c t, PhiS0_pos V c _ _ hz]
    by_cases hC : t.val % 4 = 3
    · rw [show (dat0 V c).leavesExact 2 t = owns (c : Thread nD τ) (ms0_2 t) fullShare ((dat0 V c).after 2 t) from by
        unfold Dat.leavesExact; rw [liveAt0_2 t ((hcond0_1 t).mpr hC)], after0_2]
      rw [outsAt0_C V c t hA hC]
      unfold out0_C sout0_C; (try dsimp only)
      iintro ⟨⟨⟨HS, HR⟩, Hg⟩, Ho, ⟨%da, Ha⟩, ⟨%db, Hb⟩, ⟨%dc, Hc⟩⟩
      iapply ((kernelRun0_C c (grid0.coords t) _ _ _ _ _ _ _ _ (fun h => hA ((hcond0_0 t).mp h)) ((hcond0_1 t).mpr hC) (iblk0 V c 0 t) (iblk0 V c 1 t) _).2.2 Set.univ _)
      isplitl [Ha]; · iexact Ha
      isplitl [Hb]; · iexact Hb
      isplitl [Hc]; · iexists _; iexact Hc
      isplitl [HS]; · iexact HS
      iintro ⟨Ha, Hb, ⟨%ec, Hc⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c _ _ _ _ _ _ _ _ _ _ _ _ _ _)
          iexact HR
        iexact Hg
      isplitl [Ho]; · iexact Ho
      isplitl [Ha]; · iexact Ha
      isplitl [Hb]; · iexact Hb
      unfold owns; iexists _; isplitr
      swap; · iexact Hc
      ipureintro; exact View.read_writes_of_cover _ _ _ _ _ (cover0_C c _ _ _ _ _ _ _ _ _ _ _ _ _ _)
    · rw [Dat.leavesExact_idle (dat0 V c) 2 t (idleAt0_2 t (fun h => hC ((hcond0_1 t).mp h))) (noFlush0_2 t (fun h => hC ((hcond0_1 t).mp h)))]
      rw [outsAt0_B V c t hA hC]
      unfold sout0_B; (try dsimp only)
      iintro ⟨⟨⟨HS, HR⟩, Hg⟩, Ho, ⟨%da, Ha⟩, ⟨%db, Hb⟩, ⟨%dc, Hc⟩⟩
      iapply ((kernelRun0_B c (grid0.coords t) _ _ _ _ _ _ _ _ (fun h => hA ((hcond0_0 t).mp h)) (fun h => hC ((hcond0_1 t).mp h)) (iblk0 V c 0 t) (iblk0 V c 1 t) _).2.2 _ Set.univ _)
      isplitl [Ha]; · iexact Ha
      isplitl [Hb]; · iexact Hb
      isplitl [Hc]; · iexact Hc
      isplitl [HS]; · iexact HS
      iintro ⟨Ha, Hb, Hc, ⟨%es, HS⟩⟩
      isplitl [HS HR Hg]
      · isplitl [HS HR]
        · isplitl [HS]
          · unfold owns; iexists _; isplitr
            swap; · iexact HS
            ipureintro; exact View.read_writes_of_cover _ _ _ _ _ (scover0_B c _ _ _ _ _ _ _ _ _ _ _ _ _ _)
          iexact HR
        iexact Hg
      isplitl [Ho]; · iexact Ho
      isplitl [Ha]; · iexact Ha
      isplitl [Hb]; · iexact Hb
      iexists _; iexact Hc

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the running minimum's named contents are
    forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 256 := N_0; omega)

end Region

end Cert.KernelIdeal.Fr

end
-- ==== Proof.KI.Region1.lean ====
/-
  The first launch's region: for every batch and row tile the body walks the four column tiles, keeping in a scratch
  buffer the running minimum of the squared distances seen so far. The running minimum is reset at the first column
  tile, updated at every one, and copied to the output block at the last; at the other column tiles the output block
  is idle. This module runs the body in its three cases on arbitrary staging memrefs, states what the running minimum
  and the output block hold after every point (an accumulation along the points), and assembles the region's proof
  data with the running minimum carried by the invariant from one point to the next — all of it at a parameter: the
  contents of the core's buffers when the region is entered.
-/
import proofs.«103797_j83425444758259_1_alg».proof.Proof.KI.Conds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of the kernel, case by case

The body distinguishes three kinds of grid point by the column-tile coordinate: the first column tile, where the
running minimum is reset before it is updated; the middle ones, where it is only updated; the last, where after the
update it is copied to the output block. In each case the body is run once and for all on arbitrary whole staging
memrefs: the witness of the run is the list of pieces (last write first) that each buffer written ends with. -/

set_option maxHeartbeats 1000000 in
/-- FIRST COLUMN TILE (the reset is taken, the copy-out is not). The two input blocks are held at `xa`, `xb`; the
    output block is not touched and comes back at the contents `xo` it came with; the running minimum may hold
    anything on entry (it is overwritten with +infinity before it is read for the update) and leaves with the pieces
    `LS` written. -/
noncomputable def kernelRun1_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond1_0 i) (hcb : ¬cond1_1 i)
    (xa : Vec F S1x1024x3 .f32) (xb : Vec F S1x1024x3 .f32) :
    Σ' (LO : List (View.Piece (Elt F) S1x1x1024 .f32)), { LS : List (View.Piece (Elt F) S1x1x1024 .f32) //
      ∀ (xo : Vec F S1x1x1024 .f32) (E : Set ℕ) (K : PUnit → sProp 𝕄),
        iprop(owns (c : Thread nD τ) arg3 fullShare xa ∗ owns (c : Thread nD τ) arg4 fullShare xb ∗ owns (c : Thread nD τ) arg5 fullShare xo ∗ (∃ d, owns (c : Thread nD τ) arg6 fullShare d)
            ∗ (iprop(owns (c : Thread nD τ) arg3 fullShare xa ∗ owns (c : Thread nD τ) arg4 fullShare xb ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__min_dist_kernel i arg3 harg3 arg4 harg4 arg5 harg5 arg6 harg6) K } := by
  refine ⟨[], ?_, fun xo E K => ?run⟩
  case run =>
    simp only [cc1__min_dist_kernel_eq_skeleton]; unfold cc1__min_dist_kernel_skel
    simp only [k1_part1_eq_skeleton]
    unfold owns
    iintro ⟨⟨%fa, %hfa, Ha⟩, ⟨%fb, %hfb, Hb⟩, ⟨%fo, %hfo, Ho⟩, ⟨%ds, %fs, -, HS⟩, Hk⟩
    obtain rfl := harg3.eq_unread hfa; obtain rfl := harg4.eq_unread hfb; obtain rfl := harg5.eq_unread hfo
    sl_exec (disch := first | exact hca | exact hcb)
    sl_step
    iapply Hk
    isplitl [Ha]
    · iexists _; isplitr; · ipureintro; exact harg3.read_unread _
      iexact Ha
    isplitl [Hb]
    · iexists _; isplitr; · ipureintro; exact harg4.read_unread _
      iexact Hb
    isplitl [Ho]
    · iexists _; isplitr; · ipureintro; exact harg5.read_unread _
      iexact Ho
    iexists _; iexact HS

set_option maxHeartbeats 1000000 in
/-- MIDDLE COLUMN TILES (neither conditional is taken). As before, but the running minimum comes in at the contents
    `xs` the point before left, which the update reads. -/
noncomputable def kernelRun1_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : ¬cond1_1 i)
    (xa : Vec F S1x1024x3 .f32) (xb : Vec F S1x1024x3 .f32) (xs : Vec F S1x1x1024 .f32) :
    Σ' (LO : List (View.Piece (Elt F) S1x1x1024 .f32)), { LS : List (View.Piece (Elt F) S1x1x1024 .f32) //
      ∀ (xo : Vec F S1x1x1024 .f32) (E : Set ℕ) (K : PUnit → sProp 𝕄),
        iprop(owns (c : Thread nD τ) arg3 fullShare xa ∗ owns (c : Thread nD τ) arg4 fullShare xb ∗ owns (c : Thread nD τ) arg5 fullShare xo ∗ owns (c : Thread nD τ) arg6 fullShare xs
            ∗ (iprop(owns (c : Thread nD τ) arg3 fullShare xa ∗ owns (c : Thread nD τ) arg4 fullShare xb ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__min_dist_kernel i arg3 harg3 arg4 harg4 arg5 harg5 arg6 harg6) K } := by
  refine ⟨[], ?_, fun xo E K => ?run⟩
  case run =>
    simp only [cc1__min_dist_kernel_eq_skeleton]; unfold cc1__min_dist_kernel_skel
    simp only [k1_part1_eq_skeleton]
    unfold owns
    iintro ⟨⟨%fa, %hfa, Ha⟩, ⟨%fb, %hfb, Hb⟩, ⟨%fo, %hfo, Ho⟩, ⟨%fs, %hfs, HS⟩, Hk⟩
    obtain rfl := harg3.eq_unread hfa; obtain rfl := harg4.eq_unread hfb; obtain rfl := harg5.eq_unread hfo; obtain rfl := harg6.eq_unread hfs
    sl_exec (disch := first | exact hca | exact hcb)
    sl_step
    iapply Hk
    isplitl [Ha]
    · iexists _; isplitr; · ipureintro; exact harg3.read_unread _
      iexact Ha
    isplitl [Hb]
    · iexists _; isplitr; · ipureintro; exact harg4.read_unread _
      iexact Hb
    isplitl [Ho]
    · iexists _; isplitr; · ipureintro; exact harg5.read_unread _
      iexact Ho
    iexists _; iexact HS

set_option maxHeartbeats 1000000 in
/-- LAST COLUMN TILE (the reset is not taken, the copy-out is). The running minimum comes in at `xs` and is updated;
    then the output block, whatever it held, is overwritten whole with the updated minimum: it leaves with the
    pieces `LO` written. -/
noncomputable def kernelRun1_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : cond1_1 i)
    (xa : Vec F S1x1024x3 .f32) (xb : Vec F S1x1024x3 .f32) (xs : Vec F S1x1x1024 .f32) :
    Σ' (LO : List (View.Piece (Elt F) S1x1x1024 .f32)), { LS : List (View.Piece (Elt F) S1x1x1024 .f32) //
      ∀ (E : Set ℕ) (K : PUnit → sProp 𝕄),
        iprop(owns (c : Thread nD τ) arg3 fullShare xa ∗ owns (c : Thread nD τ) arg4 fullShare xb ∗ (∃ d, owns (c : Thread nD τ) arg5 fullShare d) ∗ owns (c : Thread nD τ) arg6 fullShare xs
            ∗ (iprop(owns (c : Thread nD τ) arg3 fullShare xa ∗ owns (c : Thread nD τ) arg4 fullShare xb ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__min_dist_kernel i arg3 harg3 arg4 harg4 arg5 harg5 arg6 harg6) K } := by
  refine ⟨?_, ?_, fun E K => ?run⟩
  case run =>
    simp only [cc1__min_dist_kernel_eq_skeleton]; unfold cc1__min_dist_kernel_skel
    simp only [k1_part1_eq_skeleton]
    unfold owns
    iintro ⟨⟨%fa, %hfa, Ha⟩, ⟨%fb, %hfb, Hb⟩, ⟨%dO, %fo, -, Ho⟩, ⟨%fs, %hfs, HS⟩, Hk⟩
    obtain rfl := harg3.eq_unread hfa; obtain rfl := harg4.eq_unread hfb; obtain rfl := harg6.eq_unread hfs
    sl_exec (disch := first | exact hca | exact hcb)
    sl_step
    iapply Hk
    isplitl [Ha]
    · iexists _; isplitr; · ipureintro; exact harg3.read_unread _
      iexact Ha
    isplitl [Hb]
    · iexists _; isplitr; · ipureintro; exact harg4.read_unread _
      iexact Hb
    isplitl [Ho]; · iexists _; iexact Ho
    iexists _; iexact HS

/-! ## What each case leaves in the running minimum and in the output block -/

/-- The first column tile stores nothing into the output block (no pieces): a placeholder that nothing consults, the block being neither written back nor read on at such a point. -/
def out1_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond1_0 i) (hcb : ¬cond1_1 i)
    (xa : Vec F S1x1024x3 .f32) (xb : Vec F S1x1024x3 .f32) : Vec F S1x1x1024 .f32 :=
  VO1.read (Elt F) (VO1.writes (Elt F) VO1.junk (kernelRun1_A c i arg3 harg3 arg4 harg4 arg5 harg5 arg6 harg6 hca hcb xa xb).1)

/-- The pieces the first column tile writes into the running minimum tile it, so they cover it. -/
theorem scover1_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond1_0 i) (hcb : ¬cond1_1 i)
    (xa : Vec F S1x1024x3 .f32) (xb : Vec F S1x1024x3 .f32) (y : S1x1x1024.Idx) :
    ∃ pc ∈ (kernelRun1_A c i arg3 harg3 arg4 harg4 arg5 harg5 arg6 harg6 hca hcb xa xb).2.1, y ∈ pc.1.set :=
  View.cover_of_tiledL (kernelRun1_A c i arg3 harg3 arg4 harg4 arg5 harg5 arg6 harg6 hca hcb xa xb).2.1 S1x1x1024.size (by sl_kernel_rfl) y

/-- What the first column tile leaves in the running minimum: its pieces read back. -/
def sout1_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond1_0 i) (hcb : ¬cond1_1 i)
    (xa : Vec F S1x1024x3 .f32) (xb : Vec F S1x1024x3 .f32) : Vec F S1x1x1024 .f32 :=
  VS1.read (Elt F) (VS1.writes (Elt F) VS1.junk (kernelRun1_A c i arg3 harg3 arg4 harg4 arg5 harg5 arg6 harg6 hca hcb xa xb).2.1)

/-- A middle column tile stores nothing into the output block either: the same placeholder. -/
def out1_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : ¬cond1_1 i)
    (xa : Vec F S1x1024x3 .f32) (xb : Vec F S1x1024x3 .f32) (xs : Vec F S1x1x1024 .f32) : Vec F S1x1x1024 .f32 :=
  VO1.read (Elt F) (VO1.writes (Elt F) VO1.junk (kernelRun1_B c i arg3 harg3 arg4 harg4 arg5 harg5 arg6 harg6 hca hcb xa xb xs).1)

/-- The pieces a middle column tile writes into the running minimum cover it. -/
theorem scover1_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : ¬cond1_1 i)
    (xa : Vec F S1x1024x3 .f32) (xb : Vec F S1x1024x3 .f32) (xs : Vec F S1x1x1024 .f32) (y : S1x1x1024.Idx) :
    ∃ pc ∈ (kernelRun1_B c i arg3 harg3 arg4 harg4 arg5 harg5 arg6 harg6 hca hcb xa xb xs).2.1, y ∈ pc.1.set :=
  View.cover_of_tiledL (kernelRun1_B c i arg3 harg3 arg4 harg4 arg5 harg5 arg6 harg6 hca hcb xa xb xs).2.1 S1x1x1024.size (by sl_kernel_rfl) y

/-- What a middle column tile leaves in the running minimum. -/
def sout1_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : ¬cond1_1 i)
    (xa : Vec F S1x1024x3 .f32) (xb : Vec F S1x1024x3 .f32) (xs : Vec F S1x1x1024 .f32) : Vec F S1x1x1024 .f32 :=
  VS1.read (Elt F) (VS1.writes (Elt F) VS1.junk (kernelRun1_B c i arg3 harg3 arg4 harg4 arg5 harg5 arg6 harg6 hca hcb xa xb xs).2.1)

/-- The last column tile's single store into the output block covers it. -/
theorem cover1_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : cond1_1 i)
    (xa : Vec F S1x1024x3 .f32) (xb : Vec F S1x1024x3 .f32) (xs : Vec F S1x1x1024 .f32) (y : S1x1x1024.Idx) :
    ∃ pc ∈ (kernelRun1_C c i arg3 harg3 arg4 harg4 arg5 harg5 arg6 harg6 hca hcb xa xb xs).1, y ∈ pc.1.set :=
  View.cover_of_tiledL (kernelRun1_C c i arg3 harg3 arg4 harg4 arg5 harg5 arg6 harg6 hca hcb xa xb xs).1 S1x1x1024.size (by sl_kernel_rfl) y

/-- What the last column tile leaves in the output block: its pieces read back. -/
def out1_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : cond1_1 i)
    (xa : Vec F S1x1024x3 .f32) (xb : Vec F S1x1024x3 .f32) (xs : Vec F S1x1x1024 .f32) : Vec F S1x1x1024 .f32 :=
  VO1.read (Elt F) (VO1.writes (Elt F) VO1.junk (kernelRun1_C c i arg3 harg3 arg4 harg4 arg5 harg5 arg6 harg6 hca hcb xa xb xs).1)

/-- The pieces the last column tile writes into the running minimum cover it. -/
theorem scover1_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : cond1_1 i)
    (xa : Vec F S1x1024x3 .f32) (xb : Vec F S1x1024x3 .f32) (xs : Vec F S1x1x1024 .f32) (y : S1x1x1024.Idx) :
    ∃ pc ∈ (kernelRun1_C c i arg3 harg3 arg4 harg4 arg5 harg5 arg6 harg6 hca hcb xa xb xs).2.1, y ∈ pc.1.set :=
  View.cover_of_tiledL (kernelRun1_C c i arg3 harg3 arg4 harg4 arg5 harg5 arg6 harg6 hca hcb xa xb xs).2.1 S1x1x1024.size (by sl_kernel_rfl) y

/-- What the last column tile leaves in the running minimum. -/
def sout1_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : cond1_1 i)
    (xa : Vec F S1x1024x3 .f32) (xb : Vec F S1x1024x3 .f32) (xs : Vec F S1x1x1024 .f32) : Vec F S1x1x1024 .f32 :=
  VS1.read (Elt F) (VS1.writes (Elt F) VS1.junk (kernelRun1_C c i arg3 harg3 arg4 harg4 arg5 harg5 arg6 harg6 hca hcb xa xb xs).2.1)

section Region
-- the contents of the TensorCore's buffers when the region is entered: everything below is stated at them
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's current staging buffer holds its block at every point, although the block is fetched only at
    the first column tile: where it is not fetched, its block index has not moved since the point before, and the
    body leaves the block in place. For any proof data whose array is the entry contents and whose body leaves the
    block as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input's block is fetched at every point; the same statement. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the output block and the running minimum hold after each point -/

/-- THE ACCUMULATION. After the body at position `n`: the pair (output block's staging contents, running minimum).
    The column-tile coordinate of position `n` is `n % 4`; it selects the case, which is run at the point's
    memrefs and input blocks, the running minimum of the middle and last column tiles being what position `n - 1`
    left. No position is both a first and a last column tile. -/
def outsAt1 (c : Dev nD) : (n : ℕ) → n < cfg1.N → Vec F S1x1x1024 .f32 × Vec F S1x1x1024 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if hA : (n + 1) % 4 = 0 then
      if hC : (n + 1) % 4 = 3 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr hA) (fun h => hC ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr hA) (fun h => hC ((hcond1_1 ⟨n + 1, hn⟩).mp h)) (iblk1 V c 0 ⟨n + 1, hn⟩) (iblk1 V c 1 ⟨n + 1, hn⟩))
    else
      if hC : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => hA ((hcond1_0 ⟨n + 1, hn⟩).mp h)) ((hcond1_1 ⟨n + 1, hn⟩).mpr hC) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => hA ((hcond1_0 ⟨n + 1, hn⟩).mp h)) ((hcond1_1 ⟨n + 1, hn⟩).mpr hC) (iblk1 V c 0 ⟨n + 1, hn⟩) (iblk1 V c 1 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => hA ((hcond1_0 ⟨n + 1, hn⟩).mp h)) (fun h => hC ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => hA ((hcond1_0 ⟨n + 1, hn⟩).mp h)) (fun h => hC ((hcond1_1 ⟨n + 1, hn⟩).mp h)) (iblk1 V c 0 ⟨n + 1, hn⟩) (iblk1 V c 1 ⟨n + 1, hn⟩) (outsAt1 c n (Nat.lt_of_succ_lt hn)).2)

/-- At a first column tile: that case's contents. -/
theorem outsAt1_A (c : Dev nD) (t : Fin cfg1.N) (hA : t.val % 4 = 0) (hC : ¬t.val % 4 = 3) :
    outsAt1 V c t.val t.isLt = (out1_A c (grid1.coords t) (ms1_0 t) (hs1_0 t) (ms1_1 t) (hs1_1 t) (ms1_2 t) (hs1_2 t) scM1 (Memref.isWhole_whole _) ((hcond1_0 t).mpr hA) (fun h => hC ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr hA) (fun h => hC ((hcond1_1 t).mp h)) (iblk1 V c 0 t) (iblk1 V c 1 t)) := by
  obtain ⟨n, hn⟩ := t
  cases n with
  | zero => exact rfl
  | succ n => exact (dif_pos hA).trans ((dif_neg hC).trans rfl)

/-- At a middle column tile: that case's contents, over the running minimum the point before left. -/
theorem outsAt1_B (c : Dev nD) (t : Fin cfg1.N) (hA : ¬t.val % 4 = 0) (hC : ¬t.val % 4 = 3) :
    outsAt1 V c t.val t.isLt = (out1_B c (grid1.coords t) (ms1_0 t) (hs1_0 t) (ms1_1 t) (hs1_1 t) (ms1_2 t) (hs1_2 t) scM1 (Memref.isWhole_whole _) (fun h => hA ((hcond1_0 t).mp h)) (fun h => hC ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => hA ((hcond1_0 t).mp h)) (fun h => hC ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at hA); exact absurd (Nat.zero_mod _) hA)
  | succ n => exact (dif_neg hA).trans ((dif_neg hC).trans rfl)

/-- At a last column tile: that case's contents, over the running minimum the point before left. -/
theorem outsAt1_C (c : Dev nD) (t : Fin cfg1.N) (hA : ¬t.val % 4 = 0) (hC : t.val % 4 = 3) :
    outsAt1 V c t.val t.isLt = (out1_C c (grid1.coords t) (ms1_0 t) (hs1_0 t) (ms1_1 t) (hs1_1 t) (ms1_2 t) (hs1_2 t) scM1 (Memref.isWhole_whole _) (fun h => hA ((hcond1_0 t).mp h)) ((hcond1_1 t).mpr hC) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => hA ((hcond1_0 t).mp h)) ((hcond1_1 t).mpr hC) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at hA); exact absurd (Nat.zero_mod _) hA)
  | succ n => exact (dif_neg hA).trans ((dif_pos hC).trans rfl)

/-! ## The region invariant -/

/-- The core's scoped buffers that are no staging buffer of this launch, split at the running minimum's buffer: that
    one whole at some contents, the others (the second launch's buffers) carried unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- What the launch hands the region: the running minimum's buffer owned at some contents, the other scoped buffers
    unopened, the generator register at some state. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- The invariant before position `n`: before the first point what the launch hands over; afterwards the same with
    the running minimum at what position `n - 1` left in it. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The region's proof data on core `c`: the arrays as the region finds them; after the body at point `t` each
    input's buffer at its block and the output's at the accumulation's first component; the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

/-- The proof data bounds the recorded waits by nothing (the body takes on no new units). -/
theorem recorded_eq1 (c : Dev nD) (t : Fin (cfg1.N + 1)) : (dat1 V c).recorded t = Set.univ := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the point's number modulo 4 says which case it is
    in. The invariant hands the body the running minimum at what the point before left (at anything at the very
    first point; at a later first column tile the named contents are forgotten, the case overwriting them) and takes
    it back at this point's contents, the pieces written covering the buffer. Away from the last column tile the
    output block is idle: its buffer goes back as it came. At the last column tile it is live and goes back at the
    pieces written, which cover it. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  by_cases hA : t.val % 4 = 0
  · by_cases hC : t.val % 4 = 3
    · exfalso; omega
    · rw [Dat.leavesExact_idle (dat1 V c) 2 t (idleAt1_2 t (fun h => hC ((hcond1_1 t).mp h))) (noFlush1_2 t (fun h => hC ((hcond1_1 t).mp h)))]
      rw [outsAt1_A V c t hA hC]
      unfold sout1_A; (try dsimp only)
      by_cases hz : t.val = 0
      · rw [PhiS1_castSucc V c t, PhiS1_zero V c _ _ hz, PhiA1_eq]
        iintro ⟨⟨⟨HS, HR⟩, Hg⟩, Ho, ⟨%da, Ha⟩, ⟨%db, Hb⟩, ⟨%dc, Hc⟩⟩
        iapply ((kernelRun1_A c (grid1.coords t) _ _ _ _ _ _ _ _ ((hcond1_0 t).mpr hA) (fun h => hC ((hcond1_1 t).mp h)) (iblk1 V c 0 t) (iblk1 V c 1 t)).2.2 _ Set.univ _)
        isplitl [Ha]; · iexact Ha
        isplitl [Hb]; · iexact Hb
        isplitl [Hc]; · iexact Hc
        isplitl [HS]; · iexact HS
        iintro ⟨Ha, Hb, Hc, ⟨%es, HS⟩⟩
        isplitl [HS HR Hg]
        · isplitl [HS HR]
          · isplitl [HS]
            · unfold owns; iexists _; isplitr
              swap; · iexact HS
              ipureintro; exact View.read_writes_of_cover _ _ _ _ _ (scover1_A c _ _ _ _ _ _ _ _ _ _ _ _ _)
            iexact HR
          iexact Hg
        isplitl [Ho]; · iexact Ho
        isplitl [Ha]; · iexact Ha
        isplitl [Hb]; · iexact Hb
        iexists _; iexact Hc
      · rw [PhiS1_castSucc V c t, PhiS1_pos V c _ _ hz]
        iintro ⟨⟨⟨HS, HR⟩, Hg⟩, Ho, ⟨%da, Ha⟩, ⟨%db, Hb⟩, ⟨%dc, Hc⟩⟩
        iapply ((kernelRun1_A c (grid1.coords t) _ _ _ _ _ _ _ _ ((hcond1_0 t).mpr hA) (fun h => hC ((hcond1_1 t).mp h)) (iblk1 V c 0 t) (iblk1 V c 1 t)).2.2 _ Set.univ _)
        isplitl [Ha]; · iexact Ha
        isplitl [Hb]; · iexact Hb
        isplitl [Hc]; · iexact Hc
        isplitl [HS]; · iexists _; iexact HS
        iintro ⟨Ha, Hb, Hc, ⟨%es, HS⟩⟩
        isplitl [HS HR Hg]
        · isplitl [HS HR]
          · isplitl [HS]
            · unfold owns; iexists _; isplitr
              swap; · iexact HS
              ipureintro; exact View.read_writes_of_cover _ _ _ _ _ (scover1_A c _ _ _ _ _ _ _ _ _ _ _ _ _)
            iexact HR
          iexact Hg
        isplitl [Ho]; · iexact Ho
        isplitl [Ha]; · iexact Ha
        isplitl [Hb]; · iexact Hb
        iexists _; iexact Hc
  · have hz : t.val ≠ 0 := fun h => hA (by rw [h])
    rw [PhiS1_castSucc V c t, PhiS1_pos V c _ _ hz]
    by_cases hC : t.val % 4 = 3
    · rw [show (dat1 V c).leavesExact 2 t = owns (c : Thread nD τ) (ms1_2 t) fullShare ((dat1 V c).after 2 t) from by
        unfold Dat.leavesExact; rw [liveAt1_2 t ((hcond1_1 t).mpr hC)], after1_2]
      rw [outsAt1_C V c t hA hC]
      unfold out1_C sout1_C; (try dsimp only)
      iintro ⟨⟨⟨HS, HR⟩, Hg⟩, Ho, ⟨%da, Ha⟩, ⟨%db, Hb⟩, ⟨%dc, Hc⟩⟩
      iapply ((kernelRun1_C c (grid1.coords t) _ _ _ _ _ _ _ _ (fun h => hA ((hcond1_0 t).mp h)) ((hcond1_1 t).mpr hC) (iblk1 V c 0 t) (iblk1 V c 1 t) _).2.2 Set.univ _)
      isplitl [Ha]; · iexact Ha
      isplitl [Hb]; · iexact Hb
      isplitl [Hc]; · iexists _; iexact Hc
      isplitl [HS]; · iexact HS
      iintro ⟨Ha, Hb, ⟨%ec, Hc⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _)
          iexact HR
        iexact Hg
      isplitl [Ho]; · iexact Ho
      isplitl [Ha]; · iexact Ha
      isplitl [Hb]; · iexact Hb
      unfold owns; iexists _; isplitr
      swap; · iexact Hc
      ipureintro; exact View.read_writes_of_cover _ _ _ _ _ (cover1_C c _ _ _ _ _ _ _ _ _ _ _ _ _ _)
    · rw [Dat.leavesExact_idle (dat1 V c) 2 t (idleAt1_2 t (fun h => hC ((hcond1_1 t).mp h))) (noFlush1_2 t (fun h => hC ((hcond1_1 t).mp h)))]
      rw [outsAt1_B V c t hA hC]
      unfold sout1_B; (try dsimp only)
      iintro ⟨⟨⟨HS, HR⟩, Hg⟩, Ho, ⟨%da, Ha⟩, ⟨%db, Hb⟩, ⟨%dc, Hc⟩⟩
      iapply ((kernelRun1_B c (grid1.coords t) _ _ _ _ _ _ _ _ (fun h => hA ((hcond1_0 t).mp h)) (fun h => hC ((hcond1_1 t).mp h)) (iblk1 V c 0 t) (iblk1 V c 1 t) _).2.2 _ Set.univ _)
      isplitl [Ha]; · iexact Ha
      isplitl [Hb]; · iexact Hb
      isplitl [Hc]; · iexact Hc
      isplitl [HS]; · iexact HS
      iintro ⟨Ha, Hb, Hc, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _)
          iexact HR
        iexact Hg
      isplitl [Ho]; · iexact Ho
      isplitl [Ha]; · iexact Ha
      isplitl [Hb]; · iexact Hb
      iexists _; iexact Hc

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the running minimum's named contents are
    forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 256 := N_1; omega)

end Region

end Cert.KernelIdeal.Fr

end
-- ==== Proof.KI.Frame.lean ====
/-
  THE LAUNCH. @main is five items in order: the first kernel region, the reshape of its result, the second kernel
  region, the reshape of its result, and the closing stretch of host operations that averages the two results and adds
  them. The contents of every unscoped buffer at each boundary between items are written as a fold from the launch
  memory: a host stretch rewrites the buffers its operations write, a region leaves its arrays at what its write-backs
  fold to and every other buffer as entered. Neither region's output array is an argument, and each argument is an
  input window of both regions, so the fold read at an argument walks back to the launch memory. Each region is a
  segment over the thread state "every unscoped buffer at the boundary's contents, the generator register at some
  state, nothing owed", entered through and left from its own invariant by way of the class invariant.
-/
import proofs.«103797_j83425444758259_1_alg».proof.Proof.KI.Region0
import proofs.«103797_j83425444758259_1_alg».proof.Proof.KI.Region1
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items: a fold through @main -/

/-- Core `c`'s buffers at launch (the first region's entry: no host operation comes before it). -/
abbrev W0 : Dev nD → Valuation τ sig (Elt F) := fun c b => m ((c : Dev nD), b)
/-- The same read at the TensorCore's references (what the first region's proof data take). -/
abbrev V0 : (c : Dev nD) → (b : Ref sig .tc) → Buf (Elt F) ((c : Thread nD τ).loc b) := fun c b => W0 m c b
/-- At the first region's exit: its arrays at what the pipeline leaves (the inputs as entered, the output's
    write-backs folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (the first region's exit contents). -/
abbrev V1 : (c : Dev nD) → (b : Ref sig .tc) → Buf (Elt F) ((c : Thread nD τ).loc b) := fun c b => W1 m c b
/-- At the first region's exit each of its arrays holds what the pipeline leaves, and every other buffer what it
    held at entry. -/
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- The first region's output array ends holding the fold of its write-backs. -/
theorem W1_out (c : Dev nD) : W1 m c (Proc.devRef .tc main_call0_v0) = (dat0 (V0 m) c).arrAt 2 cfg0.N :=
  W1_arr m c 2

/-- After the reshape of the first region's result (the second region's entry). -/
abbrev W2 : Dev nD → Valuation τ sig (Elt F) := fun c => StableHlo.after hostOps1 (W1 m c)
/-- The same read at the TensorCore's references (what the second region's proof data take). -/
abbrev V2 : (c : Dev nD) → (b : Ref sig .tc) → Buf (Elt F) ((c : Thread nD τ).loc b) := fun c b => W2 m c b
/-- At the second region's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references (the second region's exit contents). -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- The second region's output array ends holding the fold of its write-backs. -/
theorem W3_out (c : Dev nD) : W3 m c (Proc.devRef .tc main_call1_v0) = (dat1 (V2 m) c).arrAt 2 cfg1.N :=
  W3_arr m c 2

/-- After the reshape of the second region's result. -/
abbrev W4 : Dev nD → Valuation τ sig (Elt F) := fun c => StableHlo.after hostOps2 (W3 m c)
/-- After the closing stretch: the contents @main returns at. -/
abbrev W5 : Dev nD → Valuation τ sig (Elt F) := fun c => StableHlo.after hostOps2_1 (W4 m c)

/-! ### The arguments end as launched: no host operation writes one (each written set is a single other buffer), and
    each region reads it through an input window, whose array the pipeline leaves at its entry contents -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := (W3_arr m c 1).trans (((dat1 (V2 m) c).arrAt_in 1 rfl _).trans (A_eq1 (V2 m) c 1))
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := (W3_arr m c 0).trans (((dat1 (V2 m) c).arrAt_in 0 rfl _).trans (A_eq1 (V2 m) c 0))
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 1).trans (((dat0 (V0 m) c).arrAt_in 1 rfl _).trans (A_eq0 (V0 m) c 1))
    _ = m ((c : Thread nD τ).loc main_arg1) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents; a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- What rides along still holds the core's dues at nothing (the register is let go). -/
theorem R_owes (c : Dev nD) : (R (F := F) c) ⊢ iprop(∃ W, owes (c : Thread nD τ) (0 : CellTallies nD τ sig Unit) W) := by
  iintro ⟨-, HO⟩; iexact HO
/-- A host stretch as a segment over the unscoped references from the contents `W`, `R` riding along; it ends at
    those references at the stretch's result from `W c`: the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of a host stretch allocates a buffer. -/
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may
-- unfold plain definitions in a metavariable's type
set_option backward.isDefEq.respectTransparency.types false in
/-- REGION 0 over the thread state: entered from every unscoped buffer at `W0`, left at `W1`. Its arrays are
    split out of the unscoped buffers at entry and put back at the exit contents; the generator register and the
    scoped buffers no window stages make the class invariant, which the region's own invariant is entered from and
    gives back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun c t => owed_eq0 (V0 m) c t
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (V0 m) c w) (V0 m c) fun w => A_eq0 (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · -- nothing is owed at the first point, and the recorded pairs are not bounded
      have h0 : (pdats m 0 c).owed 0 = 0 := owed_eq0 (V0 m) c 0
      have hr : (pdats m 0 c).recorded 0 = Set.univ := recorded_eq0 (V0 m) c 0
      unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    -- the class invariant from the register and the scoped rest, then the region's own entry step
    refine .trans ?_ (hin0 (V0 m) c)
    unfold Pipeline.ΦA
    iintro ⟨Hp, -, Hr⟩
    isplitl [Hr]; · iexact Hr
    iexact Hp
  hout c := by
    -- the region's own exit step back to the class invariant, then the register and the scoped rest out of it
    rw [Pipeline.ownSems0_none]
    refine .trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (V0 m) c w)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    -- nothing is owed after the last point
    have hl0 : (pdats m 0 c).owed (Fin.last _) = 0 := owed_eq0 (V0 m) c (Fin.last _)
    unfold Pipeline.Dat.owesAt Pipeline.owesWithin
    rw [hl0]
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at `W2`, left at `W3`. Its arrays are
    split out of the unscoped buffers at entry and put back at the exit contents; the generator register and the
    scoped buffers no window stages make the class invariant, which the region's own invariant is entered from and
    gives back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun c t => owed_eq1 (V2 m) c t
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (V2 m) c w) (V2 m c) fun w => A_eq1 (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · -- nothing is owed at the first point, and the recorded pairs are not bounded
      have h0 : (pdats m 1 c).owed 0 = 0 := owed_eq1 (V2 m) c 0
      have hr : (pdats m 1 c).recorded 0 = Set.univ := recorded_eq1 (V2 m) c 0
      unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    -- the class invariant from the register and the scoped rest, then the region's own entry step
    refine .trans ?_ (hin1 (V2 m) c)
    unfold Pipeline.ΦA
    iintro ⟨Hp, -, Hr⟩
    isplitl [Hr]; · iexact Hr
    iexact Hp
  hout c := by
    -- the region's own exit step back to the class invariant, then the register and the scoped rest out of it
    rw [Pipeline.ownSems0_none]
    refine .trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (V2 m) c w)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    -- nothing is owed after the last point
    have hl1 : (pdats m 1 c).owed (Fin.last _) = 0 := owed_eq1 (V2 m) c (Fin.last _)
    unfold Pipeline.Dat.owesAt Pipeline.owesWithin
    rw [hl1]
    icases HO with ⟨%W, -, HO⟩; iexists W; iexact HO

/-! ## @main as segments, and the launch -/

/-- @main's five segments in order: a region per kernel launch, a host segment per stretch from its boundary's contents. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .host (hseg hostOps2_1 hostOps2_1_sub hostOps2_1_fresh (W4 m)) ]

-- the launch theorem's implicit arguments are found by unifying its conclusion with this one, which takes unfolding
-- plain definitions in a metavariable's type
set_option backward.isDefEq.respectTransparency.types false in
/-- THE RUN: from any memory with zero counters, every weakly fair execution of @main on the TensorCores terminates,
    and every final memory holds each unscoped buffer at the last boundary's contents: @main is the chain of the
    segments' fragments, the thread states chain by name, the launch deals the first, and the last is read against
    the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          Prog.lift (.customCall (Pipeline.entry 1) ()),
          StableHlo.seq hostOps2,
          StableHlo.seq hostOps2_1 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W5 m c))
    (hch := ⟨fun _ => .rfl, fun _ => .rfl, fun _ => .rfl, fun _ => .rfl, fun _ => .rfl, fun c => sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: every final memory holds each argument array as launched: the run's reading at an argument's buffer,
    walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m c),
     (h c _ (mem_uc main_arg1 (by decide))).trans (W5_main_arg1 m c)⟩) (run_all m ρ)

end Cert.KernelIdeal.Fr

end
-- ==== Proof.KI.Pieces0.lean ====
/-
  What the three cases of the first launch's body leave in the running minimum and in the output block, read back as
  values: the pieces each run ends with are whole-buffer stores of the body's payloads, so the first column tile leaves
  the update of +infinity by the two input blocks, the other column tiles the update of the running minimum they
  found, and the last column tile copies that to the output block.
-/
import proofs.«103797_j83425444758259_1_alg».proof.Proof.KI.Region0
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces the three runs found, as the body's payloads

Every store of the body writes its whole buffer through the rectangle at zero offsets of the buffer's own sizes, and
every load reads a whole buffer the same way: so what a run leaves in a buffer is the payload of its last store, and
a load reads the contents, or — after a store in the same run — that store's payload. -/

/-- First column tile: the running minimum is left at the update of +infinity (the reset's payload, read back) by the
    two input blocks. -/
theorem sout0_A_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond0_0 i) (hcb : ¬cond0_1 i)
    (xa : Vec F S1x1024x3 .f32) (xb : Vec F S1x1024x3 .f32) :
    sout0_A c i arg3 harg3 arg4 harg4 arg5 harg5 arg6 harg6 hca hcb xa xb = k0_pay2 xa xb (k0_pay1 (F := F)) := by
  have hz : (![0, 0, 0] : Fin 3 → Nat) = fun _ => 0 := funext fun a => by fin_cases a <;> rfl
  unfold sout0_A
  rw [View.read_writes_eq_canon _ _ _ (scover0_A c i arg3 harg3 arg4 harg4 arg5 harg5 arg6 harg6 hca hcb xa xb)]
  unfold kernelRun0_A
  dsimp only
  sl_unfold_words
  rw [View.canon_cons_unit_zero (S := S1x1x1024) hz]
  simp only [View.readAt_eq_ld, harg3.read_unread, harg4.read_unread, View.ld_unit_zero (S := S1x1024x3) hz,
    View.readCov_unit_zero (S := S1x1x1024) _ hz]

/-- Middle column tile: the running minimum is left at the update of what it held by the two input blocks. -/
theorem sout0_B_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : ¬cond0_1 i)
    (xa : Vec F S1x1024x3 .f32) (xb : Vec F S1x1024x3 .f32) (xs : Vec F S1x1x1024 .f32) :
    sout0_B c i arg3 harg3 arg4 harg4 arg5 harg5 arg6 harg6 hca hcb xa xb xs = k0_pay2 xa xb xs := by
  have hz : (![0, 0, 0] : Fin 3 → Nat) = fun _ => 0 := funext fun a => by fin_cases a <;> rfl
  unfold sout0_B
  rw [View.read_writes_eq_canon _ _ _ (scover0_B c i arg3 harg3 arg4 harg4 arg5 harg5 arg6 harg6 hca hcb xa xb xs)]
  unfold kernelRun0_B
  dsimp only
  sl_unfold_words
  rw [View.canon_unit_zero (S := S1x1x1024) hz]
  simp only [View.readAt_eq_ld, harg3.read_unread, harg4.read_unread, harg6.read_unread, View.ld_unit_zero (S := S1x1024x3) hz,
    View.ld_unit_zero (S := S1x1x1024) hz]

/-- Last column tile: the same update of the running minimum, -/
theorem sout0_C_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : cond0_1 i)
    (xa : Vec F S1x1024x3 .f32) (xb : Vec F S1x1024x3 .f32) (xs : Vec F S1x1x1024 .f32) :
    sout0_C c i arg3 harg3 arg4 harg4 arg5 harg5 arg6 harg6 hca hcb xa xb xs = k0_pay2 xa xb xs := by
  have hz : (![0, 0, 0] : Fin 3 → Nat) = fun _ => 0 := funext fun a => by fin_cases a <;> rfl
  unfold sout0_C
  rw [View.read_writes_eq_canon _ _ _ (scover0_C c i arg3 harg3 arg4 harg4 arg5 harg5 arg6 harg6 hca hcb xa xb xs)]
  unfold kernelRun0_C
  dsimp only
  sl_unfold_words
  rw [View.canon_unit_zero (S := S1x1x1024) hz]
  simp only [View.readAt_eq_ld, harg3.read_unread, harg4.read_unread, harg6.read_unread, View.ld_unit_zero (S := S1x1024x3) hz,
    View.ld_unit_zero (S := S1x1x1024) hz]

/-- and the output block is left at that updated running minimum, read back from its buffer. -/
theorem out0_C_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond0_0 i) (hcb : cond0_1 i)
    (xa : Vec F S1x1024x3 .f32) (xb : Vec F S1x1024x3 .f32) (xs : Vec F S1x1x1024 .f32) :
    out0_C c i arg3 harg3 arg4 harg4 arg5 harg5 arg6 harg6 hca hcb xa xb xs = k0_pay2 xa xb xs := by
  have hz : (![0, 0, 0] : Fin 3 → Nat) = fun _ => 0 := funext fun a => by fin_cases a <;> rfl
  unfold out0_C
  rw [View.read_writes_eq_canon _ _ _ (cover0_C c i arg3 harg3 arg4 harg4 arg5 harg5 arg6 harg6 hca hcb xa xb xs)]
  unfold kernelRun0_C
  dsimp only
  sl_unfold_words
  rw [View.canon_unit_zero (S := S1x1x1024) hz]
  simp only [View.readAt_eq_ld, harg3.read_unread, harg4.read_unread, harg6.read_unread, View.ld_unit_zero (S := S1x1024x3) hz,
    View.ld_unit_zero (S := S1x1x1024) hz, View.readCov_unit_zero (S := S1x1x1024) _ hz]

end Cert.KernelIdeal.Fr

end
-- ==== Proof.Val.Spec.lean ====
/-
  The mathematics both programs compute, over the extended reals.

  The inputs are two batches of 16 clouds of 4096 points in 3-space. For points x of one cloud and y of the other the
  clamped squared distance is max((|x|² + |y|²) − 2·⟨x, y⟩, 0), the three sums taken over the 3 coordinates. For each
  point of the first cloud the least such distance to the second cloud is a fold of `min` from +∞ over the 4096
  candidates; the kernel takes that fold in four tiles of 1024 candidates, the running minimum carried from tile to
  tile, which is the same number because `min` is associative, commutative and idempotent.
-/
import Idealize.ShloMosaic.Lib.ValueIdx
import Idealize.ShloMosaic.PureOps.Ideal.Laws

noncomputable section

namespace Cert.Spec

open Idealize.ShloMosaic Idealize.ShloMosaic.ValueIdx

/-- A batch of 16 clouds of 4096 points with 3 coordinates each. -/
abbrev Clouds : Type := (⟨3, ![16, 4096, 3]⟩ : Shape).Idx → EReal
/-- One tile: 1024 points of one cloud. -/
abbrev Tile : Type := (⟨3, ![1, 1024, 3]⟩ : Shape).Idx → EReal

/-- The three float literals of the computation, at their exact values: 2, 0 and +∞. -/
def two : EReal := Ideal.ofBits .f32 0x40000000#32
def zero : EReal := Ideal.ofBits .f32 0x00000000#32
def pinf : EReal := Ideal.ofBits .f32 0x7F800000#32

/-- |x|² for point `n` of cloud `b`. -/
def sq (X : Clouds) (b : Fin 16) (n : Fin 4096) : EReal := ∑ d : Fin 3, X (ix3 b n d) * X (ix3 b n d)
/-- ⟨x, y⟩ for point `n` of `X`'s cloud `b` and point `m` of `Y`'s. -/
def dot (X Y : Clouds) (b : Fin 16) (n m : Fin 4096) : EReal := ∑ d : Fin 3, X (ix3 b n d) * Y (ix3 b m d)
/-- The clamped squared distance, grouped as both programs group it. -/
def dist (X Y : Clouds) (b : Fin 16) (n m : Fin 4096) : EReal := max ((sq X b n + sq Y b m) - two * dot X Y b n m) zero
/-- For point `n` of `X`: the least clamped distance to a point of `Y`, folded from +∞. -/
def nearest (X Y : Clouds) (b : Fin 16) (n : Fin 4096) : EReal :=
  (Finset.univ : Finset (Fin 4096)).fold min pinf fun m => dist X Y b n m

/-- The same quantities on one pair of tiles: row `r` of tile `a` against row `q` of tile `t`. -/
def tileDist (a t : Tile) (r q : Fin 1024) : EReal :=
  max (((∑ d : Fin 3, a (ix3 0 r d) * a (ix3 0 r d)) + (∑ d : Fin 3, t (ix3 0 q d) * t (ix3 0 q d)))
    - two * ∑ d : Fin 3, a (ix3 0 r d) * t (ix3 0 q d)) zero
/-- The least distance from row `r` of tile `a` to the rows of tile `t`, folded from +∞. -/
def tileMin (a t : Tile) (r : Fin 1024) : EReal :=
  (Finset.univ : Finset (Fin 1024)).fold min pinf fun q => tileDist a t r q

/-- The [16, 4096] array of least distances: entry (b, n) is `nearest X Y b n`. -/
abbrev Mins : Type := (⟨2, ![16, 4096]⟩ : Shape).Idx → EReal
def nearestArr (X Y : Clouds) : Mins := fun j => nearest X Y (j 0) (j 1)
theorem nearestArr_apply (X Y : Clouds) (b : Fin 16) (n : Fin 4096) : nearestArr X Y (ix2 b n) = nearest X Y b n := rfl

/-- Point `q` of tile `j` is point `1024 j + q` of the cloud. -/
def tileIdx (j : Fin 4) (q : Fin 1024) : Fin 4096 := ⟨1024 * j.val + q.val, by omega⟩

/-- The inner product is symmetric, -/
theorem dot_comm (X Y : Clouds) (b : Fin 16) (n m : Fin 4096) : dot X Y b n m = dot Y X b m n :=
  Finset.sum_congr rfl fun d _ => mul_comm _ _
/-- and so is the clamped distance: |x|² + |y|² commutes. -/
theorem dist_comm (X Y : Clouds) (b : Fin 16) (n m : Fin 4096) : dist X Y b n m = dist Y X b m n := by
  unfold dist; rw [dot_comm X Y b n m, add_comm (sq X b n) (sq Y b m)]

/-- The least distance to `X`'s points measured from `Y`'s side is `nearest Y X`. -/
theorem fold_dist_swap (X Y : Clouds) (b : Fin 16) (m : Fin 4096) :
    ((Finset.univ : Finset (Fin 4096)).fold min pinf fun n => dist X Y b n m) = nearest Y X b m := by
  unfold nearest
  exact congrArg (fun f => Finset.fold min pinf f (Finset.univ : Finset (Fin 4096))) (funext fun n => dist_comm X Y b n m)

/-- A fold of `min` over the 4096 candidates is the running minimum over the four tiles of 1024, each tile's
    minimum folded from the same starting value: `min` is associative, commutative and idempotent. -/
theorem fold_min_tiles (f : Fin 4096 → EReal) (p : EReal) :
    min (min (min (min p ((Finset.univ : Finset (Fin 1024)).fold min p fun q => f (tileIdx 0 q)))
        ((Finset.univ : Finset (Fin 1024)).fold min p fun q => f (tileIdx 1 q)))
        ((Finset.univ : Finset (Fin 1024)).fold min p fun q => f (tileIdx 2 q)))
        ((Finset.univ : Finset (Fin 1024)).fold min p fun q => f (tileIdx 3 q))
      = (Finset.univ : Finset (Fin 4096)).fold min p f := by
  refine eq_of_forall_le_iff fun c => ?_
  simp only [le_min_iff, Finset.le_fold_min, Finset.mem_univ, forall_true_left]
  constructor
  · rintro ⟨⟨⟨⟨hp, -, h0⟩, -, h1⟩, -, h2⟩, -, h3⟩
    refine ⟨hp, fun m => ?_⟩
    obtain ⟨m, hm⟩ := m
    by_cases c0 : m < 1024
    · exact (show (⟨m, hm⟩ : Fin 4096) = tileIdx 0 ⟨m, c0⟩ from Fin.ext (by simp [tileIdx])) ▸ h0 ⟨m, c0⟩
    by_cases c1 : m < 2048
    · exact (show (⟨m, hm⟩ : Fin 4096) = tileIdx 1 ⟨m - 1024, by omega⟩ from Fin.ext (by simp [tileIdx]; omega)) ▸ h1 ⟨m - 1024, by omega⟩
    by_cases c2 : m < 3072
    · exact (show (⟨m, hm⟩ : Fin 4096) = tileIdx 2 ⟨m - 2048, by omega⟩ from Fin.ext (by simp [tileIdx]; omega)) ▸ h2 ⟨m - 2048, by omega⟩
    · exact (show (⟨m, hm⟩ : Fin 4096) = tileIdx 3 ⟨m - 3072, by omega⟩ from Fin.ext (by simp [tileIdx]; omega)) ▸ h3 ⟨m - 3072, by omega⟩
  · rintro ⟨hp, h⟩
    exact ⟨⟨⟨⟨hp, hp, fun q => h _⟩, hp, fun q => h _⟩, hp, fun q => h _⟩, hp, fun q => h _⟩

end Cert.Spec

end
-- ==== Proof.Val.Payload.lean ====
/-
  The kernel body's arithmetic, read one element at a time, over the extended reals.

  The body takes two tiles of 1024 points in 3-space and a running minimum of 1024 numbers. For row r of the first tile
  and row q of the second it forms (|a_r|² + |t_q|²) − 2·⟨a_r, t_q⟩ clamped below at 0, the two squared norms being sums
  over the 3 coordinates laid out as a column and as a row and spread over the 1024 × 1024 square, and the inner product
  a contraction over the coordinate axis. It then takes, for each r, the least of these over q, folded from +∞, and
  the smaller of that and the running minimum at r.
-/
import proofs.«103797_j83425444758259_1_alg».proof.Proof.Gen.KernelIdeal.Skeleton
import proofs.«103797_j83425444758259_1_alg».proof.Proof.Val.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Val

open Cert.KernelIdeal Cert.KernelIdeal.Gen Idealize.ShloMosaic Idealize.ShloMosaic.ValueIdx

/-! ## The two layouts of a row of 1024 numbers, and their spreading over the square -/

section Layout
variable {α : Type}

/-- A row of 1024 numbers laid out as a column: entry (0, r, 0) of the column is entry (0, r) of the row. -/
theorem column_apply (v : S1x1024.Idx → α) (h : S1x1024.ShapeCasts S1x1024x1) (r : Fin 1024) :
    shapeCast S1x1024x1 v h (ix3 (0 : Fin 1) r (0 : Fin 1)) = v (ix2 (0 : Fin 1) r) :=
  shapeCast_apply v h _ _ (by
    rw [Shape.rowMajor_val_two, Shape.rowMajor_val_three]
    show 0 * 1024 + r.val = (0 * 1024 + r.val) * 1 + 0
    omega)

/-- The same row with a unit axis put in the middle: entry (0, 0, q) is entry (0, q) of the row. -/
theorem row_apply (v : S1x1024.Idx → α) (h : S1x1024.ShapeCasts S1x1x1024) (q : Fin 1024) :
    shapeCast S1x1x1024 v h (ix3 (0 : Fin 1) (0 : Fin 1) q) = v (ix2 (0 : Fin 1) q) :=
  shapeCast_apply v h _ _ (by
    rw [Shape.rowMajor_val_two, Shape.rowMajor_val_three]
    show 0 * 1024 + q.val = (0 * 1 + 0) * 1024 + q.val
    omega)

/-- A column spread over 1024 columns: entry (0, r, q) of the square is the column's entry at r, whatever q. -/
theorem spread_column_apply (v : S1x1024x1.Idx → α) (h : S1x1024x1.Broadcasts S1x1024x1024) (r q : Fin 1024) :
    broadcastTo S1x1024x1024 v h (ix3 (0 : Fin 1) r q) = v (ix3 (0 : Fin 1) r (0 : Fin 1)) := by
  refine broadcastTo_apply v h (ix3 (0 : Fin 1) r q) (ix3 (0 : Fin 1) r (0 : Fin 1)) fun ax => ?_
  match ax with
  | ⟨0, _⟩ => rfl
  | ⟨1, _⟩ => show r.val = if (1024 : Nat) = 1 then 0 else r.val; rw [if_neg (by decide)]
  | ⟨2, _⟩ => rfl

/-- A row spread over 1024 rows: entry (0, r, q) of the square is the row's entry at q, whatever r. -/
theorem spread_row_apply (v : S1x1x1024.Idx → α) (h : S1x1x1024.Broadcasts S1x1024x1024) (r q : Fin 1024) :
    broadcastTo S1x1024x1024 v h (ix3 (0 : Fin 1) r q) = v (ix3 (0 : Fin 1) (0 : Fin 1) q) := by
  refine broadcastTo_apply v h (ix3 (0 : Fin 1) r q) (ix3 (0 : Fin 1) (0 : Fin 1) q) fun ax => ?_
  match ax with
  | ⟨0, _⟩ => rfl
  | ⟨1, _⟩ => rfl
  | ⟨2, _⟩ => show q.val = if (1024 : Nat) = 1 then 0 else q.val; rw [if_neg (by decide)]

end Layout

/-! ## The sum over the 3 coordinates, and the least over the 1024 candidates -/

/-- Row r of a tile with coordinate d put back on the summed axis is the point's d-th coordinate. -/
theorem lift_coord (h : S1x1024x3.Reduces [2] S1x1024) (r : Fin 1024) (d : Fin 3) :
    h.lift (ix2 (0 : Fin 1) r) d = ix3 (0 : Fin 1) r d := by
  funext c
  refine Fin.ext ?_
  match c with
  | ⟨0, _⟩ => rfl
  | ⟨1, _⟩ => rfl
  | ⟨2, _⟩ => rfl

/-- The sum along the coordinate axis, at row r, is the sum of the row's 3 entries. -/
theorem coord_sum_apply (x : FVec Ideal S1x1024x3 .f32) (h : S1x1024x3.Reduces [2] S1x1024) (hφ : FKind.Formats .f32)
    (hacc : (0x00000000#32 : BitVec FTy.f32.bits) = FKind.add.neutral .f32 hφ) (r : Fin 1024) :
    multiReduction (F := Ideal) .add [2] S1x1024 x 0x00000000#32 h hφ hacc (ix2 (0 : Fin 1) r)
      = ∑ d : Fin 3, x (ix3 (0 : Fin 1) r d) :=
  (Ideal.multiReduction_add_single x 0x00000000#32 h hφ hacc (ix2 (0 : Fin 1) r)).trans
    (Finset.sum_congr rfl fun d _ => congrArg x (lift_coord h r d))

/-- Row r of the square with candidate q put back on the reduced axis is entry (r, q). -/
theorem lift_candidate (h : S1x1024x1024.Reduces [2] S1x1024) (r q : Fin 1024) :
    h.lift (ix2 (0 : Fin 1) r) q = ix3 (0 : Fin 1) r q := by
  funext c
  refine Fin.ext ?_
  match c with
  | ⟨0, _⟩ => rfl
  | ⟨1, _⟩ => rfl
  | ⟨2, _⟩ => rfl

/-- The least along the candidate axis, at row r, is the fold of `min` from +∞ over the row's 1024 entries: the
    indices of the square that reduce to row r are exactly the row's entries, and `min` commutes and associates. -/
theorem candidate_min_apply (x : FVec Ideal S1x1024x1024 .f32) (h : S1x1024x1024.Reduces [2] S1x1024) (hφ : FKind.Formats .f32)
    (hacc : (0x7F800000#32 : BitVec FTy.f32.bits) = FKind.minimumf.neutral .f32 hφ) (r : Fin 1024) :
    multiReduction (F := Ideal) .minimumf [2] S1x1024 x 0x7F800000#32 h hφ hacc (ix2 (0 : Fin 1) r)
      = (Finset.univ : Finset (Fin 1024)).fold min (Ideal.ofBits .f32 0x7F800000#32) fun q => x (ix3 (0 : Fin 1) r q) := by
  rw [multiReduction_minimumf_eq_fold]
  refine (h.fold_filter_drop_single _ _ x (ix2 (0 : Fin 1) r)).trans ?_
  show Finset.fold min (Ideal.ofBits .f32 0x7F800000#32) (x ∘ h.lift (ix2 (0 : Fin 1) r)) (Finset.univ : Finset (Fin 1024)) = _
  exact congrArg (fun f => Finset.fold min (Ideal.ofBits .f32 0x7F800000#32) f (Finset.univ : Finset (Fin 1024)))
    (funext fun q => congrArg x (lift_candidate h r q))

/-! ## The inner products: the contraction over the coordinate axis

The contraction keeps the tile axis of both operands as a batch axis, the row axis of each as the two free axes of the
square, and sums over the coordinate axis. The operand indices at entry (0, r, q) of the square and contraction
position d are therefore (0, r, d) on the left and (0, q, d) on the right; each axis is read off separately. -/

theorem left_axis0 (i : S1x1024x1024.Idx) (k : dot_S1x1024x3_S1x1024x3_S1x1024x1024_2_2_1_1_0_0.contr.Idx) :
    (dot_S1x1024x3_S1x1024x3_S1x1024x1024_2_2_1_1_0_0.lhsIdx i k 0).val = (i 0).val := by
  unfold DotDims.lhsIdx
  rw [dif_pos (show (0 : Fin S1x1024x3.rank) ∈ dot_S1x1024x3_S1x1024x3_S1x1024x1024_2_2_1_1_0_0.lhsBatch by decide)]
  rfl
theorem left_axis1 (i : S1x1024x1024.Idx) (k : dot_S1x1024x3_S1x1024x3_S1x1024x1024_2_2_1_1_0_0.contr.Idx) :
    (dot_S1x1024x3_S1x1024x3_S1x1024x1024_2_2_1_1_0_0.lhsIdx i k 1).val = (i 1).val := by
  unfold DotDims.lhsIdx
  rw [dif_neg (show ¬(1 : Fin S1x1024x3.rank) ∈ dot_S1x1024x3_S1x1024x3_S1x1024x1024_2_2_1_1_0_0.lhsBatch by decide), dif_pos (show (1 : Fin S1x1024x3.rank) ∈ dot_S1x1024x3_S1x1024x3_S1x1024x1024_2_2_1_1_0_0.lhsNonContracting by decide)]
  rfl
theorem left_axis2 (i : S1x1024x1024.Idx) (k : dot_S1x1024x3_S1x1024x3_S1x1024x1024_2_2_1_1_0_0.contr.Idx) :
    (dot_S1x1024x3_S1x1024x3_S1x1024x1024_2_2_1_1_0_0.lhsIdx i k 2).val = (k ⟨0, by decide⟩).val :=
  dot_S1x1024x3_S1x1024x3_S1x1024x1024_2_2_1_1_0_0.lhsIdx_val_of_single rfl i k
theorem right_axis0 (i : S1x1024x1024.Idx) (k : dot_S1x1024x3_S1x1024x3_S1x1024x1024_2_2_1_1_0_0.contr.Idx) :
    (dot_S1x1024x3_S1x1024x3_S1x1024x1024_2_2_1_1_0_0.rhsIdx i k 0).val = (i 0).val := by
  unfold DotDims.rhsIdx
  rw [dif_pos (show (0 : Fin S1x1024x3.rank) ∈ dot_S1x1024x3_S1x1024x3_S1x1024x1024_2_2_1_1_0_0.rhsBatch by decide)]
  rfl
theorem right_axis1 (i : S1x1024x1024.Idx) (k : dot_S1x1024x3_S1x1024x3_S1x1024x1024_2_2_1_1_0_0.contr.Idx) :
    (dot_S1x1024x3_S1x1024x3_S1x1024x1024_2_2_1_1_0_0.rhsIdx i k 1).val = (i 2).val := by
  unfold DotDims.rhsIdx
  rw [dif_neg (show ¬(1 : Fin S1x1024x3.rank) ∈ dot_S1x1024x3_S1x1024x3_S1x1024x1024_2_2_1_1_0_0.rhsBatch by decide), dif_pos (show (1 : Fin S1x1024x3.rank) ∈ dot_S1x1024x3_S1x1024x3_S1x1024x1024_2_2_1_1_0_0.rhsNonContracting by decide)]
  rfl
theorem right_axis2 (i : S1x1024x1024.Idx) (k : dot_S1x1024x3_S1x1024x3_S1x1024x1024_2_2_1_1_0_0.contr.Idx) :
    (dot_S1x1024x3_S1x1024x3_S1x1024x1024_2_2_1_1_0_0.rhsIdx i k 2).val = (k ⟨0, by decide⟩).val :=
  dot_S1x1024x3_S1x1024x3_S1x1024x1024_2_2_1_1_0_0.rhsIdx_val_of_single rfl i k

/-- Entry (0, r, q) of the product into a zero accumulator is ⟨a_r, t_q⟩: the sum over the 3 coordinates of the
    products, the contraction's one-axis index set re-indexed by its coordinate. -/
theorem inner_apply (a t : FVec Ideal S1x1024x3 .bf16) (r q : Fin 1024) :
    matmul dot_S1x1024x3_S1x1024x3_S1x1024x1024_2_2_1_1_0_0 none a t (constant (F := Ideal) S1x1024x1024 .f32 0x00000000#32) (ix3 (0 : Fin 1) r q)
      = ∑ d : Fin 3, a (ix3 (0 : Fin 1) r d) * t (ix3 (0 : Fin 1) q d) := by
  simp only [matmul]
  rw [Ideal.matmul_constant_zero_apply, ← Equiv.sum_comp (ValueIdx.contrEquiv1 dot_S1x1024x3_S1x1024x3_S1x1024x1024_2_2_1_1_0_0 3 rfl rfl).symm]
  refine Finset.sum_congr rfl fun d _ => ?_
  have hd := ValueIdx.contrEquiv1_symm_val dot_S1x1024x3_S1x1024x3_S1x1024x1024_2_2_1_1_0_0 3 rfl rfl d
  have el : dot_S1x1024x3_S1x1024x3_S1x1024x1024_2_2_1_1_0_0.lhsIdx (ix3 (0 : Fin 1) r q) ((ValueIdx.contrEquiv1 dot_S1x1024x3_S1x1024x3_S1x1024x1024_2_2_1_1_0_0 3 rfl rfl).symm d) = ix3 (0 : Fin 1) r d := funext fun c => Fin.ext (by
    match c with
    | ⟨0, _⟩ => exact left_axis0 _ _
    | ⟨1, _⟩ => exact left_axis1 _ _
    | ⟨2, _⟩ => exact (left_axis2 _ _).trans hd)
  have er : dot_S1x1024x3_S1x1024x3_S1x1024x1024_2_2_1_1_0_0.rhsIdx (ix3 (0 : Fin 1) r q) ((ValueIdx.contrEquiv1 dot_S1x1024x3_S1x1024x3_S1x1024x1024_2_2_1_1_0_0 3 rfl rfl).symm d) = ix3 (0 : Fin 1) q d := funext fun c => Fin.ext (by
    match c with
    | ⟨0, _⟩ => exact right_axis0 _ _
    | ⟨1, _⟩ => exact right_axis1 _ _
    | ⟨2, _⟩ => exact (right_axis2 _ _).trans hd)
  rw [el, er]

/-! ## The body at an element -/

/-- The vector the running minimum is reset to is +∞ everywhere. -/
theorem pay1_apply (i : S1x1x1024.Idx) : k0_pay1 (F := Ideal) i = Cert.Spec.pinf := by
  unfold k0_pay1
  exact congrFun (shapeCast_self _ _) i

/-- Entry (0, r, q) of the clamped square: the two squared norms through their column and row layouts, the inner
    product through the contraction (the narrowing of the operands is the identity on extended reals). -/
theorem square_apply (a t : Vec Ideal S1x1024x3 .f32) (r q : Fin 1024)
    (hr : S1x1024x3.Reduces [2] S1x1024) (hφ : FKind.Formats .f32)
    (hacc : (0x00000000#32 : BitVec FTy.f32.bits) = FKind.add.neutral .f32 hφ)
    (hc : S1x1024.ShapeCasts S1x1024x1) (hw : S1x1024.ShapeCasts S1x1x1024)
    (bc : S1x1024x1.Broadcasts S1x1024x1024) (bw : S1x1x1024.Broadcasts S1x1024x1024)
    (hb : FTy.bits .bf16 < FTy.bits .f32) :
    max ((broadcastTo S1x1024x1024 (shapeCast S1x1024x1 (multiReduction (F := Ideal) .add [2] S1x1024 (mulf a a) 0x00000000#32 hr hφ hacc) hc) bc (ix3 (0 : Fin 1) r q)
          + broadcastTo S1x1024x1024 (shapeCast S1x1x1024 (multiReduction (F := Ideal) .add [2] S1x1024 (mulf t t) 0x00000000#32 hr hφ hacc) hw) bw (ix3 (0 : Fin 1) r q))
        - Ideal.ofBits .f32 0x40000000#32
          * matmul dot_S1x1024x3_S1x1024x3_S1x1024x1024_2_2_1_1_0_0 none (truncf .bf16 a hb) (truncf .bf16 t hb) (constant (F := Ideal) S1x1024x1024 .f32 0x00000000#32) (ix3 (0 : Fin 1) r q))
      (Ideal.ofBits .f32 0x00000000#32)
    = Cert.Spec.tileDist a t r q := by
  unfold Cert.Spec.tileDist Cert.Spec.two Cert.Spec.zero
  refine congrArg (fun z => max z (Ideal.ofBits .f32 0x00000000#32)) ?_
  refine congrArg₂ (fun x y => x - y) (congrArg₂ (fun x y => x + y) ?_ ?_) (congrArg (fun z => Ideal.ofBits .f32 0x40000000#32 * z) ?_)
  · exact (spread_column_apply _ bc r q).trans ((column_apply _ hc r).trans (coord_sum_apply (mulf a a) hr hφ hacc r))
  · exact (spread_row_apply _ bw r q).trans ((row_apply _ hw q).trans (coord_sum_apply (mulf t t) hr hφ hacc q))
  · exact inner_apply (truncf .bf16 a hb) (truncf .bf16 t hb) r q

/-- THE UPDATE: at row r the body stores the smaller of the running minimum and the least clamped distance from row r
    of the first tile to the rows of the second. -/
theorem pay2_apply (a t : Vec Ideal S1x1024x3 .f32) (acc : Vec Ideal S1x1x1024 .f32) (r : Fin 1024) :
    k0_pay2 (F := Ideal) a t acc (ix3 0 0 r) = min (acc (ix3 0 0 r)) (Cert.Spec.tileMin a t r) := by
  unfold k0_pay2
  refine (congrFun (shapeCast_self _ _) _).trans ?_
  refine congrArg (min (acc (ix3 (0 : Fin 1) (0 : Fin 1) r))) ?_
  refine (row_apply _ _ r).trans ?_
  refine (candidate_min_apply _ _ _ _ r).trans ?_
  unfold Cert.Spec.tileMin Cert.Spec.pinf
  exact congrArg (fun f => Finset.fold min (Ideal.ofBits .f32 0x7F800000#32) f (Finset.univ : Finset (Fin 1024)))
    (funext fun q => square_apply a t r q _ _ _ _ _ _ _ _)

/-! ## The second launch runs the same body -/

theorem k1_pay1_eq : (k1_pay1 (F := Ideal)) = k0_pay1 (F := Ideal) := rfl
theorem k1_pay2_eq : (k1_pay2 (F := Ideal)) = k0_pay2 (F := Ideal) := rfl

end Cert.KernelIdeal.Val

end
-- ==== Proof.Val.PayloadAt.lean ====
/-
  The two launches run one kernel text, so their bodies' arithmetic is one function; here the index-by-index reading
  of that arithmetic is named once per launch.
-/
import proofs.«103797_j83425444758259_1_alg».proof.Proof.Val.Payload

noncomputable section

namespace Cert.KernelIdeal.Val

open Cert.KernelIdeal Cert.KernelIdeal.Gen
open Idealize.ShloMosaic Idealize.ShloMosaic.ValueIdx

/-- First launch: the value the running minimum is reset to is +∞ everywhere, -/
theorem pay1_apply0 (i : S1x1x1024.Idx) : k0_pay1 (F := Ideal) i = Cert.Spec.pinf := pay1_apply i
/-- and the update leaves, at row `r`, the minimum of what it found with the tile pair's least distance. -/
theorem pay2_apply0 (a t : Vec Ideal S1x1024x3 .f32) (acc : Vec Ideal S1x1x1024 .f32) (r : Fin 1024) :
    k0_pay2 (F := Ideal) a t acc (ix3 0 0 r) = min (acc (ix3 0 0 r)) (Cert.Spec.tileMin a t r) := pay2_apply a t acc r

/-- Second launch: the same two readings. -/
theorem pay1_apply1 (i : S1x1x1024.Idx) : k1_pay1 (F := Ideal) i = Cert.Spec.pinf := by
  rw [k1_pay1_eq]; exact pay1_apply i
theorem pay2_apply1 (a t : Vec Ideal S1x1024x3 .f32) (acc : Vec Ideal S1x1x1024 .f32) (r : Fin 1024) :
    k1_pay2 (F := Ideal) a t acc (ix3 0 0 r) = min (acc (ix3 0 0 r)) (Cert.Spec.tileMin a t r) := by
  rw [k1_pay2_eq]; exact pay2_apply a t acc r

end Cert.KernelIdeal.Val

end
-- ==== Proof.Val.Final0.lean ====
/-
  What launch 0 leaves in its result array. The running minimum after position n (`acc0`) restarts from +∞ at every
  first column tile and otherwise takes the minimum of what position n − 1 left with the current tile pair's minimum;
  the output block written at a last column tile is the running minimum there. Four consecutive positions 4k … 4k+3
  share their row tile (batch b = k / 4, row tile k % 4) and walk the four column tiles, so at the ideal values entry r
  of the block written at position 4k + 3 is the minimum over all 4096 candidates: `Spec.nearest` at row
  1024·(k % 4) + r of batch k / 4. Every index of the [16, 1, 4096] result lies in exactly such a block.
-/
import proofs.«103797_j83425444758259_1_alg».proof.Proof.KI.Region0
import proofs.«103797_j83425444758259_1_alg».proof.Proof.KI.Pieces0
import proofs.«103797_j83425444758259_1_alg».proof.Proof.Val.PayloadAt
import proofs.«103797_j83425444758259_1_alg».proof.Proof.Val.Spec
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open Cert.Spec (nearest tileMin tileDist tileIdx pinf)

variable (V : (c : Dev nD) → (b : Ref sig .tc) → Buf (Elt Ideal) ((c : Thread nD τ).loc b))

/-- The cloud whose points are this launch's rows, and the cloud they are measured against. -/
abbrev rowsOf0 (c : Dev nD) : Cert.Spec.Clouds := V c main_arg0
abbrev colsOf0 (c : Dev nD) : Cert.Spec.Clouds := V c main_arg1

/-- The running minimum after position `n`. -/
def acc0 (c : Dev nD) : (n : ℕ) → n < cfg0.N → Vec Ideal S1x1x1024 .f32
  | 0, h => k0_pay2 (iblk0 V c 0 ⟨0, h⟩) (iblk0 V c 1 ⟨0, h⟩) (k0_pay1 (F := Ideal))
  | n + 1, h => k0_pay2 (iblk0 V c 0 ⟨n + 1, h⟩) (iblk0 V c 1 ⟨n + 1, h⟩)
      (if (n + 1) % 4 = 0 then (k0_pay1 (F := Ideal)) else acc0 c n (Nat.lt_of_succ_lt h))

theorem acc0_reset (c : Dev nD) : ∀ (n : ℕ) (h : n < cfg0.N), n % 4 = 0 →
    acc0 V c n h = k0_pay2 (iblk0 V c 0 ⟨n, h⟩) (iblk0 V c 1 ⟨n, h⟩) (k0_pay1 (F := Ideal))
  | 0, _, _ => rfl
  | n + 1, h, hn => by simp only [acc0, if_pos hn]

theorem acc0_step (c : Dev nD) (n : ℕ) (h : n + 1 < cfg0.N) (hn : ¬(n + 1) % 4 = 0) :
    acc0 V c (n + 1) h = k0_pay2 (iblk0 V c 0 ⟨n + 1, h⟩) (iblk0 V c 1 ⟨n + 1, h⟩) (acc0 V c n (Nat.lt_of_succ_lt h)) := by
  simp only [acc0, if_neg hn]

/-- The scratch after every position is the running minimum: by induction on the position, each case's contents
    being the body's payload of the tile pair and of what the scratch held. -/
theorem scratch0_eq (c : Dev nD) : ∀ (n : ℕ) (h : n < cfg0.N), (outsAt0 V c n h).2 = acc0 V c n h
  | 0, h => by
    rw [outsAt0_A V c ⟨0, h⟩ rfl (by show ¬(0 % 4 = 3); decide)]
    dsimp only
    rw [sout0_A_eq]
    rfl
  | n + 1, h => by
    by_cases hA : (n + 1) % 4 = 0
    · rw [outsAt0_A V c ⟨n + 1, h⟩ hA (by dsimp only; omega)]
      dsimp only
      rw [sout0_A_eq, acc0_reset V c (n + 1) h hA]
    · by_cases hC : (n + 1) % 4 = 3
      · rw [outsAt0_C V c ⟨n + 1, h⟩ hA hC]
        dsimp only
        rw [sout0_C_eq, acc0_step V c n h hA]
        show k0_pay2 _ _ (outsAt0 V c n _).2 = k0_pay2 _ _ (acc0 V c n _)
        rw [scratch0_eq c n]
      · rw [outsAt0_B V c ⟨n + 1, h⟩ hA hC]
        dsimp only
        rw [sout0_B_eq, acc0_step V c n h hA]
        show k0_pay2 _ _ (outsAt0 V c n _).2 = k0_pay2 _ _ (acc0 V c n _)
        rw [scratch0_eq c n]

/-- At a last column tile the output block is the running minimum. -/
theorem out0_eq (c : Dev nD) : ∀ (n : ℕ) (h : n < cfg0.N), n % 4 = 3 → (outsAt0 V c n h).1 = acc0 V c n h
  | 0, _, h3 => absurd h3 (by decide)
  | n + 1, h, hC => by
    have hA : ¬(n + 1) % 4 = 0 := by omega
    rw [outsAt0_C V c ⟨n + 1, h⟩ hA hC]
    dsimp only
    rw [out0_C_eq, acc0_step V c n h hA]
    show k0_pay2 _ _ (outsAt0 V c n _).2 = k0_pay2 _ _ (acc0 V c n _)
    rw [scratch0_eq V c n]

/-- The printed index maps over the grid: position t has batch t / 16, row tile (t / 4) % 4, column tile t % 4. -/
theorem idx_facts0 : ∀ t : Fin cfg0.N,
    win0_0.index t (0 : Fin 3) = t.val / 16 ∧ win0_0.index t (1 : Fin 3) = (t.val / 4) % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = 0 ∧ win0_2.index t (2 : Fin 3) = (t.val / 4) % 4 :=
  (by decide +kernel : ∀ t : Fin grid0.N, _)

/-- Row `r`, coordinate `d` of the row tile at position `t` is point 1024·(row tile) + r of the rows' cloud. -/
theorem rowTile0_read (c : Dev nD) (t : Fin cfg0.N) (b : Fin 16) (ai : Fin 4) (hb : t.val / 16 = b.val) (ha : (t.val / 4) % 4 = ai.val)
    (r : Fin 1024) (d : Fin 3) :
    iblk0 V c 0 t (ix3 0 r d) = rowsOf0 V c (ix3 b ⟨1024 * ai.val + r.val, by omega⟩ d) := by
  obtain ⟨e0, e1, e2, -⟩ := idx_facts0 t
  unfold iblk0
  rw [View.read_apply]
  show V c main_arg0 _ = V c main_arg0 _
  refine congrArg _ (funext fun a => Fin.ext ?_)
  match a with
  | ⟨0, _⟩ => show win0_0.index t (0 : Fin 3) * 1 + 1 * 0 = b.val; omega
  | ⟨1, _⟩ => show win0_0.index t (1 : Fin 3) * 1024 + 1 * r.val = 1024 * ai.val + r.val; omega
  | ⟨2, _⟩ => show win0_0.index t (2 : Fin 3) * 3 + 1 * d.val = d.val; omega

/-- Row `q`, coordinate `d` of the column tile at position `t` is point 1024·(column tile) + q of the other cloud. -/
theorem colTile0_read (c : Dev nD) (t : Fin cfg0.N) (b : Fin 16) (j : Fin 4) (hb : t.val / 16 = b.val) (hj : t.val % 4 = j.val)
    (q : Fin 1024) (d : Fin 3) :
    iblk0 V c 1 t (ix3 0 q d) = colsOf0 V c (ix3 b (tileIdx j q) d) := by
  obtain ⟨-, -, -, e0, e1, e2, -⟩ := idx_facts0 t
  unfold iblk0
  rw [View.read_apply]
  show V c main_arg1 _ = V c main_arg1 _
  refine congrArg _ (funext fun a => Fin.ext ?_)
  match a with
  | ⟨0, _⟩ => show win0_1.index t (0 : Fin 3) * 1 + 1 * 0 = b.val; omega
  | ⟨1, _⟩ => show win0_1.index t (1 : Fin 3) * 1024 + 1 * q.val = 1024 * j.val + q.val; omega
  | ⟨2, _⟩ => show win0_1.index t (2 : Fin 3) * 3 + 1 * d.val = d.val; omega

/-- The tile pair's minimum at position `t`, row `r`, is the fold over that column tile's 1024 candidates of the
    clamped distance from point 1024·(row tile) + r. -/
theorem tileMin0_eq (c : Dev nD) (t : Fin cfg0.N) (b : Fin 16) (ai j : Fin 4) (hb : t.val / 16 = b.val)
    (ha : (t.val / 4) % 4 = ai.val) (hj : t.val % 4 = j.val) (r : Fin 1024) :
    tileMin (iblk0 V c 0 t) (iblk0 V c 1 t) r
      = (Finset.univ : Finset (Fin 1024)).fold min pinf fun q =>
          Cert.Spec.dist (rowsOf0 V c) (colsOf0 V c) b ⟨1024 * ai.val + r.val, by omega⟩ (tileIdx j q) := by
  unfold tileMin
  refine congrArg (fun f => Finset.fold min pinf f (Finset.univ : Finset (Fin 1024))) (funext fun q => ?_)
  unfold tileDist Cert.Spec.dist Cert.Spec.sq Cert.Spec.dot
  simp only [rowTile0_read V c t b ai hb ha, colTile0_read V c t b j hb hj]

/-- THE VALUE of the running minimum at a last column tile: the least clamped distance over all 4096 candidates. -/
theorem acc0_value (c : Dev nD) (n : ℕ) (h : n + 3 < cfg0.N) (hn : n % 4 = 0) (b : Fin 16) (ai : Fin 4)
    (hb : n / 16 = b.val) (ha : (n / 4) % 4 = ai.val) (r : Fin 1024) :
    acc0 V c (n + 3) h (ix3 0 0 r) = nearest (rowsOf0 V c) (colsOf0 V c) b ⟨1024 * ai.val + r.val, by omega⟩ := by
  rw [acc0_step V c (n + 2) h (by omega), acc0_step V c (n + 1) (by omega) (by omega), acc0_step V c n (by omega) (by omega),
    acc0_reset V c n (by omega) hn]
  rw [pay2_apply0, pay2_apply0, pay2_apply0, pay2_apply0, pay1_apply0]
  rw [tileMin0_eq V c ⟨n, by omega⟩ b ai 0 hb ha (by show n % 4 = 0; exact hn) r,
    tileMin0_eq V c ⟨n + 1, by omega⟩ b ai 1 (by show (n + 1) / 16 = b.val; omega) (by show ((n + 1) / 4) % 4 = ai.val; omega) (by show (n + 1) % 4 = 1; omega) r,
    tileMin0_eq V c ⟨n + 2, by omega⟩ b ai 2 (by show (n + 2) / 16 = b.val; omega) (by show ((n + 2) / 4) % 4 = ai.val; omega) (by show (n + 2) % 4 = 2; omega) r,
    tileMin0_eq V c ⟨n + 3, h⟩ b ai 3 (by show (n + 3) / 16 = b.val; omega) (by show ((n + 3) / 4) % 4 = ai.val; omega) (by show (n + 3) % 4 = 3; omega) r]
  exact Cert.Spec.fold_min_tiles (fun m => Cert.Spec.dist (rowsOf0 V c) (colsOf0 V c) b ⟨1024 * ai.val + r.val, by omega⟩ m) pinf

/-- The result array of the launch, entry by entry. -/
abbrev result0 (c : Dev nD) : S16x1x4096.Idx → EReal := fun i => nearest (rowsOf0 V c) (colsOf0 V c) (i 0) (i 2)

/-- WHAT A LAST COLUMN TILE WRITES BACK is its block of `result0`. -/
theorem flushed0_eq (c : Dev nD) (t : Fin cfg0.N) (hf : (cfg0.win 2).flush t = true) :
    (dat0 V c).flushed 2 t = ((cfg0.win 2).blk t).view.read (Elt Ideal) (result0 V c) := by
  have hN : cfg0.N = 256 := N_0
  have h3 : t.val % 4 = 3 := (flush0_2 t).mp hf
  obtain ⟨-, -, -, -, -, -, e0, e1, e2⟩ := idx_facts0 t
  show (cfg0.win 2).cut (grid0.coords t) ((dat0 V c).after 2 t) = _
  rw [after0_2, out0_eq V c t.val t.isLt h3]
  funext y
  obtain ⟨u, v, r, rfl⟩ : ∃ (u v : Fin 1) (r : Fin 1024), y = ix3 u v r := ⟨y 0, y 1, y 2, eq_ix3 y⟩
  obtain rfl : u = 0 := Subsingleton.elim _ _
  obtain rfl : v = 0 := Subsingleton.elim _ _
  rw [View.read_apply]
  have ht : t.val - 3 + 3 = t.val := by omega
  have hlt : t.val - 3 + 3 < cfg0.N := by rw [ht]; exact t.isLt
  have hval := acc0_value V c (t.val - 3) hlt (by omega) ⟨t.val / 16, by omega⟩ ⟨(t.val / 4) % 4, by omega⟩
    (by show (t.val - 3) / 16 = t.val / 16; omega) (by show ((t.val - 3) / 4) % 4 = (t.val / 4) % 4; omega) r
  have hacc : acc0 V c t.val t.isLt = acc0 V c (t.val - 3 + 3) hlt := by congr 1 <;> omega
  show acc0 V c t.val t.isLt (ix3 0 0 r) = result0 V c (((cfg0.win 2).blk t).view.emb (ix3 0 0 r))
  rw [hacc, hval]
  show nearest _ _ _ _ = nearest _ _ _ _
  congr 1
  · apply Fin.ext
    show t.val / 16 = win0_2.index t (0 : Fin 3) * 1 + 1 * 0
    omega
  · apply Fin.ext
    show 1024 * ((t.val / 4) % 4) + r.val = win0_2.index t (2 : Fin 3) * 1024 + 1 * r.val
    omega

/-- An index of the result is in position `t`'s block iff each coordinate is in the block's range on its axis. -/
theorem mem_blk0 (t : Fin cfg0.N) (i : S16x1x4096.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_call0_v0).slice (win0_2.rect t)).set ↔ _
  rw [View.set_slice_whole, Rect.mem_set_unit]
  exact Iff.rfl

/-- Every index (b, 0, n) of the result lies in the block written at the last column tile of batch b, row tile
    n / 1024. -/
theorem covered0 (i : S16x1x4096.Idx) : ∃ t : Fin cfg0.N, (cfg0.win 2).flush t = true ∧ i ∈ ((cfg0.win 2).blk t).view.set := by
  have hN : cfg0.N = 256 := N_0
  have h0 : (i 0).val < 16 := (i 0).isLt
  have h1 : (i 1).val < 1 := (i 1).isLt
  have h2 : (i 2).val < 4096 := (i 2).isLt
  have hk : 16 * (i 0).val + 4 * ((i 2).val / 1024) + 3 < cfg0.N := by omega
  refine ⟨⟨16 * (i 0).val + 4 * ((i 2).val / 1024) + 3, hk⟩, (flush0_2 _).mpr (by show (16 * (i 0).val + 4 * ((i 2).val / 1024) + 3) % 4 = 3; omega), ?_⟩
  obtain ⟨-, -, -, -, -, -, e0, e1, e2⟩ := idx_facts0 ⟨16 * (i 0).val + 4 * ((i 2).val / 1024) + 3, hk⟩
  dsimp only at e0 e1 e2
  rw [mem_blk0]
  intro a
  match a with
  | ⟨0, _⟩ => show win0_2.index _ (0 : Fin 3) * 1 ≤ (i 0).val ∧ (i 0).val < win0_2.index _ (0 : Fin 3) * 1 + 1
              omega
  | ⟨1, _⟩ => show win0_2.index _ (1 : Fin 3) * 1 ≤ (i 1).val ∧ (i 1).val < win0_2.index _ (1 : Fin 3) * 1 + 1
              omega
  | ⟨2, _⟩ => show win0_2.index _ (2 : Fin 3) * 1024 ≤ (i 2).val ∧ (i 2).val < win0_2.index _ (2 : Fin 3) * 1024 + 1024
              omega

/-- THE RESULT ARRAY after the launch. -/
theorem final0 (c : Dev nD) : (dat0 V c).arrAt 2 cfg0.N = result0 V c :=
  (dat0 V c).arrAt_eq_of_cover 2 (result0 V c) (flushed0_eq V c) (covered0)

end Cert.KernelIdeal.Val

end
-- ==== Proof.KI.Pieces1.lean ====
/-
  What the three cases of the first launch's body leave in the running minimum and in the output block, read back as
  values: the pieces each run ends with are whole-buffer stores of the body's payloads, so the first column tile leaves
  the update of +infinity by the two input blocks, the other column tiles the update of the running minimum they
  found, and the last column tile copies that to the output block.
-/
import proofs.«103797_j83425444758259_1_alg».proof.Proof.KI.Region1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces the three runs found, as the body's payloads

Every store of the body writes its whole buffer through the rectangle at zero offsets of the buffer's own sizes, and
every load reads a whole buffer the same way: so what a run leaves in a buffer is the payload of its last store, and
a load reads the contents, or — after a store in the same run — that store's payload. -/

/-- First column tile: the running minimum is left at the update of +infinity (the reset's payload, read back) by the
    two input blocks. -/
theorem sout1_A_eq (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : cond1_0 i) (hcb : ¬cond1_1 i)
    (xa : Vec F S1x1024x3 .f32) (xb : Vec F S1x1024x3 .f32) :
    sout1_A c i arg3 harg3 arg4 harg4 arg5 harg5 arg6 harg6 hca hcb xa xb = k1_pay2 xa xb (k1_pay1 (F := F)) := by
  have hz : (![0, 0, 0] : Fin 3 → Nat) = fun _ => 0 := funext fun a => by fin_cases a <;> rfl
  unfold sout1_A
  rw [View.read_writes_eq_canon _ _ _ (scover1_A c i arg3 harg3 arg4 harg4 arg5 harg5 arg6 harg6 hca hcb xa xb)]
  unfold kernelRun1_A
  dsimp only
  sl_unfold_words
  rw [View.canon_cons_unit_zero (S := S1x1x1024) hz]
  simp only [View.readAt_eq_ld, harg3.read_unread, harg4.read_unread, View.ld_unit_zero (S := S1x1024x3) hz,
    View.readCov_unit_zero (S := S1x1x1024) _ hz]

/-- Middle column tile: the running minimum is left at the update of what it held by the two input blocks. -/
theorem sout1_B_eq (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : ¬cond1_1 i)
    (xa : Vec F S1x1024x3 .f32) (xb : Vec F S1x1024x3 .f32) (xs : Vec F S1x1x1024 .f32) :
    sout1_B c i arg3 harg3 arg4 harg4 arg5 harg5 arg6 harg6 hca hcb xa xb xs = k1_pay2 xa xb xs := by
  have hz : (![0, 0, 0] : Fin 3 → Nat) = fun _ => 0 := funext fun a => by fin_cases a <;> rfl
  unfold sout1_B
  rw [View.read_writes_eq_canon _ _ _ (scover1_B c i arg3 harg3 arg4 harg4 arg5 harg5 arg6 harg6 hca hcb xa xb xs)]
  unfold kernelRun1_B
  dsimp only
  sl_unfold_words
  rw [View.canon_unit_zero (S := S1x1x1024) hz]
  simp only [View.readAt_eq_ld, harg3.read_unread, harg4.read_unread, harg6.read_unread, View.ld_unit_zero (S := S1x1024x3) hz,
    View.ld_unit_zero (S := S1x1x1024) hz]

/-- Last column tile: the same update of the running minimum, -/
theorem sout1_C_eq (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : cond1_1 i)
    (xa : Vec F S1x1024x3 .f32) (xb : Vec F S1x1024x3 .f32) (xs : Vec F S1x1x1024 .f32) :
    sout1_C c i arg3 harg3 arg4 harg4 arg5 harg5 arg6 harg6 hca hcb xa xb xs = k1_pay2 xa xb xs := by
  have hz : (![0, 0, 0] : Fin 3 → Nat) = fun _ => 0 := funext fun a => by fin_cases a <;> rfl
  unfold sout1_C
  rw [View.read_writes_eq_canon _ _ _ (scover1_C c i arg3 harg3 arg4 harg4 arg5 harg5 arg6 harg6 hca hcb xa xb xs)]
  unfold kernelRun1_C
  dsimp only
  sl_unfold_words
  rw [View.canon_unit_zero (S := S1x1x1024) hz]
  simp only [View.readAt_eq_ld, harg3.read_unread, harg4.read_unread, harg6.read_unread, View.ld_unit_zero (S := S1x1024x3) hz,
    View.ld_unit_zero (S := S1x1x1024) hz]

/-- and the output block is left at that updated running minimum, read back from its buffer. -/
theorem out1_C_eq (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x1024 .f32) (harg6 : arg6.IsWhole) (hca : ¬cond1_0 i) (hcb : cond1_1 i)
    (xa : Vec F S1x1024x3 .f32) (xb : Vec F S1x1024x3 .f32) (xs : Vec F S1x1x1024 .f32) :
    out1_C c i arg3 harg3 arg4 harg4 arg5 harg5 arg6 harg6 hca hcb xa xb xs = k1_pay2 xa xb xs := by
  have hz : (![0, 0, 0] : Fin 3 → Nat) = fun _ => 0 := funext fun a => by fin_cases a <;> rfl
  unfold out1_C
  rw [View.read_writes_eq_canon _ _ _ (cover1_C c i arg3 harg3 arg4 harg4 arg5 harg5 arg6 harg6 hca hcb xa xb xs)]
  unfold kernelRun1_C
  dsimp only
  sl_unfold_words
  rw [View.canon_unit_zero (S := S1x1x1024) hz]
  simp only [View.readAt_eq_ld, harg3.read_unread, harg4.read_unread, harg6.read_unread, View.ld_unit_zero (S := S1x1024x3) hz,
    View.ld_unit_zero (S := S1x1x1024) hz, View.readCov_unit_zero (S := S1x1x1024) _ hz]

end Cert.KernelIdeal.Fr

end
-- ==== Proof.Val.Final1.lean ====
/-
  What launch 0 leaves in its result array. The running minimum after position n (`acc1`) restarts from +∞ at every
  first column tile and otherwise takes the minimum of what position n − 1 left with the current tile pair's minimum;
  the output block written at a last column tile is the running minimum there. Four consecutive positions 4k … 4k+3
  share their row tile (batch b = k / 4, row tile k % 4) and walk the four column tiles, so at the ideal values entry r
  of the block written at position 4k + 3 is the minimum over all 4096 candidates: `Spec.nearest` at row
  1024·(k % 4) + r of batch k / 4. Every index of the [16, 1, 4096] result lies in exactly such a block.
-/
import proofs.«103797_j83425444758259_1_alg».proof.Proof.KI.Region1
import proofs.«103797_j83425444758259_1_alg».proof.Proof.KI.Pieces1
import proofs.«103797_j83425444758259_1_alg».proof.Proof.Val.PayloadAt
import proofs.«103797_j83425444758259_1_alg».proof.Proof.Val.Spec
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open Cert.Spec (nearest tileMin tileDist tileIdx pinf)

variable (V : (c : Dev nD) → (b : Ref sig .tc) → Buf (Elt Ideal) ((c : Thread nD τ).loc b))

/-- The cloud whose points are this launch's rows, and the cloud they are measured against. -/
abbrev rowsOf1 (c : Dev nD) : Cert.Spec.Clouds := V c main_arg1
abbrev colsOf1 (c : Dev nD) : Cert.Spec.Clouds := V c main_arg0

/-- The running minimum after position `n`. -/
def acc1 (c : Dev nD) : (n : ℕ) → n < cfg1.N → Vec Ideal S1x1x1024 .f32
  | 0, h => k1_pay2 (iblk1 V c 0 ⟨0, h⟩) (iblk1 V c 1 ⟨0, h⟩) (k1_pay1 (F := Ideal))
  | n + 1, h => k1_pay2 (iblk1 V c 0 ⟨n + 1, h⟩) (iblk1 V c 1 ⟨n + 1, h⟩)
      (if (n + 1) % 4 = 0 then (k1_pay1 (F := Ideal)) else acc1 c n (Nat.lt_of_succ_lt h))

theorem acc1_reset (c : Dev nD) : ∀ (n : ℕ) (h : n < cfg1.N), n % 4 = 0 →
    acc1 V c n h = k1_pay2 (iblk1 V c 0 ⟨n, h⟩) (iblk1 V c 1 ⟨n, h⟩) (k1_pay1 (F := Ideal))
  | 0, _, _ => rfl
  | n + 1, h, hn => by simp only [acc1, if_pos hn]

theorem acc1_step (c : Dev nD) (n : ℕ) (h : n + 1 < cfg1.N) (hn : ¬(n + 1) % 4 = 0) :
    acc1 V c (n + 1) h = k1_pay2 (iblk1 V c 0 ⟨n + 1, h⟩) (iblk1 V c 1 ⟨n + 1, h⟩) (acc1 V c n (Nat.lt_of_succ_lt h)) := by
  simp only [acc1, if_neg hn]

/-- The scratch after every position is the running minimum: by induction on the position, each case's contents
    being the body's payload of the tile pair and of what the scratch held. -/
theorem scratch1_eq (c : Dev nD) : ∀ (n : ℕ) (h : n < cfg1.N), (outsAt1 V c n h).2 = acc1 V c n h
  | 0, h => by
    rw [outsAt1_A V c ⟨0, h⟩ rfl (by show ¬(0 % 4 = 3); decide)]
    dsimp only
    rw [sout1_A_eq]
    rfl
  | n + 1, h => by
    by_cases hA : (n + 1) % 4 = 0
    · rw [outsAt1_A V c ⟨n + 1, h⟩ hA (by dsimp only; omega)]
      dsimp only
      rw [sout1_A_eq, acc1_reset V c (n + 1) h hA]
    · by_cases hC : (n + 1) % 4 = 3
      · rw [outsAt1_C V c ⟨n + 1, h⟩ hA hC]
        dsimp only
        rw [sout1_C_eq, acc1_step V c n h hA]
        show k1_pay2 _ _ (outsAt1 V c n _).2 = k1_pay2 _ _ (acc1 V c n _)
        rw [scratch1_eq c n]
      · rw [outsAt1_B V c ⟨n + 1, h⟩ hA hC]
        dsimp only
        rw [sout1_B_eq, acc1_step V c n h hA]
        show k1_pay2 _ _ (outsAt1 V c n _).2 = k1_pay2 _ _ (acc1 V c n _)
        rw [scratch1_eq c n]

/-- At a last column tile the output block is the running minimum. -/
theorem out1_eq (c : Dev nD) : ∀ (n : ℕ) (h : n < cfg1.N), n % 4 = 3 → (outsAt1 V c n h).1 = acc1 V c n h
  | 0, _, h3 => absurd h3 (by decide)
  | n + 1, h, hC => by
    have hA : ¬(n + 1) % 4 = 0 := by omega
    rw [outsAt1_C V c ⟨n + 1, h⟩ hA hC]
    dsimp only
    rw [out1_C_eq, acc1_step V c n h hA]
    show k1_pay2 _ _ (outsAt1 V c n _).2 = k1_pay2 _ _ (acc1 V c n _)
    rw [scratch1_eq V c n]

/-- The printed index maps over the grid: position t has batch t / 16, row tile (t / 4) % 4, column tile t % 4. -/
theorem idx_facts1 : ∀ t : Fin cfg1.N,
    win1_0.index t (0 : Fin 3) = t.val / 16 ∧ win1_0.index t (1 : Fin 3) = (t.val / 4) % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = 0 ∧ win1_2.index t (2 : Fin 3) = (t.val / 4) % 4 :=
  (by decide +kernel : ∀ t : Fin grid1.N, _)

/-- Row `r`, coordinate `d` of the row tile at position `t` is point 1024·(row tile) + r of the rows' cloud. -/
theorem rowTile1_read (c : Dev nD) (t : Fin cfg1.N) (b : Fin 16) (ai : Fin 4) (hb : t.val / 16 = b.val) (ha : (t.val / 4) % 4 = ai.val)
    (r : Fin 1024) (d : Fin 3) :
    iblk1 V c 0 t (ix3 0 r d) = rowsOf1 V c (ix3 b ⟨1024 * ai.val + r.val, by omega⟩ d) := by
  obtain ⟨e0, e1, e2, -⟩ := idx_facts1 t
  unfold iblk1
  rw [View.read_apply]
  show V c main_arg1 _ = V c main_arg1 _
  refine congrArg _ (funext fun a => Fin.ext ?_)
  match a with
  | ⟨0, _⟩ => show win1_0.index t (0 : Fin 3) * 1 + 1 * 0 = b.val; omega
  | ⟨1, _⟩ => show win1_0.index t (1 : Fin 3) * 1024 + 1 * r.val = 1024 * ai.val + r.val; omega
  | ⟨2, _⟩ => show win1_0.index t (2 : Fin 3) * 3 + 1 * d.val = d.val; omega

/-- Row `q`, coordinate `d` of the column tile at position `t` is point 1024·(column tile) + q of the other cloud. -/
theorem colTile1_read (c : Dev nD) (t : Fin cfg1.N) (b : Fin 16) (j : Fin 4) (hb : t.val / 16 = b.val) (hj : t.val % 4 = j.val)
    (q : Fin 1024) (d : Fin 3) :
    iblk1 V c 1 t (ix3 0 q d) = colsOf1 V c (ix3 b (tileIdx j q) d) := by
  obtain ⟨-, -, -, e0, e1, e2, -⟩ := idx_facts1 t
  unfold iblk1
  rw [View.read_apply]
  show V c main_arg0 _ = V c main_arg0 _
  refine congrArg _ (funext fun a => Fin.ext ?_)
  match a with
  | ⟨0, _⟩ => show win1_1.index t (0 : Fin 3) * 1 + 1 * 0 = b.val; omega
  | ⟨1, _⟩ => show win1_1.index t (1 : Fin 3) * 1024 + 1 * q.val = 1024 * j.val + q.val; omega
  | ⟨2, _⟩ => show win1_1.index t (2 : Fin 3) * 3 + 1 * d.val = d.val; omega

/-- The tile pair's minimum at position `t`, row `r`, is the fold over that column tile's 1024 candidates of the
    clamped distance from point 1024·(row tile) + r. -/
theorem tileMin1_eq (c : Dev nD) (t : Fin cfg1.N) (b : Fin 16) (ai j : Fin 4) (hb : t.val / 16 = b.val)
    (ha : (t.val / 4) % 4 = ai.val) (hj : t.val % 4 = j.val) (r : Fin 1024) :
    tileMin (iblk1 V c 0 t) (iblk1 V c 1 t) r
      = (Finset.univ : Finset (Fin 1024)).fold min pinf fun q =>
          Cert.Spec.dist (rowsOf1 V c) (colsOf1 V c) b ⟨1024 * ai.val + r.val, by omega⟩ (tileIdx j q) := by
  unfold tileMin
  refine congrArg (fun f => Finset.fold min pinf f (Finset.univ : Finset (Fin 1024))) (funext fun q => ?_)
  unfold tileDist Cert.Spec.dist Cert.Spec.sq Cert.Spec.dot
  simp only [rowTile1_read V c t b ai hb ha, colTile1_read V c t b j hb hj]

/-- THE VALUE of the running minimum at a last column tile: the least clamped distance over all 4096 candidates. -/
theorem acc1_value (c : Dev nD) (n : ℕ) (h : n + 3 < cfg1.N) (hn : n % 4 = 0) (b : Fin 16) (ai : Fin 4)
    (hb : n / 16 = b.val) (ha : (n / 4) % 4 = ai.val) (r : Fin 1024) :
    acc1 V c (n + 3) h (ix3 0 0 r) = nearest (rowsOf1 V c) (colsOf1 V c) b ⟨1024 * ai.val + r.val, by omega⟩ := by
  rw [acc1_step V c (n + 2) h (by omega), acc1_step V c (n + 1) (by omega) (by omega), acc1_step V c n (by omega) (by omega),
    acc1_reset V c n (by omega) hn]
  rw [pay2_apply1, pay2_apply1, pay2_apply1, pay2_apply1, pay1_apply1]
  rw [tileMin1_eq V c ⟨n, by omega⟩ b ai 0 hb ha (by show n % 4 = 0; exact hn) r,
    tileMin1_eq V c ⟨n + 1, by omega⟩ b ai 1 (by show (n + 1) / 16 = b.val; omega) (by show ((n + 1) / 4) % 4 = ai.val; omega) (by show (n + 1) % 4 = 1; omega) r,
    tileMin1_eq V c ⟨n + 2, by omega⟩ b ai 2 (by show (n + 2) / 16 = b.val; omega) (by show ((n + 2) / 4) % 4 = ai.val; omega) (by show (n + 2) % 4 = 2; omega) r,
    tileMin1_eq V c ⟨n + 3, h⟩ b ai 3 (by show (n + 3) / 16 = b.val; omega) (by show ((n + 3) / 4) % 4 = ai.val; omega) (by show (n + 3) % 4 = 3; omega) r]
  exact Cert.Spec.fold_min_tiles (fun m => Cert.Spec.dist (rowsOf1 V c) (colsOf1 V c) b ⟨1024 * ai.val + r.val, by omega⟩ m) pinf

/-- The result array of the launch, entry by entry. -/
abbrev result1 (c : Dev nD) : S16x1x4096.Idx → EReal := fun i => nearest (rowsOf1 V c) (colsOf1 V c) (i 0) (i 2)

/-- WHAT A LAST COLUMN TILE WRITES BACK is its block of `result1`. -/
theorem flushed1_eq (c : Dev nD) (t : Fin cfg1.N) (hf : (cfg1.win 2).flush t = true) :
    (dat1 V c).flushed 2 t = ((cfg1.win 2).blk t).view.read (Elt Ideal) (result1 V c) := by
  have hN : cfg1.N = 256 := N_1
  have h3 : t.val % 4 = 3 := (flush1_2 t).mp hf
  obtain ⟨-, -, -, -, -, -, e0, e1, e2⟩ := idx_facts1 t
  show (cfg1.win 2).cut (grid1.coords t) ((dat1 V c).after 2 t) = _
  rw [after1_2, out1_eq V c t.val t.isLt h3]
  funext y
  obtain ⟨u, v, r, rfl⟩ : ∃ (u v : Fin 1) (r : Fin 1024), y = ix3 u v r := ⟨y 0, y 1, y 2, eq_ix3 y⟩
  obtain rfl : u = 0 := Subsingleton.elim _ _
  obtain rfl : v = 0 := Subsingleton.elim _ _
  rw [View.read_apply]
  have ht : t.val - 3 + 3 = t.val := by omega
  have hlt : t.val - 3 + 3 < cfg1.N := by rw [ht]; exact t.isLt
  have hval := acc1_value V c (t.val - 3) hlt (by omega) ⟨t.val / 16, by omega⟩ ⟨(t.val / 4) % 4, by omega⟩
    (by show (t.val - 3) / 16 = t.val / 16; omega) (by show ((t.val - 3) / 4) % 4 = (t.val / 4) % 4; omega) r
  have hacc : acc1 V c t.val t.isLt = acc1 V c (t.val - 3 + 3) hlt := by congr 1 <;> omega
  show acc1 V c t.val t.isLt (ix3 0 0 r) = result1 V c (((cfg1.win 2).blk t).view.emb (ix3 0 0 r))
  rw [hacc, hval]
  show nearest _ _ _ _ = nearest _ _ _ _
  congr 1
  · apply Fin.ext
    show t.val / 16 = win1_2.index t (0 : Fin 3) * 1 + 1 * 0
    omega
  · apply Fin.ext
    show 1024 * ((t.val / 4) % 4) + r.val = win1_2.index t (2 : Fin 3) * 1024 + 1 * r.val
    omega

/-- An index of the result is in position `t`'s block iff each coordinate is in the block's range on its axis. -/
theorem mem_blk1 (t : Fin cfg1.N) (i : S16x1x4096.Idx) :
    i ∈ ((cfg1.win 2).blk t).view.set ↔ ∀ a : Fin 3, win1_2.index t a * S1x1x1024.size a ≤ (i a).val ∧ (i a).val < win1_2.index t a * S1x1x1024.size a + S1x1x1024.size a := by
  show i ∈ ((View.whole main_call1_v0).slice (win1_2.rect t)).set ↔ _
  rw [View.set_slice_whole, Rect.mem_set_unit]
  exact Iff.rfl

/-- Every index (b, 0, n) of the result lies in the block written at the last column tile of batch b, row tile
    n / 1024. -/
theorem covered1 (i : S16x1x4096.Idx) : ∃ t : Fin cfg1.N, (cfg1.win 2).flush t = true ∧ i ∈ ((cfg1.win 2).blk t).view.set := by
  have hN : cfg1.N = 256 := N_1
  have h0 : (i 0).val < 16 := (i 0).isLt
  have h1 : (i 1).val < 1 := (i 1).isLt
  have h2 : (i 2).val < 4096 := (i 2).isLt
  have hk : 16 * (i 0).val + 4 * ((i 2).val / 1024) + 3 < cfg1.N := by omega
  refine ⟨⟨16 * (i 0).val + 4 * ((i 2).val / 1024) + 3, hk⟩, (flush1_2 _).mpr (by show (16 * (i 0).val + 4 * ((i 2).val / 1024) + 3) % 4 = 3; omega), ?_⟩
  obtain ⟨-, -, -, -, -, -, e0, e1, e2⟩ := idx_facts1 ⟨16 * (i 0).val + 4 * ((i 2).val / 1024) + 3, hk⟩
  dsimp only at e0 e1 e2
  rw [mem_blk1]
  intro a
  match a with
  | ⟨0, _⟩ => show win1_2.index _ (0 : Fin 3) * 1 ≤ (i 0).val ∧ (i 0).val < win1_2.index _ (0 : Fin 3) * 1 + 1
              omega
  | ⟨1, _⟩ => show win1_2.index _ (1 : Fin 3) * 1 ≤ (i 1).val ∧ (i 1).val < win1_2.index _ (1 : Fin 3) * 1 + 1
              omega
  | ⟨2, _⟩ => show win1_2.index _ (2 : Fin 3) * 1024 ≤ (i 2).val ∧ (i 2).val < win1_2.index _ (2 : Fin 3) * 1024 + 1024
              omega

/-- THE RESULT ARRAY after the launch. -/
theorem final1 (c : Dev nD) : (dat1 V c).arrAt 2 cfg1.N = result1 V c :=
  (dat1 V c).arrAt_eq_of_cover 2 (result1 V c) (flushed1_eq V c) (covered1)

end Cert.KernelIdeal.Val

end
-- ==== Proof.Val.Tail.lean ====
/-
  After the two launches the program reshapes each [16, 1, 4096] array of minima to [16, 4096] and averages: each
  array is summed along its 4096 entries and divided by 4096, the two [16] vectors are added, summed, and divided by
  16. That tail is the same sequence of host operations in the reference, so it is carried as ONE function of the two
  arrays of minima and never opened. Here: what the host stretches leave in the buffers they write, for any contents
  they start from, and the reshape read at an index.
-/
import proofs.«103797_j83425444758259_1_alg».proof.Proof.Gen.KernelIdeal.Launch
import Idealize.ShloMosaic.Lib.StableHlo.Run
import Idealize.ShloMosaic.Lib.Pipeline.FrameSuffix
import Idealize.ShloMosaic.Lib.Pipeline.Value
import Idealize.ShloMosaic.Lib.ValueIdx
import Idealize.ShloMosaic.PureOps.Ideal

noncomputable section

namespace Cert.KernelIdeal.Val

open Cert.KernelIdeal Cert.KernelIdeal.Gen
open Idealize.ShloMosaic Idealize.ShloMosaic.TcCoe Idealize.SL.Sem Idealize.ShloMosaic.StableHlo Idealize.ShloMosaic.ValueIdx

/-- The mean over the batch of (mean of the first array's rows + mean of the second's), as the host computes it. -/
def tailK (x y : FVec Ideal S16x4096 .f32) : FVec Ideal S_ .f32 :=
  Host.divf (Host.reduceAdd (addf
      (Host.divf (Host.reduceAdd x (constant (F := Ideal) S_ .f32 0x00000000#32) reducesTo_S16x4096_S16_d1 h_S_) (broadcastInDim S16 ![] bcast_S_S16 (constant (F := Ideal) S_ .f32 0x45800000#32)))
      (Host.divf (Host.reduceAdd y (constant (F := Ideal) S_ .f32 0x00000000#32) reducesTo_S16x4096_S16_d1 h_S_) (broadcastInDim S16 ![] bcast_S_S16 (constant (F := Ideal) S_ .f32 0x45800000#32))))
    (constant (F := Ideal) S_ .f32 0x00000000#32) reducesTo_S16_S_d0 h_S_) (constant (F := Ideal) S_ .f32 0x41800000#32)

/-- The last stretch leaves the result at the tail of the two reshaped arrays it finds. -/
theorem after_tail (W : Valuation τ sig (Elt Ideal)) :
    (StableHlo.after (hostOps2_1 (F := Ideal)) W (Proc.devRef .tc main_v10) : S_.Idx → EReal)
      = tailK (W (Proc.devRef .tc main_v0)) (W (Proc.devRef .tc main_v1)) := by
  after_results
  rfl

/-- The first reshape: the first launch's [16, 1, 4096] result as [16, 4096]. -/
theorem after_reshape1 (W : Valuation τ sig (Elt Ideal)) :
    (StableHlo.after (hostOps1 (F := Ideal)) W (Proc.devRef .tc main_v0) : S16x4096.Idx → EReal)
      = shapeCast S16x4096 (W (Proc.devRef .tc main_call0_v0) : S16x1x4096.Idx → EReal) shapeCasts_S16x1x4096_S16x4096 := by
  after_results
  rfl

/-- The second reshape, of the second launch's result. -/
theorem after_reshape2 (W : Valuation τ sig (Elt Ideal)) :
    (StableHlo.after (hostOps2 (F := Ideal)) W (Proc.devRef .tc main_v1) : S16x4096.Idx → EReal)
      = shapeCast S16x4096 (W (Proc.devRef .tc main_call1_v0) : S16x1x4096.Idx → EReal) shapeCasts_S16x1x4096_S16x4096 := by
  after_results
  rfl

/-- The second reshape does not write the first's result. -/
theorem after_reshape2_keeps (W : Valuation τ sig (Elt Ideal)) :
    StableHlo.after (hostOps2 (F := Ideal)) W (Proc.devRef .tc main_v0) = W (Proc.devRef .tc main_v0) :=
  StableHlo.after_of_forall_not_mem (b := Proc.devRef .tc main_v0) _ _ (List.forall_iff_forall_mem.mp (by
    simp only [hostOps2, List.Forall, StableHlo.reshape_writes, Finset.mem_singleton]
    exact StableHlo.devRef_ne_of_ne (by decide)))

/-- A [16, 1, 4096] array read as [16, 4096]: entry (b, n) is entry (b, 0, n), the same row-major position. -/
theorem reshape_apply (x : S16x1x4096.Idx → EReal) (b : Fin 16) (n : Fin 4096) :
    shapeCast S16x4096 x shapeCasts_S16x1x4096_S16x4096 (ix2 b n) = x (ix3 b 0 n) :=
  shapeCast_apply x shapeCasts_S16x1x4096_S16x4096 _ _ (by
    rw [Shape.rowMajor_val_two, Shape.rowMajor_val_three]
    show (b.val * 1 + 0) * 4096 + n.val = b.val * 4096 + n.val
    omega)

end Cert.KernelIdeal.Val

end
-- ==== Proof.Val.KernelValue.lean ====
/-
  The kernel program's result as a function of its two arguments, at the ideal values. The first launch leaves in its
  [16, 1, 4096] result, at (b, 0, n), the least clamped distance from point n of `pred`'s cloud b to `target`'s cloud
  b; the second launch, called on the swapped pair, leaves the least distance from point n of `target`'s cloud to
  `pred`'s. Each is reshaped to [16, 4096] (the same entries) and the shared tail averages them. Neither launch nor
  any host operation writes an argument, so the second launch still finds both as launched.
-/
import proofs.«103797_j83425444758259_1_alg».proof.Proof.KI.Frame
import proofs.«103797_j83425444758259_1_alg».proof.Proof.Val.Final0
import proofs.«103797_j83425444758259_1_alg».proof.Proof.Val.Final1
import proofs.«103797_j83425444758259_1_alg».proof.Proof.Val.Tail
import proofs.«103797_j83425444758259_1_alg».proof.Proof.Val.Spec

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The second launch is entered with `pred` as launched: the first launch only reads it, the reshape writes another
    buffer. -/
theorem V2_main_arg0 (c : Dev nD) : V2 m c main_arg0 = m ((c : Thread nD τ).loc main_arg0) :=
  calc W2 m c (Proc.devRef .tc main_arg0)
    _ = W1 m c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl

/-- And with `target` as launched. -/
theorem V2_main_arg1 (c : Dev nD) : V2 m c main_arg1 = m ((c : Thread nD τ).loc main_arg1) :=
  calc W2 m c (Proc.devRef .tc main_arg1)
    _ = W1 m c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W0 m c (Proc.devRef .tc main_arg1) := (W1_arr m c 1).trans (((dat0 (V0 m) c).arrAt_in 1 rfl _).trans (A_eq0 (V0 m) c 1))
    _ = m ((c : Thread nD τ).loc main_arg1) := rfl

/-- The reshaped result of the first launch, when the closing stretch starts: `pred`'s points against `target`. -/
theorem mins_rows (c : Dev nD) :
    (W4 m c (Proc.devRef .tc main_v0) : S16x4096.Idx → EReal)
      = Cert.Spec.nearestArr (m ((c : Thread nD τ).loc main_arg0)) (m ((c : Thread nD τ).loc main_arg1)) := by
  funext j
  obtain ⟨b, n, rfl⟩ : ∃ (b : Fin 16) (n : Fin 4096), j = ix2 b n := ⟨j 0, j 1, eq_ix2 j⟩
  show (StableHlo.after (hostOps2 (F := Ideal)) (W3 m c) (Proc.devRef .tc main_v0) : S16x4096.Idx → EReal) (ix2 b n) = _
  rw [after_reshape2_keeps, W3_of_ne m c main_v0 (by decide)]
  show (StableHlo.after (hostOps1 (F := Ideal)) (W1 m c) (Proc.devRef .tc main_v0) : S16x4096.Idx → EReal) (ix2 b n) = _
  rw [after_reshape1, reshape_apply, W1_out, final0]
  rfl

/-- The reshaped result of the second launch: `target`'s points against `pred`. -/
theorem mins_cols (c : Dev nD) :
    (W4 m c (Proc.devRef .tc main_v1) : S16x4096.Idx → EReal)
      = Cert.Spec.nearestArr (m ((c : Thread nD τ).loc main_arg1)) (m ((c : Thread nD τ).loc main_arg0)) := by
  funext j
  obtain ⟨b, n, rfl⟩ : ∃ (b : Fin 16) (n : Fin 4096), j = ix2 b n := ⟨j 0, j 1, eq_ix2 j⟩
  show (StableHlo.after (hostOps2 (F := Ideal)) (W3 m c) (Proc.devRef .tc main_v1) : S16x4096.Idx → EReal) (ix2 b n) = _
  rw [after_reshape2, reshape_apply, W3_out, final1]
  show Cert.Spec.nearest (V2 m c main_arg1) (V2 m c main_arg0) b n = _
  rw [V2_main_arg1, V2_main_arg0]
  rfl

/-- THE RESULT of the kernel program: the tail of the two arrays of least distances. -/
theorem result_value (c : Dev nD) :
    (W5 m c (Proc.devRef .tc main_v10) : S_.Idx → EReal)
      = tailK (Cert.Spec.nearestArr (m ((c : Thread nD τ).loc main_arg0)) (m ((c : Thread nD τ).loc main_arg1)))
          (Cert.Spec.nearestArr (m ((c : Thread nD τ).loc main_arg1)) (m ((c : Thread nD τ).loc main_arg0))) := by
  show (StableHlo.after (hostOps2_1 (F := Ideal)) (W4 m c) (Proc.devRef .tc main_v10) : S_.Idx → EReal) = _
  rw [after_tail, mins_rows, mins_cols]

/-- The run, read: the result at that value, the two arguments as launched. -/
theorem run : θ_run defs (onTc (τ := τ) (main (F := Ideal))) ⟨m, fun _ => 0, ρ⟩ fun r => ∀ c : Dev nD,
      r.2.mem ((c.tc : Thread nD τ).loc main_v10)
        = tailK (Cert.Spec.nearestArr (m ((c.tc : Thread nD τ).loc main_arg0)) (m ((c.tc : Thread nD τ).loc main_arg1)))
            (Cert.Spec.nearestArr (m ((c.tc : Thread nD τ).loc main_arg1)) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(h c _ (mem_uc main_v10 (by decide))).trans (result_value m c),
      (h c _ (mem_uc main_arg0 (by decide))).trans (W5_main_arg0 m c),
      (h c _ (mem_uc main_arg1 (by decide))).trans (W5_main_arg1 m c)⟩) (run_all m ρ)

end Cert.KernelIdeal.Val

end
-- ==== Proof.Val.RefValue.lean ====
/-
  The reference program's result, read as the mathematics of the specification.

  At (b, n, m) the host program forms the clamped squared distance between point n of the first cloud and point m of
  the second: |x|² and |y|² as sums of squares taken from 0, the inner product as a sum of products, and then
  max((|x|² + |y|²) − 2·⟨x, y⟩, 0). Its two minimum-reduces fold that array from +∞: over the last axis, which gives
  for each point of the first cloud its least distance to the second cloud, and over the middle axis, which gives for
  each point of the second cloud its least distance to the first — the same quantity with the clouds exchanged,
  because the distance is symmetric. Everything after the two folds is one function of the two arrays of minima.
-/
import proofs.«103797_j83425444758259_1_alg».proof.Proof.Gen.ReferenceIdeal.Read
import proofs.«103797_j83425444758259_1_alg».proof.Proof.Val.Spec

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The tail both programs share, as ONE function of the two [16, 4096] arrays of minima. Each array is summed
    over its 4096 points from 0 and divided by 4096, the two means are added, and the 16 sums are added from 0 and
    divided by 16. -/
def tail (x y : FVec Ideal S16x4096 .f32) : FVec Ideal S_ .f32 :=
  Host.divf (F := Ideal) (Host.reduceAdd (F := Ideal) (addf (Host.divf (F := Ideal) (Host.reduceAdd (F := Ideal) x (constant (F := Ideal) S_ .f32 0x00000000#32) reducesTo_S16x4096_S16_d1 h_S_) (broadcastInDim S16 ![] bcast_S_S16 (constant (F := Ideal) S_ .f32 0x45800000#32))) (Host.divf (F := Ideal) (Host.reduceAdd (F := Ideal) y (constant (F := Ideal) S_ .f32 0x00000000#32) reducesTo_S16x4096_S16_d1 h_S_) (broadcastInDim S16 ![] bcast_S_S16 (constant (F := Ideal) S_ .f32 0x45800000#32)))) (constant (F := Ideal) S_ .f32 0x00000000#32) reducesTo_S16_S_d0 h_S_) (constant (F := Ideal) S_ .f32 0x41800000#32)

/-! ## The indices the stages read at, in coordinates -/

theorem lidx_eq (b : Fin 16) (n m : Fin 4096) (k : Fin 3) :
    Read.lidx_main_v4 (ix3 b n m) k = ix3 b n k :=
  funext fun a => Fin.ext (by match a with | ⟨0, _⟩ => rfl | ⟨1, _⟩ => rfl | ⟨2, _⟩ => rfl)
theorem ridx_eq (b : Fin 16) (n m : Fin 4096) (k : Fin 3) :
    Read.ridx_main_v4 (ix3 b n m) k = ix3 b m k :=
  funext fun a => Fin.ext (by match a with | ⟨0, _⟩ => rfl | ⟨1, _⟩ => rfl | ⟨2, _⟩ => rfl)
theorem idx7_eq (b : Fin 16) (n m : Fin 4096) :
    Read.idx_main_v7 (ix3 b n m) = ix3 b n (0 : Fin 1) :=
  funext fun a => Fin.ext (by match a with | ⟨0, _⟩ => rfl | ⟨1, _⟩ => rfl | ⟨2, _⟩ => rfl)
theorem idx5_eq (b : Fin 16) (n : Fin 4096) :
    Read.idx_main_v5 (ix3 b n (0 : Fin 1)) = ix2 b n :=
  funext fun a => Fin.ext (by match a with | ⟨0, _⟩ => rfl | ⟨1, _⟩ => rfl)
theorem idx1_eq (b : Fin 16) (n : Fin 4096) (k : Fin 3) :
    Read.idx_main_v1 (ix2 b n) k = ix3 b n k :=
  funext fun a => Fin.ext (by match a with | ⟨0, _⟩ => rfl | ⟨1, _⟩ => rfl | ⟨2, _⟩ => rfl)
theorem idx8_eq (b : Fin 16) (n m : Fin 4096) :
    Read.idx_main_v8 (ix3 b n m) = ix3 b (0 : Fin 1) m :=
  funext fun a => Fin.ext (by match a with | ⟨0, _⟩ => rfl | ⟨1, _⟩ => rfl | ⟨2, _⟩ => rfl)
theorem idx6_eq (b : Fin 16) (m : Fin 4096) :
    Read.idx_main_v6 (ix3 b (0 : Fin 1) m) = ix2 b m :=
  funext fun a => Fin.ext (by match a with | ⟨0, _⟩ => rfl | ⟨1, _⟩ => rfl)
theorem idx3_eq (b : Fin 16) (m : Fin 4096) (k : Fin 3) :
    Read.idx_main_v3 (ix2 b m) k = ix3 b m k :=
  funext fun a => Fin.ext (by match a with | ⟨0, _⟩ => rfl | ⟨1, _⟩ => rfl | ⟨2, _⟩ => rfl)

/-! ## The array of clamped distances -/

/-- At (b, n, m) the array the two minimum-reduces fold is the clamped squared distance between point n of the
    first cloud and point m of the second: the two sums of squares start from the zero word, which is 0. -/
theorem dist_apply (P T : FVec Ideal S16x4096x3 .f32) (b : Fin 16) (n m : Fin 4096) :
    Read.val_main_v14 (F := Ideal) P T (ix3 b n m) = Cert.Spec.dist P T b n m := by
  rw [Read.val_main_v14_apply, Read.val_main_v12_apply, Read.val_main_v9_apply, Read.val_main_v7_apply,
    Read.val_main_v5_apply, Read.val_main_v8_apply, Read.val_main_v6_apply,
    Read.val_main_v11_apply, Read.val_main_v10_apply, Read.val_main_v4_apply, Read.val_main_v13_apply,
    idx7_eq, idx5_eq, idx8_eq, idx6_eq, Read.val_main_v1_apply, Read.val_main_v3_apply]
  simp only [lidx_eq, ridx_eq, idx1_eq, idx3_eq, Read.val_main_v0_apply, Read.val_main_v2_apply,
    Read.val_main_cst_apply, Read.val_main_cst_0_apply, Read.val_main_cst_1_apply, Read.val_main_cst_2_apply,
    Ideal.ofBits_def, Ideal.addf_def, Ideal.subf_def, Ideal.mulf_def, Ideal.maximumf_def]
  unfold Cert.Spec.dist Cert.Spec.sq Cert.Spec.dot Cert.Spec.two Cert.Spec.zero
  rw [Ideal.ofBits_zero_f32, zero_add, zero_add]

/-! ## The two minimum-reduces as folds over one axis -/

/-- The reduced index (b, n) with coordinate k put back on the last axis is (b, n, k). -/
theorem lift_last (h : S16x4096x4096.Reduces [2] S16x4096) (b : Fin 16) (n : Fin 4096)
    (k : Fin (S16x4096x4096.size 2)) : h.lift (ix2 b n) k = ix3 b n (⟨k.val, k.isLt⟩ : Fin 4096) := by
  funext c; apply Fin.ext
  fin_cases c <;> rfl

/-- The reduced index (b, m) with coordinate k put back on the middle axis is (b, k, m). -/
theorem lift_mid (h : S16x4096x4096.Reduces [1] S16x4096) (b : Fin 16) (m : Fin 4096)
    (k : Fin (S16x4096x4096.size 1)) : h.lift (ix2 b m) k = ix3 b (⟨k.val, k.isLt⟩ : Fin 4096) m := by
  funext c; apply Fin.ext
  fin_cases c <;> rfl

/-- From +∞ the minimum-reduce over the last axis is, at (b, n), the fold of min over row (b, n): min is
    commutative and associative, so the order the host folds in is immaterial. -/
theorem reduceMin_last (Y : FVec Ideal S16x4096x4096 .f32) (b : Fin 16) (n : Fin 4096) :
    Host.reduce FloatOps.minimumf Y (constant (F := Ideal) S_ .f32 0x7F800000#32) reducesTo_S16x4096x4096_S16x4096_d2 h_S_ (ix2 b n)
      = (Finset.univ : Finset (Fin 4096)).fold min Cert.Spec.pinf fun m => Y (ix3 b n m) := by
  have h : S16x4096x4096.Reduces [2] S16x4096 := by decide
  rw [Host.reduce_eq_fold_single FloatOps.minimumf Y _ reducesTo_S16x4096x4096_S16x4096_d2 h h_S_]
  have hf : (Y ∘ h.lift (ix2 b n)) = fun k : Fin 4096 => Y (ix3 b n k) :=
    funext fun k => congrArg Y (lift_last h b n k)
  exact congrArg (fun f => Finset.fold min (Ideal.ofBits .f32 0x7F800000#32) f (Finset.univ : Finset (Fin 4096))) hf

/-- The same over the middle axis: at (b, m) the fold of min over column (b, ·, m). -/
theorem reduceMin_mid (Y : FVec Ideal S16x4096x4096 .f32) (b : Fin 16) (m : Fin 4096) :
    Host.reduce FloatOps.minimumf Y (constant (F := Ideal) S_ .f32 0x7F800000#32) reducesTo_S16x4096x4096_S16x4096_d1 h_S_ (ix2 b m)
      = (Finset.univ : Finset (Fin 4096)).fold min Cert.Spec.pinf fun n => Y (ix3 b n m) := by
  have h : S16x4096x4096.Reduces [1] S16x4096 := by decide
  rw [Host.reduce_eq_fold_single FloatOps.minimumf Y _ reducesTo_S16x4096x4096_S16x4096_d1 h h_S_]
  have hf : (Y ∘ h.lift (ix2 b m)) = fun k : Fin 4096 => Y (ix3 b k m) :=
    funext fun k => congrArg Y (lift_mid h b m k)
  exact congrArg (fun f => Finset.fold min (Ideal.ofBits .f32 0x7F800000#32) f (Finset.univ : Finset (Fin 4096))) hf

/-! ## The two arrays of minima -/

/-- The reduce over the last axis is the array of least distances from the first cloud's points to the second cloud. -/
theorem mins_rows (P T : FVec Ideal S16x4096x3 .f32) :
    Read.val_main_v15 (F := Ideal) P T = Cert.Spec.nearestArr P T := by
  funext j
  obtain ⟨b, n, rfl⟩ : ∃ (b : Fin 16) (n : Fin 4096), j = ix2 b n := ⟨j 0, j 1, eq_ix2 j⟩
  rw [Cert.Spec.nearestArr_apply]
  unfold Read.val_main_v15
  generalize hY : Read.val_main_v14 (F := Ideal) P T = Y
  refine (reduceMin_last Y b n).trans ?_
  unfold Cert.Spec.nearest
  exact congrArg (fun f => Finset.fold min Cert.Spec.pinf f (Finset.univ : Finset (Fin 4096)))
    (funext fun m => by rw [← hY]; exact dist_apply P T b n m)

/-- The reduce over the middle axis is the array of least distances from the second cloud's points to the first:
    the clamped distance is symmetric, so the fold over the first cloud's points is the other cloud's nearest. -/
theorem mins_cols (P T : FVec Ideal S16x4096x3 .f32) :
    Read.val_main_v16 (F := Ideal) P T = Cert.Spec.nearestArr T P := by
  funext j
  obtain ⟨b, m, rfl⟩ : ∃ (b : Fin 16) (m : Fin 4096), j = ix2 b m := ⟨j 0, j 1, eq_ix2 j⟩
  rw [Cert.Spec.nearestArr_apply]
  unfold Read.val_main_v16
  generalize hY : Read.val_main_v14 (F := Ideal) P T = Y
  refine (reduceMin_mid Y b m).trans ?_
  refine Eq.trans ?_ (Cert.Spec.fold_dist_swap P T b m)
  exact congrArg (fun f => Finset.fold min Cert.Spec.pinf f (Finset.univ : Finset (Fin 4096)))
    (funext fun n => by rw [← hY]; exact dist_apply P T b n m)

/-! ## The result -/

/-- The composed term of the reference's run is the shared tail at the two arrays of least distances. -/
theorem result_eq (P T : FVec Ideal S16x4096x3 .f32) :
    Host.divf (F := Ideal) (Host.reduceAdd (F := Ideal) (addf (Host.divf (F := Ideal) (Host.reduceAdd (F := Ideal) (Host.reduce FloatOps.minimumf (maximumf (subf (addf (broadcastInDim S16x4096x4096 ![0, 1, 2] bcast_S16x4096x1_S16x4096x4096_0_1_2 (broadcastInDim S16x4096x1 ![0, 1] bcast_S16x4096_S16x4096x1_0_1 (Host.reduceAdd (F := Ideal) (mulf P P) (constant (F := Ideal) S_ .f32 0x00000000#32) reducesTo_S16x4096x3_S16x4096_d2 h_S_))) (broadcastInDim S16x4096x4096 ![0, 1, 2] bcast_S16x1x4096_S16x4096x4096_0_1_2 (broadcastInDim S16x1x4096 ![0, 2] bcast_S16x4096_S16x1x4096_0_2 (Host.reduceAdd (F := Ideal) (mulf T T) (constant (F := Ideal) S_ .f32 0x00000000#32) reducesTo_S16x4096x3_S16x4096_d2 h_S_)))) (mulf (broadcastInDim S16x4096x4096 ![] bcast_S_S16x4096x4096 (constant (F := Ideal) S_ .f32 0x40000000#32)) (Host.dotGeneral (F := Ideal) dot_S16x4096x3_S16x4096x3_S16x4096x4096_2_2_1_1_0_0 none P T))) (broadcastInDim S16x4096x4096 ![] bcast_S_S16x4096x4096 (constant (F := Ideal) S_ .f32 0x00000000#32))) (constant (F := Ideal) S_ .f32 0x7F800000#32) reducesTo_S16x4096x4096_S16x4096_d2 h_S_) (constant (F := Ideal) S_ .f32 0x00000000#32) reducesTo_S16x4096_S16_d1 h_S_) (broadcastInDim S16 ![] bcast_S_S16 (constant (F := Ideal) S_ .f32 0x45800000#32))) (Host.divf (F := Ideal) (Host.reduceAdd (F := Ideal) (Host.reduce FloatOps.minimumf (maximumf (subf (addf (broadcastInDim S16x4096x4096 ![0, 1, 2] bcast_S16x4096x1_S16x4096x4096_0_1_2 (broadcastInDim S16x4096x1 ![0, 1] bcast_S16x4096_S16x4096x1_0_1 (Host.reduceAdd (F := Ideal) (mulf P P) (constant (F := Ideal) S_ .f32 0x00000000#32) reducesTo_S16x4096x3_S16x4096_d2 h_S_))) (broadcastInDim S16x4096x4096 ![0, 1, 2] bcast_S16x1x4096_S16x4096x4096_0_1_2 (broadcastInDim S16x1x4096 ![0, 2] bcast_S16x4096_S16x1x4096_0_2 (Host.reduceAdd (F := Ideal) (mulf T T) (constant (F := Ideal) S_ .f32 0x00000000#32) reducesTo_S16x4096x3_S16x4096_d2 h_S_)))) (mulf (broadcastInDim S16x4096x4096 ![] bcast_S_S16x4096x4096 (constant (F := Ideal) S_ .f32 0x40000000#32)) (Host.dotGeneral (F := Ideal) dot_S16x4096x3_S16x4096x3_S16x4096x4096_2_2_1_1_0_0 none P T))) (broadcastInDim S16x4096x4096 ![] bcast_S_S16x4096x4096 (constant (F := Ideal) S_ .f32 0x00000000#32))) (constant (F := Ideal) S_ .f32 0x7F800000#32) reducesTo_S16x4096x4096_S16x4096_d1 h_S_) (constant (F := Ideal) S_ .f32 0x00000000#32) reducesTo_S16x4096_S16_d1 h_S_) (broadcastInDim S16 ![] bcast_S_S16 (constant (F := Ideal) S_ .f32 0x45800000#32)))) (constant (F := Ideal) S_ .f32 0x00000000#32) reducesTo_S16_S_d0 h_S_) (constant (F := Ideal) S_ .f32 0x41800000#32)
      = tail (Cert.Spec.nearestArr P T) (Cert.Spec.nearestArr T P) := by
  have e : Read.val_main_v25 (F := Ideal) P T
      = tail (Read.val_main_v15 (F := Ideal) P T) (Read.val_main_v16 (F := Ideal) P T) := rfl
  exact (Read.val_main_v25_eq (F := Ideal) P T).trans (e.trans (by rw [mins_rows, mins_cols]))

/-- Every weakly fair execution of the reference ends with its result at the shared tail of the two arrays of least
    distances, the arguments unchanged. -/
theorem run_spec (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread nD τ).loc main_v25)
            = tail (Cert.Spec.nearestArr (m ((c.tc : Thread nD τ).loc main_arg0)) (m ((c.tc : Thread nD τ).loc main_arg1)))
                (Cert.Spec.nearestArr (m ((c.tc : Thread nD τ).loc main_arg1)) (m ((c.tc : Thread nD τ).loc main_arg0)))
          ∧ r.2.mem ((c.tc : Thread nD τ).loc main_arg0) = m ((c.tc : Thread nD τ).loc main_arg0)
          ∧ r.2.mem ((c.tc : Thread nD τ).loc main_arg1) = m ((c.tc : Thread nD τ).loc main_arg1)) :=
  (θ_run (Cert.ReferenceIdeal.defs (F := Ideal)) _ _).mono
    (fun _ h c => ⟨(h c).1.trans (result_eq _ _), (h c).2⟩)
    (Cert.ReferenceIdeal.Value.run (F := Ideal) m ρ)

end Cert.ReferenceIdeal.RefValue

end
-- ==== Proof.lean ====
/-
  The certificate of the Chamfer-loss kernel against its reference.

  Both programs compute, for two batches of 16 clouds of 4096 points in 3-space, the mean over the batch of (the mean
  over `pred`'s points of the least clamped squared distance to `target`'s cloud) + (the mean over `target`'s points of
  the least clamped squared distance to `pred`'s cloud), the distance being max((|x|² + |y|²) − 2⟨x, y⟩, 0). The
  reference takes both minima off one [16, 4096, 4096] array of distances; the kernel program launches one kernel
  twice, on (pred, target) and on (target, pred), each launch folding the minimum over four column tiles in a scratch
  buffer. Over the extended reals the two agree because the distance is symmetric (addition and multiplication
  commute) and a minimum may be taken tile by tile; no law that needs finiteness is used, so the precondition is
  never opened. The frames of the two kernel programs are one text, read at the two instances.
-/
import proofs.«103797_j83425444758259_1_alg».proof.Defs
import proofs.«103797_j83425444758259_1_alg».proof.Proof.Gen.Kernel
import proofs.«103797_j83425444758259_1_alg».proof.Proof.Gen.KernelIdeal
import proofs.«103797_j83425444758259_1_alg».proof.Proof.Gen.ReferenceIdeal
import proofs.«103797_j83425444758259_1_alg».proof.Proof.Gen.Pre_finite_inputs
import proofs.«103797_j83425444758259_1_alg».proof.Proof.KB.Frame
import proofs.«103797_j83425444758259_1_alg».proof.Proof.KI.Frame
import proofs.«103797_j83425444758259_1_alg».proof.Proof.Val.KernelValue
import proofs.«103797_j83425444758259_1_alg».proof.Proof.Val.RefValue

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end at the shared tail of the same two arrays of least distances. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
